-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x3 : Shape := ⟨3, ![4, 16384, 3]⟩
abbrev S4x16x16384x1 : Shape := ⟨4, ![4, 16, 16384, 1]⟩
abbrev S4x16384x16 : Shape := ⟨3, ![4, 16384, 16]⟩
abbrev S16x10 : Shape := ⟨2, ![16, 10]⟩
abbrev S16 : Shape := ⟨1, ![16]⟩
abbrev S_ : Shape := ⟨0, ![]⟩

class Facts : Prop where
  bcast_S_S4x16384x3 : S_.BroadcastsInDim S4x16384x3 (![] : Fin 0 → Fin S4x16384x3.rank)
  reducesTo_S4x16384x3_S_d0_1_2 : S4x16384x3.ReducesTo [0, 1, 2] S_
  h_S_ : 0 < S_.numel
  bcast_S_S4x16x16384x1 : S_.BroadcastsInDim S4x16x16384x1 (![] : Fin 0 → Fin S4x16x16384x1.rank)
  reducesTo_S4x16x16384x1_S_d0_1_2_3 : S4x16x16384x1.ReducesTo [0, 1, 2, 3] S_
  bcast_S_S4x16384x16 : S_.BroadcastsInDim S4x16384x16 (![] : Fin 0 → Fin S4x16384x16.rank)
  reducesTo_S4x16384x16_S_d0_1_2 : S4x16384x16.ReducesTo [0, 1, 2] S_
  bcast_S_S16x10 : S_.BroadcastsInDim S16x10 (![] : Fin 0 → Fin S16x10.rank)
  reducesTo_S16x10_S_d0_1 : S16x10.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_arg6 : FVec F S16 .f32) (main_arg7 : FVec F S16 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S4x16384x3 .f32) (main_arg1 : FVec F S4x16x16384x1 .f32) (main_arg2 : IVec S4x16384x16 32) (main_arg3 : FVec F S4x16384x16 .f32) (main_arg4 : FVec F S16x10 .f32) (main_arg5 : FVec F S16 .f32) (main_arg6 : FVec F S16 .f32) (main_arg7 : FVec F S16 .f32) : IVec S_ 1 :=
  let main_v0 : FVec F S4x16384x3 .f32 := Host.absf main_arg0
  let main_cst : FVec F S_ .f32 := constant S_ .f32 0x7F800000#32
  let main_v1 : FVec F S4x16384x3 .f32 := broadcastInDim S4x16384x3 ![] bcast_S_S4x16384x3 main_cst
  let main_v2 : IVec S4x16384x3 1 := cmpf .olt main_v0 main_v1
  let main_c : IVec S_ 1 := constantI S_ 1 1#1
  let main_v3 : IVec S_ 1 := (fun x v => Host.reduce IntOp.andi x v reducesTo_S4x16384x3_S_d0_1_2 h_S_) main_v2 main_c
  let main_v4 : FVec F S4x16x16384x1 .f32 := Host.absf main_arg1
  let main_cst_0 : FVec F S_ .f32 := constant S_ .f32 0x7F800000#32
  let main_v5 : FVec F S4x16x16384x1 .f32 := broadcastInDim S4x16x16384x1 ![] bcast_S_S4x16x16384x1 main_cst_0
  let main_v6 : IVec S4x16x16384x1 1 := cmpf .olt main_v4 main_v5
  let main_c_1 : IVec S_ 1 := constantI S_ 1 1#1
  let main_v7 : IVec S_ 1 := (fun x v => Host.reduce IntOp.andi x v reducesTo_S4x16x16384x1_S_d0_1_2_3 h_S_) main_v6 main_c_1
  let main_v8 : IVec S_ 1 := andi main_v3 main_v7
  let main_v9 : FVec F S4x16384x16 .f32 := Host.absf main_arg3
  let main_cst_2 : FVec F S_ .f32 := constant S_ .f32 0x7F800000#32
  let main_v10 : FVec F S4x16384x16 .f32 := broadcastInDim S4x16384x16 ![] bcast_S_S4x16384x16 main_cst_2
  let main_v11 : IVec S4x16384x16 1 := cmpf .olt main_v9 main_v10
  let main_c_3 : IVec S_ 1 := constantI S_ 1 1#1
  let main_v12 : IVec S_ 1 := (fun x v => Host.reduce IntOp.andi x v reducesTo_S4x16384x16_S_d0_1_2 h_S_) main_v11 main_c_3
  let main_v13 : IVec S_ 1 := andi main_v8 main_v12
  let main_v14 : FVec F S16x10 .f32 := Host.absf main_arg4
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg5 main_arg6 main_arg7 main_v13 main_v16
-- ==== Kernel.lean ====
abbrev S4x16384x3 : Shape := ⟨3, ![4, 16384, 3]⟩
abbrev S4x16x16384x1 : Shape := ⟨4, ![4, 16, 16384, 1]⟩
abbrev S4x16384x16 : Shape := ⟨3, ![4, 16384, 16]⟩
abbrev S16x10 : Shape := ⟨2, ![16, 10]⟩
abbrev S16 : Shape := ⟨1, ![16]⟩
abbrev S_ : Shape := ⟨0, ![]⟩
abbrev S4x16384x16x1 : Shape := ⟨4, ![4, 16384, 16, 1]⟩
abbrev S4x16384x16x3 : Shape := ⟨4, ![4, 16384, 16, 3]⟩
abbrev S4x16x16384 : Shape := ⟨3, ![4, 16, 16384]⟩
abbrev S10x16 : Shape := ⟨2, ![10, 16]⟩
abbrev S1x16 : Shape := ⟨2, ![1, 16]⟩
abbrev S1x1024x3 : Shape := ⟨3, ![1, 1024, 3]⟩
abbrev S1x1024x16x3 : Shape := ⟨4, ![1, 1024, 16, 3]⟩
abbrev S1x1024x16 : Shape := ⟨3, ![1, 1024, 16]⟩
abbrev S1024x3 : Shape := ⟨2, ![1024, 3]⟩
abbrev S1x1024x1x3 : Shape := ⟨4, ![1, 1024, 1, 3]⟩
abbrev S1x1024x1 : Shape := ⟨3, ![1, 1024, 1]⟩
abbrev S1024 : Shape := ⟨1, ![1024]⟩
abbrev S1024x1 : Shape := ⟨2, ![1024, 1]⟩
abbrev S1024x10 : Shape := ⟨2, ![1024, 10]⟩
abbrev S1024x16 : Shape := ⟨2, ![1024, 16]⟩
abbrev S4x16384x512 : Shape := ⟨3, ![4, 16384, 512]⟩
abbrev S1x1024x512 : Shape := ⟨3, ![1, 1024, 512]⟩
abbrev S1024x32 : Shape := ⟨2, ![1024, 32]⟩
abbrev S1024x512 : Shape := ⟨2, ![1024, 512]⟩
abbrev S4x16384x16x32 : Shape := ⟨4, ![4, 16384, 16, 32]⟩
abbrev S4x32x16384x16 : Shape := ⟨4, ![4, 32, 16384, 16]⟩

abbrev nBuf : Space → Nat
  | .hbm => 36
  | .vmem => 26
  | .smem => 0
  | _ => 0

abbrev bufTy : (tb : Table) → Fin (tcTables nBuf tb) → BufTy
  | .hbm, ⟨0, _⟩ => ⟨S4x16384x3, .f32⟩
  | .hbm, ⟨1, _⟩ => ⟨S4x16x16384x1, .f32⟩
  | .hbm, ⟨2, _⟩ => ⟨S4x16384x16, .i32⟩
  | .hbm, ⟨3, _⟩ => ⟨S4x16384x16, .f32⟩
  | .hbm, ⟨4, _⟩ => ⟨S16x10, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S_, .i32⟩
  | .hbm, ⟨9, _⟩ => ⟨S4x16384x16, .i32⟩
  | .hbm, ⟨10, _⟩ => ⟨S4x16384x16, .i1⟩
  | .hbm, ⟨11, _⟩ => ⟨S_, .i32⟩
  | .hbm, ⟨12, _⟩ => ⟨S4x16384x16, .i32⟩
  | .hbm, ⟨13, _⟩ => ⟨S4x16384x16, .i32⟩
  | .hbm, ⟨14, _⟩ => ⟨S4x16384x16, .i32⟩
  | .hbm, ⟨15, _⟩ => ⟨S4x16384x16x1, .i32⟩
  | .hbm, ⟨16, _⟩ => ⟨S4x16384x16x3, .f32⟩
  | .hbm, ⟨17, _⟩ => ⟨S4x16x16384, .f32⟩
  | .hbm, ⟨18, _⟩ => ⟨S4x16384x16, .f32⟩
  | .hbm, ⟨19, _⟩ => ⟨S10x16, .f32⟩
  | .hbm, ⟨20, _⟩ => ⟨S1x16, .f32⟩
  | .hbm, ⟨21, _⟩ => ⟨S1x16, .f32⟩
  | .hbm, ⟨22, _⟩ => ⟨S1x16, .f32⟩
  | .hbm, ⟨23, _⟩ => ⟨S1x16, .f32⟩
  | .hbm, ⟨24, _⟩ => ⟨S1x16, .f32⟩
  | .hbm, ⟨25, _⟩ => ⟨S_, .f32⟩
  | .hbm, ⟨26, _⟩ => ⟨S1x16, .f32⟩
  | .hbm, ⟨27, _⟩ => ⟨S1x16, .f32⟩
  | .hbm, ⟨28, _⟩ => ⟨S_, .f32⟩
  | .hbm, ⟨29, _⟩ => ⟨S1x16, .f32⟩
  | .hbm, ⟨30, _⟩ => ⟨S1x16, .f32⟩
  | .hbm, ⟨31, _⟩ => ⟨S1x16, .f32⟩
  | .hbm, ⟨32, _⟩ => ⟨S1x16, .f32⟩
  | .hbm, ⟨33, _⟩ => ⟨S4x16384x512, .f32⟩
  | .hbm, ⟨34, _⟩ => ⟨S4x16384x16x32, .f32⟩
  | .hbm, ⟨35, _⟩ => ⟨S4x32x16384x16, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x16x3, .f32⟩
  | .local _ .vmem, ⟨3, _⟩ => ⟨S1x1024x16x3, .f32⟩
  | .local _ .vmem, ⟨4, _⟩ => ⟨S1x1024x16, .f32⟩
  | .local _ .vmem, ⟨5, _⟩ => ⟨S1x1024x16, .f32⟩
  | .local _ .vmem, ⟨6, _⟩ => ⟨S10x16, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S1x1024x3, .f32⟩
  | .local _ .vmem, ⟨11, _⟩ => ⟨S1x1024x3, .f32⟩
  | .local _ .vmem, ⟨12, _⟩ => ⟨S1x1024x16x3, .f32⟩
  | .local _ .vmem, ⟨13, _⟩ => ⟨S1x1024x16x3, .f32⟩
  | .local _ .vmem, ⟨14, _⟩ => ⟨S1x1024x16, .f32⟩
  | .local _ .vmem, ⟨15, _⟩ => ⟨S1x1024x16, .f32⟩
  | .local _ .vmem, ⟨16, _⟩ => ⟨S1x1024x16, .f32⟩
  | .local _ .vmem, ⟨17, _⟩ => ⟨S1x1024x16, .f32⟩
  | .local _ .vmem, ⟨18, _⟩ => ⟨S10x16, .f32⟩
  | .local _ .vmem, ⟨19, _⟩ => ⟨S1x16, .f32⟩
  | .local _ .vmem, ⟨20, _⟩ => ⟨S1x16, .f32⟩
  | .local _ .vmem, ⟨21, _⟩ => ⟨S1x16, .f32⟩
  | .local _ .vmem, ⟨22, _⟩ => ⟨S1x16, .f32⟩
  | .local _ .vmem, ⟨23, _⟩ => ⟨S1x16, .f32⟩
  | .local _ .vmem, ⟨24, _⟩ => ⟨S1x1024x512, .f32⟩
  | .local _ .vmem, ⟨25, _⟩ => ⟨S1x1024x512, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S10x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x16x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S10x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x1024x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

class Facts₀ : Prop where
  bcast_S_S4x16384x16 : S_.BroadcastsInDim S4x16384x16 (![] : Fin 0 → Fin S4x16384x16.rank)
  bcast_S4x16384x16_S4x16384x16x1_0_1_2 : S4x16384x16.BroadcastsInDim S4x16384x16x1 (![0, 1, 2] : Fin 3 → Fin S4x16384x16x1.rank)
  shapeCasts_S4x16x16384x1_S4x16x16384 : S4x16x16384x1.ShapeCasts S4x16x16384
  transposes_S4x16x16384_S4x16384x16_0_2_1 : S4x16x16384.Transposes [0, 2, 1] S4x16384x16
  transposes_S16x10_S10x16_1_0 : S16x10.Transposes [1, 0] S10x16
  shapeCasts_S16_S1x16 : S16.ShapeCasts S1x16
  inb_S1x16_S1x16_0_0 : ∀ a, (![0, 0] : Fin 2 → Nat) a + S1x16.size a ≤ S1x16.size a
  h_S1x16 : 0 < S1x16.numel
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S10x16_S10x16_0_0 : ∀ a, (![0, 0] : Fin 2 → Nat) a + S10x16.size a ≤ S10x16.size a
  h_S10x16 : 0 < S10x16.numel
  shapeCasts_S10x16_S10x16 : S10x16.ShapeCasts S10x16
  shapeCasts_S1x16_S1x16 : S1x16.ShapeCasts S1x16
  inb_S1x1024x16x3_S1x1024x1x3_0_0_0_0 : ∀ a, (![0, 0, 0, 0] : Fin 4 → Nat) a + S1x1024x1x3.size a ≤ S1x1024x16x3.size a
  h_S1x1024x1x3 : 0 < S1x1024x1x3.numel
  shapeCasts_S1x1024x1x3_S1024x3 : S1x1024x1x3.ShapeCasts S1024x3
  inb_S1x1024x16_S1x1024x1_0_0_0 : ∀ a, (![0, 0, 0] : Fin 3 → Nat) a + S1x1024x1.size a ≤ S1x1024x16.size a
  h_S1x1024x1 : 0 < S1x1024x1.numel
  shapeCasts_S1x1024x1_S1024 : S1x1024x1.ShapeCasts S1024
  shapeCasts_S1024_S1024x1 : S1024.ShapeCasts S1024x1
  concatenates_S1024x3_S1024x3_S1024x3_S1024x1_S1024x10_d1 : Shape.Concatenates [S1024x3, S1024x3, S1024x3, S1024x1] S1024x10 1
  broadcasts_S1x16_S1024x16 : S1x16.Broadcasts S1024x16
  reduces_S1024x16_S16 : S1024x16.Reduces [0] S16
  inb_S1x1024x16x3_S1x1024x1x3_0_0_1_0 : ∀ a, (![0, 0, 1, 0] : Fin 4 → Nat) a + S1x1024x1x3.size a ≤ S1x1024x16x3.size a
  inb_S1x1024x16_S1x1024x1_0_0_1 : ∀ a, (![0, 0, 1] : Fin 3 → Nat) a + S1x1024x1.size a ≤ S1x1024x16.size a
  inb_S1x1024x16x3_S1x1024x1x3_0_0_2_0 : ∀ a, (![0, 0, 2, 0] : Fin 4 → Nat) a + S1x1024x1x3.size a ≤ S1x1024x16x3.size a
  inb_S1x1024x16_S1x1024x1_0_0_2 : ∀ a, (![0, 0, 2] : Fin 3 → Nat) a + S1x1024x1.size a ≤ S1x1024x16.size a
  inb_S1x1024x16x3_S1x1024x1x3_0_0_3_0 : ∀ a, (![0, 0, 3, 0] : Fin 4 → Nat) a + S1x1024x1x3.size a ≤ S1x1024x16x3.size a
  inb_S1x1024x16_S1x1024x1_0_0_3 : ∀ a, (![0, 0, 3] : Fin 3 → Nat) a + S1x1024x1.size a ≤ S1x1024x16.size a
  inb_S1x1024x16x3_S1x1024x1x3_0_0_4_0 : ∀ a, (![0, 0, 4, 0] : Fin 4 → Nat) a + S1x1024x1x3.size a ≤ S1x1024x16x3.size a
  inb_S1x1024x16_S1x1024x1_0_0_4 : ∀ a, (![0, 0, 4] : Fin 3 → Nat) a + S1x1024x1.size a ≤ S1x1024x16.size a
  inb_S1x1024x16x3_S1x1024x1x3_0_0_5_0 : ∀ a, (![0, 0, 5, 0] : Fin 4 → Nat) a + S1x1024x1x3.size a ≤ S1x1024x16x3.size a
  inb_S1x1024x16_S1x1024x1_0_0_5 : ∀ a, (![0, 0, 5] : Fin 3 → Nat) a + S1x1024x1.size a ≤ S1x1024x16.size a
  inb_S1x1024x16x3_S1x1024x1x3_0_0_6_0 : ∀ a, (![0, 0, 6, 0] : Fin 4 → Nat) a + S1x1024x1x3.size a ≤ S1x1024x16x3.size a
  inb_S1x1024x16_S1x1024x1_0_0_6 : ∀ a, (![0, 0, 6] : Fin 3 → Nat) a + S1x1024x1.size a ≤ S1x1024x16.size a
  inb_S1x1024x16x3_S1x1024x1x3_0_0_7_0 : ∀ a, (![0, 0, 7, 0] : Fin 4 → Nat) a + S1x1024x1x3.size a ≤ S1x1024x16x3.size a
  inb_S1x1024x16_S1x1024x1_0_0_7 : ∀ a, (![0, 0, 7] : Fin 3 → Nat) a + S1x1024x1.size a ≤ S1x1024x16.size a
  inb_S1x1024x16x3_S1x1024x1x3_0_0_8_0 : ∀ a, (![0, 0, 8, 0] : Fin 4 → Nat) a + S1x1024x1x3.size a ≤ S1x1024x16x3.size a
  inb_S1x1024x16_S1x1024x1_0_0_8 : ∀ a, (![0, 0, 8] : Fin 3 → Nat) a + S1x1024x1.size a ≤ S1x1024x16.size a
  inb_S1x1024x16x3_S1x1024x1x3_0_0_9_0 : ∀ a, (![0, 0, 9, 0] : Fin 4 → Nat) a + S1x1024x1x3.size a ≤ S1x1024x16x3.size a
  inb_S1x1024x16_S1x1024x1_0_0_9 : ∀ a, (![0, 0, 9] : Fin 3 → Nat) a + S1x1024x1.size a ≤ S1x1024x16.size a
  inb_S1x1024x16x3_S1x1024x1x3_0_0_10_0 : ∀ a, (![0, 0, 10, 0] : Fin 4 → Nat) a + S1x1024x1x3.size a ≤ S1x1024x16x3.size a
  inb_S1x1024x16_S1x1024x1_0_0_10 : ∀ a, (![0, 0, 10] : Fin 3 → Nat) a + S1x1024x1.size a ≤ S1x1024x16.size a
  inb_S1x1024x16x3_S1x1024x1x3_0_0_11_0 : ∀ a, (![0, 0, 11, 0] : Fin 4 → Nat) a + S1x1024x1x3.size a ≤ S1x1024x16x3.size a
  inb_S1x1024x16_S1x1024x1_0_0_11 : ∀ a, (![0, 0, 11] : Fin 3 → Nat) a + S1x1024x1.size a ≤ S1x1024x16.size a
  inb_S1x1024x16x3_S1x1024x1x3_0_0_12_0 : ∀ a, (![0, 0, 12, 0] : Fin 4 → Nat) a + S1x1024x1x3.size a ≤ S1x1024x16x3.size a
  inb_S1x1024x16_S1x1024x1_0_0_12 : ∀ a, (![0, 0, 12] : Fin 3 → Nat) a + S1x1024x1.size a ≤ S1x1024x16.size a
  inb_S1x1024x16x3_S1x1024x1x3_0_0_13_0 : ∀ a, (![0, 0, 13, 0] : Fin 4 → Nat) a + S1x1024x1x3.size a ≤ S1x1024x16x3.size a
  inb_S1x1024x16_S1x1024x1_0_0_13 : ∀ a, (![0, 0, 13] : Fin 3 → Nat) a + S1x1024x1.size a ≤ S1x1024x16.size a
  inb_S1x1024x16x3_S1x1024x1x3_0_0_14_0 : ∀ a, (![0, 0, 14, 0] : Fin 4 → Nat) a + S1x1024x1x3.size a ≤ S1x1024x16x3.size a
  inb_S1x1024x16_S1x1024x1_0_0_14 : ∀ a, (![0, 0, 14] : Fin 3 → Nat) a + S1x1024x1.size a ≤ S1x1024x16.size a
  inb_S1x1024x16x3_S1x1024x1x3_0_0_15_0 : ∀ a, (![0, 0, 15, 0] : Fin 4 → Nat) a + S1x1024x1x3.size a ≤ S1x1024x16x3.size a
  inb_S1x1024x16_S1x1024x1_0_0_15 : ∀ a, (![0, 0, 15] : Fin 3 → Nat) a + S1x1024x1.size a ≤ S1x1024x16.size a
  bcast_S_S1x16 : S_.BroadcastsInDim S1x16 (![] : Fin 0 → Fin S1x16.rank)
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  concatenates_S1024x16_S1024x16_S1024x32_d1 : Shape.Concatenates [S1024x16, S1024x16] S1024x32 1
  concatenates_S1024x32_S1024x32_S1024x32_S1024x32_S1024x32_S1024x32_S1024x32_S1024x32_S1024x32_S1024x32_S1024x32_S1024x32_S1024x32_S1024x32_S1024x32_S1024x32_S1024x512_d1 : Shape.Concatenates [S1024x32, S1024x32, S1024x32, S1024x32, S1024x32, S1024x32, S1024x32, S1024x32, S1024x32, S1024x32, S1024x32, S1024x32, S1024x32, S1024x32, S1024x32, S1024x32] S1024x512 1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  shapeCasts_S4x16384x512_S4x16384x16x32 : S4x16384x512.ShapeCasts S4x16384x16x32
  transposes_S4x16384x16x32_S4x32x16384x16_0_3_1_2 : S4x16384x16x32.Transposes [0, 3, 1, 2] S4x32x16384x16
  gather_S4x16384x3_S4x16384x16x1_S4x16384x16x3_3_1_0_0_1_3_113_wf : GatherDims.WF S4x16384x3 S4x16384x16x1 S4x16384x16x3 [3] [1] [0] [1] [0] 3 ![1, 1, 3]
  dot_S1024x10_S10x16_S1024x16_1_0_0_1_n_n_wf : DotDims.WF S1024x10 S10x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x16384x3.size a
  hwx0_0 : ∀ i : grid0.Coords, EltTy.bits .f32 = 32 ∨ (Rect.block (s := S4x16384x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x16x3.size a ≤ S4x16384x16x3.size a
  hwx0_1 : ∀ i : grid0.Coords, EltTy.bits .f32 = 32 ∨ (Rect.block (s := S4x16384x16x3) S1x1024x16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x16.size a ≤ S4x16384x16.size a
  hwx0_2 : ∀ i : grid0.Coords, EltTy.bits .f32 = 32 ∨ (Rect.block (s := S4x16384x16) S1x1024x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x16.size a ≤ S10x16.size a
  hwx0_3 : ∀ i : grid0.Coords, EltTy.bits .f32 = 32 ∨ (Rect.block (s := S10x16) S10x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x3.size a ≤ S4x16384x3.size a
  hwx1_0 : ∀ i : grid1.Coords, EltTy.bits .f32 = 32 ∨ (Rect.block (s := S4x16384x3) S1x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x16x3.size a ≤ S4x16384x16x3.size a
  hwx1_1 : ∀ i : grid1.Coords, EltTy.bits .f32 = 32 ∨ (Rect.block (s := S4x16384x16x3) S1x1024x16x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x16.size a ≤ S4x16384x16.size a
  hwx1_2 : ∀ i : grid1.Coords, EltTy.bits .f32 = 32 ∨ (Rect.block (s := S4x16384x16) S1x1024x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x16.size a ≤ S4x16384x16.size a
  hwx1_3 : ∀ i : grid1.Coords, EltTy.bits .f32 = 32 ∨ (Rect.block (s := S4x16384x16) S1x1024x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S10x16.size a ≤ S10x16.size a
  hwx1_4 : ∀ i : grid1.Coords, EltTy.bits .f32 = 32 ∨ (Rect.block (s := S10x16) S10x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x16.size a ≤ S1x16.size a
  hwx1_7 : ∀ i : grid1.Coords, EltTy.bits .f32 = 32 ∨ (Rect.block (s := S1x16) S1x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x16.size a ≤ S1x16.size a
  hwx1_8 : ∀ i : grid1.Coords, EltTy.bits .f32 = 32 ∨ (Rect.block (s := S1x16) S1x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x16.size a ≤ S1x16.size a
  hwx1_9 : ∀ i : grid1.Coords, EltTy.bits .f32 = 32 ∨ (Rect.block (s := S1x16) S1x16.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1024x512.size a ≤ S4x16384x512.size a
  hwx1_10 : ∀ i : grid1.Coords, EltTy.bits .f32 = 32 ∨ (Rect.block (s := S4x16384x512) S1x1024x512.size (cc1_transform_10 i) (hinb1_10 i)).WholeWords (EltTy.packing .f32)

variable [Facts₀]

def gather_S4x16384x3_S4x16384x16x1_S4x16384x16x3_3_1_0_0_1_3_113 : GatherDims S4x16384x3 S4x16384x16x1 S4x16384x16x3 where
  offsetDims := [3]
  collapsedSliceDims := [1]
  operandBatchingDims := [0]
  startIndicesBatchingDims := [0]
  startIndexMap := [1]
  indexVectorDim := 3
  sliceSizes := ![1, 1, 3]
  wf := gather_S4x16384x3_S4x16384x16x1_S4x16384x16x3_3_1_0_0_1_3_113_wf
def dot_S1024x10_S10x16_S1024x16_1_0_0_1_n_n : DotDims S1024x10 S10x16 S1024x16 where
  lhsContracting := [1]
  rhsContracting := [0]
  lhsNonContracting := [0]
  rhsNonContracting := [1]
  lhsBatch := []
  rhsBatch := []
  wf := dot_S1024x10_S10x16_S1024x16_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1024x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S10x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S1x16.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S1x16.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1024x16x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x1024x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S10x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S1x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19) S1x16.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20) S1x1024x512.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S4x16384x3 : Shape := ⟨3, ![4, 16384, 3]⟩
abbrev S4x16x16384x1 : Shape := ⟨4, ![4, 16, 16384, 1]⟩
abbrev S4x16384x16 : Shape := ⟨3, ![4, 16384, 16]⟩
abbrev S16x10 : Shape := ⟨2, ![16, 10]⟩
abbrev S16 : Shape := ⟨1, ![16]⟩
abbrev S_ : Shape := ⟨0, ![]⟩
abbrev S4x16384x16x1 : Shape := ⟨4, ![4, 16384, 16, 1]⟩
abbrev S4x16384x16x3 : Shape := ⟨4, ![4, 16384, 16, 3]⟩
abbrev S4x16384x1x3 : Shape := ⟨4, ![4, 16384, 1, 3]⟩
abbrev S4x16384x16x10 : Shape := ⟨4, ![4, 16384, 16, 10]⟩
abbrev S16x4x16384x16 : Shape := ⟨4, ![16, 4, 16384, 16]⟩
abbrev S4x16x16384x16 : Shape := ⟨4, ![4, 16, 16384, 16]⟩
abbrev S1x16x1x1 : Shape := ⟨4, ![1, 16, 1, 1]⟩
abbrev S4x32x16384x16 : Shape := ⟨4, ![4, 32, 16384, 16]⟩

abbrev nBuf : Space → Nat
  | .hbm => 61
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x16x16384x1, .f32⟩
  | .hbm, ⟨2, _⟩ => ⟨S4x16384x16, .i32⟩
  | .hbm, ⟨3, _⟩ => ⟨S4x16384x16, .f32⟩
  | .hbm, ⟨4, _⟩ => ⟨S16x10, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S_, .i32⟩
  | .hbm, ⟨9, _⟩ => ⟨S4x16384x16, .i32⟩
  | .hbm, ⟨10, _⟩ => ⟨S4x16384x16, .i1⟩
  | .hbm, ⟨11, _⟩ => ⟨S_, .i32⟩
  | .hbm, ⟨12, _⟩ => ⟨S4x16384x16, .i32⟩
  | .hbm, ⟨13, _⟩ => ⟨S4x16384x16, .i32⟩
  | .hbm, ⟨14, _⟩ => ⟨S4x16384x16, .i32⟩
  | .hbm, ⟨15, _⟩ => ⟨S4x16384x16x1, .i32⟩
  | .hbm, ⟨16, _⟩ => ⟨S4x16384x16x3, .f32⟩
  | .hbm, ⟨17, _⟩ => ⟨S4x16384x1x3, .f32⟩
  | .hbm, ⟨18, _⟩ => ⟨S4x16384x16x3, .f32⟩
  | .hbm, ⟨19, _⟩ => ⟨S4x16384x16x3, .f32⟩
  | .hbm, ⟨20, _⟩ => ⟨S4x16384x16x1, .f32⟩
  | .hbm, ⟨21, _⟩ => ⟨S4x16384x16x10, .f32⟩
  | .hbm, ⟨22, _⟩ => ⟨S16x4x16384x16, .f32⟩
  | .hbm, ⟨23, _⟩ => ⟨S4x16x16384x16, .f32⟩
  | .hbm, ⟨24, _⟩ => ⟨S1x16x1x1, .f32⟩
  | .hbm, ⟨25, _⟩ => ⟨S4x16x16384x16, .f32⟩
  | .hbm, ⟨26, _⟩ => ⟨S4x16x16384x16, .f32⟩
  | .hbm, ⟨27, _⟩ => ⟨S_, .f32⟩
  | .hbm, ⟨28, _⟩ => ⟨S16, .f32⟩
  | .hbm, ⟨29, _⟩ => ⟨S1x16x1x1, .f32⟩
  | .hbm, ⟨30, _⟩ => ⟨S_, .f32⟩
  | .hbm, ⟨31, _⟩ => ⟨S1x16x1x1, .f32⟩
  | .hbm, ⟨32, _⟩ => ⟨S1x16x1x1, .f32⟩
  | .hbm, ⟨33, _⟩ => ⟨S4x16x16384x16, .f32⟩
  | .hbm, ⟨34, _⟩ => ⟨S4x16x16384x16, .f32⟩
  | .hbm, ⟨35, _⟩ => ⟨S4x16x16384x16, .f32⟩
  | .hbm, ⟨36, _⟩ => ⟨S_, .f32⟩
  | .hbm, ⟨37, _⟩ => ⟨S16, .f32⟩
  | .hbm, ⟨38, _⟩ => ⟨S1x16x1x1, .f32⟩
  | .hbm, ⟨39, _⟩ => ⟨S_, .f32⟩
  | .hbm, ⟨40, _⟩ => ⟨S1x16x1x1, .f32⟩
  | .hbm, ⟨41, _⟩ => ⟨S1x16x1x1, .f32⟩
  | .hbm, ⟨42, _⟩ => ⟨S4x16x16384x16, .f32⟩
  | .hbm, ⟨43, _⟩ => ⟨S4x16x16384x16, .f32⟩
  | .hbm, ⟨44, _⟩ => ⟨S_, .f32⟩
  | .hbm, ⟨45, _⟩ => ⟨S1x16x1x1, .f32⟩
  | .hbm, ⟨46, _⟩ => ⟨S1x16x1x1, .f32⟩
  | .hbm, ⟨47, _⟩ => ⟨S1x16x1x1, .f32⟩
  | .hbm, ⟨48, _⟩ => ⟨S4x16x16384x16, .f32⟩
  | .hbm, ⟨49, _⟩ => ⟨S4x16x16384x16, .f32⟩
  | .hbm, ⟨50, _⟩ => ⟨S1x16x1x1, .f32⟩
  | .hbm, ⟨51, _⟩ => ⟨S4x16x16384x16, .f32⟩
  | .hbm, ⟨52, _⟩ => ⟨S4x16x16384x16, .f32⟩
  | .hbm, ⟨53, _⟩ => ⟨S1x16x1x1, .f32⟩
  | .hbm, ⟨54, _⟩ => ⟨S4x16x16384x16, .f32⟩
  | .hbm, ⟨55, _⟩ => ⟨S4x16x16384x16, .f32⟩
  | .hbm, ⟨56, _⟩ => ⟨S_, .f32⟩
  | .hbm, ⟨57, _⟩ => ⟨S4x16x16384x16, .f32⟩
  | .hbm, ⟨58, _⟩ => ⟨S4x16x16384x16, .f32⟩
  | .hbm, ⟨59, _⟩ => ⟨S4x16x16384x16, .f32⟩
  | .hbm, ⟨60, _⟩ => ⟨S4x32x16384x16, .f32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_cst : Ref sig .tc := ⟨.hbm, 56, rfl⟩
abbrev main_call0_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  bcast_S_S4x16384x16 : S_.BroadcastsInDim S4x16384x16 (![] : Fin 0 → Fin S4x16384x16.rank)
  bcast_S4x16384x16_S4x16384x16x1_0_1_2 : S4x16384x16.BroadcastsInDim S4x16384x16x1 (![0, 1, 2] : Fin 3 → Fin S4x16384x16x1.rank)
  bcast_S4x16384x3_S4x16384x1x3_0_1_3 : S4x16384x3.BroadcastsInDim S4x16384x1x3 (![0, 1, 3] : Fin 3 → Fin S4x16384x1x3.rank)
  bcast_S4x16384x1x3_S4x16384x16x3_0_1_2_3 : S4x16384x1x3.BroadcastsInDim S4x16384x16x3 (![0, 1, 2, 3] : Fin 4 → Fin S4x16384x16x3.rank)
  concatenates_S4x16384x16x3_S4x16384x16x3_S4x16384x16x3_S4x16384x16x1_S4x16384x16x10_d3 : Shape.Concatenates [S4x16384x16x3, S4x16384x16x3, S4x16384x16x3, S4x16384x16x1] S4x16384x16x10 3
  transposes_S16x4x16384x16_S4x16x16384x16_1_0_2_3 : S16x4x16384x16.Transposes [1, 0, 2, 3] S4x16x16384x16
  bcast_S16_S1x16x1x1_1 : S16.BroadcastsInDim S1x16x1x1 (![1] : Fin 1 → Fin S1x16x1x1.rank)
  bcast_S1x16x1x1_S4x16x16384x16_0_1_2_3 : S1x16x1x1.BroadcastsInDim S4x16x16384x16 (![0, 1, 2, 3] : Fin 4 → Fin S4x16x16384x16.rank)
  reducesTo_S4x16x16384x16_S16_d0_2_3 : S4x16x16384x16.ReducesTo [0, 2, 3] S16
  h_S_ : 0 < S_.numel
  bcast_S_S1x16x1x1 : S_.BroadcastsInDim S1x16x1x1 (![] : Fin 0 → Fin S1x16x1x1.rank)
  bcast_S_S4x16x16384x16 : S_.BroadcastsInDim S4x16x16384x16 (![] : Fin 0 → Fin S4x16x16384x16.rank)
  bcast_S4x16x16384x1_S4x16x16384x16_0_1_2_3 : S4x16x16384x1.BroadcastsInDim S4x16x16384x16 (![0, 1, 2, 3] : Fin 4 → Fin S4x16x16384x16.rank)
  concatenates_S4x16x16384x16_S4x16x16384x16_S4x32x16384x16_d1 : Shape.Concatenates [S4x16x16384x16, S4x16x16384x16] S4x32x16384x16 1
  gather_S4x16384x3_S4x16384x16x1_S4x16384x16x3_3_1_0_0_1_3_113_wf : GatherDims.WF S4x16384x3 S4x16384x16x1 S4x16384x16x3 [3] [1] [0] [1] [0] 3 ![1, 1, 3]
  dot_S16x10_S4x16384x16x10_S16x4x16384x16_1_3_0_012_n_n_wf : DotDims.WF S16x10 S4x16384x16x10 S16x4x16384x16 [1] [3] [0] [0, 1, 2] [] []

variable [Facts₀]

def gather_S4x16384x3_S4x16384x16x1_S4x16384x16x3_3_1_0_0_1_3_113 : GatherDims S4x16384x3 S4x16384x16x1 S4x16384x16x3 where
  offsetDims := [3]
  collapsedSliceDims := [1]
  operandBatchingDims := [0]
  startIndicesBatchingDims := [0]
  startIndexMap := [1]
  indexVectorDim := 3
  sliceSizes := ![1, 1, 3]
  wf := gather_S4x16384x3_S4x16384x16x1_S4x16384x16x3_3_1_0_0_1_3_113_wf
def dot_S16x10_S4x16384x16x10_S16x4x16384x16_1_3_0_012_n_n : DotDims S16x10 S4x16384x16x10 S16x4x16384x16 where
  lhsContracting := [1]
  rhsContracting := [3]
  lhsNonContracting := [0]
  rhsNonContracting := [0, 1, 2]
  lhsBatch := []
  rhsBatch := []
  wf := dot_S16x10_S4x16384x16x10_S16x4x16384x16_1_3_0_012_n_n_wf

class Facts : Prop extends Facts₀ where

variable [Facts]
-- ==== Proof.Spec.lean ====
/-
  The function both programs compute, index by index, on the extended reals.

  A point cloud of 4 batches of 16384 points has, per point, 16 neighbours. For point (b, n) and neighbour k the
  ten-channel row is: the point's three coordinates, the neighbour's three coordinates, their difference, and the
  distance. A 1x1 convolution (16 x 10 weights, a bias) takes the row to 16 channels; each channel is normalised
  by its mean and variance over all 4 * 16384 * 16 = 2^20 positions, scaled, shifted, clipped below at zero. The
  result has 32 channels: the 16 normalised ones, then the point's 16 input features repeated over the neighbours.

  The two programs differ in the variance: one takes the mean of the squares minus the square of the mean
  (`varM`), the other the mean of the squared deviations (`varD`). Everything else is stated once, over a
  variance given as a parameter.
-/
import Idealize.ShloMosaic.PureOps.Ideal
import Idealize.ShloMosaic.Lib.ValueIdx

noncomputable section

open scoped BigOperators

namespace Cert.Spec

open Idealize.ShloMosaic Idealize.ShloMosaic.ValueIdx

abbrev SCo : Shape := ⟨3, ![4, 16384, 3]⟩
abbrev SNb : Shape := ⟨4, ![4, 16384, 16, 3]⟩
abbrev SDs : Shape := ⟨3, ![4, 16384, 16]⟩
abbrev SW : Shape := ⟨2, ![16, 10]⟩
abbrev SV : Shape := ⟨1, ![16]⟩
abbrev SFt : Shape := ⟨4, ![4, 16, 16384, 1]⟩
abbrev SOut : Shape := ⟨4, ![4, 32, 16384, 16]⟩

/-- The number of positions a channel is averaged over, 2^20, as the programs spell it. -/
def cnt : EReal := Ideal.ofBits .f32 0x49800000#32
/-- The stabiliser added to the variance, as the programs spell it. -/
def eps : EReal := Ideal.ofBits .f32 0x358637BD#32

section
variable (co : FVec Ideal SCo .f32) (nb : FVec Ideal SNb .f32) (ds : FVec Ideal SDs .f32)
  (w : FVec Ideal SW .f32) (bi : FVec Ideal SV .f32)

/-- Channel `c` of the ten-channel row of point `(b, n)` and neighbour `k`. -/
def cat (b : Fin 4) (n : Fin 16384) (k : Fin 16) (c : Fin 10) : EReal :=
  if h3 : c.val < 3 then co (ix3 b n ⟨c.val, h3⟩)
  else if h6 : c.val < 6 then nb (ix4 b n k ⟨c.val - 3, by omega⟩)
  else if h9 : c.val < 9 then co (ix3 b n ⟨c.val - 6, by omega⟩) - nb (ix4 b n k ⟨c.val - 6, by omega⟩)
  else ds (ix3 b n k)

/-- The convolution's output channel `d` at `(b, n, k)`. -/
def conv (b : Fin 4) (d : Fin 16) (n : Fin 16384) (k : Fin 16) : EReal :=
  (∑ c : Fin 10, w (ix2 d c) * cat co nb ds b n k c) + bi (ix1 d)

/-- The sum of channel `d` over all positions. -/
def sum1 (d : Fin 16) : EReal := ∑ b : Fin 4, ∑ n : Fin 16384, ∑ k : Fin 16, conv co nb ds w bi b d n k
/-- The sum of channel `d`'s squares over all positions. -/
def sum2 (d : Fin 16) : EReal :=
  ∑ b : Fin 4, ∑ n : Fin 16384, ∑ k : Fin 16, conv co nb ds w bi b d n k * conv co nb ds w bi b d n k
/-- Channel `d`'s mean. -/
def mean (d : Fin 16) : EReal := Ideal.div (sum1 co nb ds w bi d) cnt
/-- Channel `d`'s variance as the mean of the squares minus the square of the mean. -/
def varM (d : Fin 16) : EReal :=
  Ideal.div (sum2 co nb ds w bi d) cnt - mean co nb ds w bi d * mean co nb ds w bi d
/-- Channel `d`'s variance as the mean of the squared deviations. -/
def varD (d : Fin 16) : EReal :=
  Ideal.div (∑ b : Fin 4, ∑ n : Fin 16384, ∑ k : Fin 16,
    (conv co nb ds w bi b d n k - mean co nb ds w bi d) * (conv co nb ds w bi b d n k - mean co nb ds w bi d)) cnt

variable (ga be : FVec Ideal SV .f32) (mu var : Fin 16 → EReal)

/-- The normalised, scaled, shifted and clipped channel `d` at `(b, n, k)`, for a mean `mu` and a variance `var`
    given per channel. -/
def actG (b : Fin 4) (d : Fin 16) (n : Fin 16384) (k : Fin 16) : EReal :=
  max (((conv co nb ds w bi b d n k - mu d) * Ideal.rsqrt (var d + eps)) * ga (ix1 d) + be (ix1 d)) 0

/-- The same at the channel's own mean. -/
def act (b : Fin 4) (d : Fin 16) (n : Fin 16384) (k : Fin 16) : EReal :=
  actG co nb ds w bi ga be (mean co nb ds w bi) var b d n k

variable (ft : FVec Ideal SFt .f32)

/-- The whole result: channels 0 to 15 are `act`, channels 16 to 31 the point's features. -/
def out : FVec Ideal SOut .f32 := fun j =>
  if h : (j 1).val < 16 then act co nb ds w bi ga be var (j 0) ⟨(j 1).val, h⟩ (j 2) (j 3)
  else ft (ix4 (j 0) ⟨(j 1).val - 16, by have h32 : (j 1).val < 32 := (j 1).isLt; omega⟩ (j 2) (0 : Fin 1))

/-- The result laid out with the neighbour and the channel folded into one axis of 16 * 32 = 512: position
    `32 * k + ch` of point `(b, n)` holds channel `ch` of neighbour `k`; the features are given as `[4, 16384, 16]`
    (batch, point, feature). -/
def folded (f3 : FVec Ideal SDs .f32) : FVec Ideal ⟨3, ![4, 16384, 512]⟩ .f32 := fun j =>
  if h : (j 2).val % 32 < 16 then
    actG co nb ds w bi ga be mu var (j 0) ⟨(j 2).val % 32, h⟩ (j 1)
      ⟨(j 2).val / 32, by have h512 : (j 2).val < 512 := (j 2).isLt; omega⟩
  else f3 (ix3 (j 0) (j 1) ⟨(j 2).val % 32 - 16, by omega⟩)

end

/-- A `[10, 16]` array of weights read as `[16, 10]` (entry `(d, c)` is entry `(c, d)`). -/
abbrev wOf (wT : FVec Ideal ⟨2, ![10, 16]⟩ .f32) : FVec Ideal SW .f32 := fun i => wT (ix2 (i 1) (i 0))
/-- A one-row `[1, 16]` array read as a vector of 16. -/
abbrev rowOf (v : FVec Ideal ⟨2, ![1, 16]⟩ .f32) : FVec Ideal SV .f32 := fun i => v (ix2 (0 : Fin 1) (i 0))
/-- A one-row `[1, 16]` array read as a function of the channel. -/
abbrev chOf (v : FVec Ideal ⟨2, ![1, 16]⟩ .f32) : Fin 16 → EReal := fun d => v (ix2 (0 : Fin 1) d)

end Cert.Spec

end
-- ==== Proof.Region0.lean ====
/-
  What the first kernel region leaves in its two output arrays: per channel, the sum of the convolution's output
  over all positions, and the sum of its squares. The region visits 64 grid points (4 batches x 16 tiles of 1024
  points); at each it adds the tile's sums over its 1024 points and 16 neighbours to what the point before left,
  starting from zero at the first point.
-/
import proofs.«125758_j12592844112371_1_alg».proof.Proof.Gen.KernelIdeal.Frame
import proofs.«125758_j12592844112371_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx
open Idealize.ShloMosaic.Pipeline (Dat)
open Idealize.ShloMosaic.Tactic Idealize.SL Idealize.SL.Sem

/-! ## One neighbour's convolution, read at an index -/

/-- The product's left operand is read at the output's row and the contraction index, -/
theorem lhsAx0 (i : S1024x16.Idx) (q : dot_S1024x10_S10x16_S1024x16_1_0_0_1_n_n.contr.Idx) :
    (dot_S1024x10_S10x16_S1024x16_1_0_0_1_n_n.lhsIdx i q 0).val = (i 0).val := by
  unfold DotDims.lhsIdx
  rw [dif_neg (show ¬(0 : Fin S1024x10.rank) ∈ dot_S1024x10_S10x16_S1024x16_1_0_0_1_n_n.lhsBatch by decide), dif_pos (show (0 : Fin S1024x10.rank) ∈ dot_S1024x10_S10x16_S1024x16_1_0_0_1_n_n.lhsNonContracting by decide)]
  rfl
theorem lhsAx1 (i : S1024x16.Idx) (q : dot_S1024x10_S10x16_S1024x16_1_0_0_1_n_n.contr.Idx) :
    (dot_S1024x10_S10x16_S1024x16_1_0_0_1_n_n.lhsIdx i q 1).val = (q ⟨0, by decide⟩).val :=
  dot_S1024x10_S10x16_S1024x16_1_0_0_1_n_n.lhsIdx_val_of_single rfl i q
/-- the right operand at the contraction index and the output's column. -/
theorem rhsAx0 (i : S1024x16.Idx) (q : dot_S1024x10_S10x16_S1024x16_1_0_0_1_n_n.contr.Idx) :
    (dot_S1024x10_S10x16_S1024x16_1_0_0_1_n_n.rhsIdx i q 0).val = (q ⟨0, by decide⟩).val :=
  dot_S1024x10_S10x16_S1024x16_1_0_0_1_n_n.rhsIdx_val_of_single rfl i q
theorem rhsAx1 (i : S1024x16.Idx) (q : dot_S1024x10_S10x16_S1024x16_1_0_0_1_n_n.contr.Idx) :
    (dot_S1024x10_S10x16_S1024x16_1_0_0_1_n_n.rhsIdx i q 1).val = (i 1).val := by
  unfold DotDims.rhsIdx
  rw [dif_neg (show ¬(1 : Fin S10x16.rank) ∈ dot_S1024x10_S10x16_S1024x16_1_0_0_1_n_n.rhsBatch by decide), dif_pos (show (1 : Fin S10x16.rank) ∈ dot_S1024x10_S10x16_S1024x16_1_0_0_1_n_n.rhsNonContracting by decide)]
  rfl

/-- The product of a [1024, 10] and a [10, 16] array into a zero accumulator, at (r, d): the sum over the ten channels. -/
theorem mm_apply (A : FVec Ideal S1024x10 .f32) (B : FVec Ideal S10x16 .f32) (r : Fin 1024) (d : Fin 16) :
    matmul dot_S1024x10_S10x16_S1024x16_1_0_0_1_n_n none A B (constant (F := Ideal) S1024x16 .f32 0x00000000#32) (ix2 r d)
      = ∑ k : Fin 10, A (ix2 r k) * B (ix2 k d) := by
  refine (Ideal.matmul_constant_zero_apply dot_S1024x10_S10x16_S1024x16_1_0_0_1_n_n none A B (ix2 r d)).trans ?_
  rw [← Equiv.sum_comp (ValueIdx.contrEquiv1 dot_S1024x10_S10x16_S1024x16_1_0_0_1_n_n 10 rfl rfl).symm]
  refine Finset.sum_congr rfl fun k _ => ?_
  have hk := ValueIdx.contrEquiv1_symm_val dot_S1024x10_S10x16_S1024x16_1_0_0_1_n_n 10 rfl rfl k
  have el : dot_S1024x10_S10x16_S1024x16_1_0_0_1_n_n.lhsIdx (ix2 r d) ((ValueIdx.contrEquiv1 dot_S1024x10_S10x16_S1024x16_1_0_0_1_n_n 10 rfl rfl).symm k) = ix2 r k := funext fun a => Fin.ext (by
    match a with
    | ⟨0, _⟩ => exact lhsAx0 _ _
    | ⟨1, _⟩ => exact (lhsAx1 _ _).trans hk)
  have er : dot_S1024x10_S10x16_S1024x16_1_0_0_1_n_n.rhsIdx (ix2 r d) ((ValueIdx.contrEquiv1 dot_S1024x10_S10x16_S1024x16_1_0_0_1_n_n 10 rfl rfl).symm k) = ix2 k d := funext fun a => Fin.ext (by
    match a with
    | ⟨0, _⟩ => exact (rhsAx0 _ _).trans hk
    | ⟨1, _⟩ => exact rhsAx1 _ _)
  rw [el, er]

/-- A [1, 1024, 1, 3] slab read as [1024, 3]. -/
theorem cast_nb (N : Vec Ideal S1x1024x1x3 .f32) (r : Fin 1024) (j : Fin 3) :
    shapeCast S1024x3 N shapeCasts_S1x1024x1x3_S1024x3 (ix2 r j) = N (ix4 (0 : Fin 1) r (0 : Fin 1) j) :=
  shapeCast_apply N _ _ _ (by
    rw [Shape.rowMajor_val_four, Shape.rowMajor_val_two]
    show ((0 * 1024 + r.val) * 1 + 0) * 3 + j.val = r.val * 3 + j.val
    omega)

/-- A [1, 1024, 1] slab read as [1024] and then as [1024, 1]. -/
theorem cast_ds (D : Vec Ideal S1x1024x1 .f32) (r : Fin 1024) (u : Fin 1) :
    shapeCast S1024x1 (shapeCast S1024 D shapeCasts_S1x1024x1_S1024) shapeCasts_S1024_S1024x1 (ix2 r u)
      = D (ix3 (0 : Fin 1) r (0 : Fin 1)) := by
  refine (shapeCast_apply _ shapeCasts_S1024_S1024x1 (ix2 r u) (ix1 r) (by
    have hu : u.val = 0 := by omega
    rw [Shape.rowMajor_val_one, Shape.rowMajor_val_two]
    show r.val = r.val * 1 + u.val
    omega)).trans ?_
  exact shapeCast_apply D shapeCasts_S1x1024x1_S1024 (ix1 r) _ (by
    rw [Shape.rowMajor_val_three, Shape.rowMajor_val_one]
    show (0 * 1024 + r.val) * 1 + 0 = r.val
    omega)

/-- Channel `c` of the ten-channel row at block row `r`: the point's coordinates, the neighbour's, their difference, the distance. -/
def row10 (v6 : FVec Ideal S1024x3 .f32) (N : Vec Ideal S1x1024x1x3 .f32) (D : Vec Ideal S1x1024x1 .f32) (r : Fin 1024) (c : Fin 10) : EReal :=
  if h3 : c.val < 3 then v6 (ix2 r ⟨c.val, h3⟩)
  else if h6 : c.val < 6 then N (ix4 (0 : Fin 1) r (0 : Fin 1) ⟨c.val - 3, by omega⟩)
  else if h9 : c.val < 9 then v6 (ix2 r ⟨c.val - 6, by omega⟩) - N (ix4 (0 : Fin 1) r (0 : Fin 1) ⟨c.val - 6, by omega⟩)
  else D (ix3 (0 : Fin 1) r (0 : Fin 1))

/-- The four pieces of a row: coordinates, neighbour, difference, distance. -/
abbrev pcs (v6 : FVec Ideal S1024x3 .f32) (N : Vec Ideal S1x1024x1x3 .f32) (D : Vec Ideal S1x1024x1 .f32) : List ((s : Shape) × (s.Idx → EReal)) :=
  [⟨S1024x3, v6⟩, ⟨S1024x3, shapeCast S1024x3 N shapeCasts_S1x1024x1x3_S1024x3⟩,
      ⟨S1024x3, subf v6 (shapeCast S1024x3 N shapeCasts_S1x1024x1x3_S1024x3)⟩,
      ⟨S1024x1, shapeCast S1024x1 (shapeCast S1024 D shapeCasts_S1x1024x1_S1024) shapeCasts_S1024_S1024x1⟩]

/-- The four pieces joined along the channel axis, read at (r, c). -/
theorem cat_apply (v6 : FVec Ideal S1024x3 .f32) (N : Vec Ideal S1x1024x1x3 .f32) (D : Vec Ideal S1x1024x1 .f32) (r : Fin 1024) (c : Fin 10) :
    concatenate S1024x10 1 [⟨S1024x3, v6⟩, ⟨S1024x3, shapeCast S1024x3 N shapeCasts_S1x1024x1x3_S1024x3⟩,
      ⟨S1024x3, subf v6 (shapeCast S1024x3 N shapeCasts_S1x1024x1x3_S1024x3)⟩,
      ⟨S1024x1, shapeCast S1024x1 (shapeCast S1024 D shapeCasts_S1x1024x1_S1024) shapeCasts_S1024_S1024x1⟩]
      concatenates_S1024x3_S1024x3_S1024x3_S1024x1_S1024x10_d1 (ix2 r c) = row10 v6 N D r c := by
  unfold row10
  split_ifs with h3 h6 h9
  · exact concatenate_apply_piece (t := S1024x10) (1 : Fin S1024x10.rank) (pcs v6 N D) concatenates_S1024x3_S1024x3_S1024x3_S1024x1_S1024x10_d1 (ix2 r c) 0 (by show (_ : ℕ) < 4; omega) S1024x3 v6 rfl rfl 0 rfl
      (ix2 r ⟨c.val, h3⟩) (fun b hb => by
        match b with
        | ⟨0, _⟩ => rfl
        | ⟨1, _⟩ => exact absurd rfl hb) (by show 0 + c.val = c.val; omega)
  · refine (concatenate_apply_piece (t := S1024x10) (1 : Fin S1024x10.rank) (pcs v6 N D) concatenates_S1024x3_S1024x3_S1024x3_S1024x1_S1024x10_d1 (ix2 r c) 1 (by show (_ : ℕ) < 4; omega) S1024x3 _ rfl rfl 3 rfl
      (ix2 r ⟨c.val - 3, by omega⟩) (fun b hb => by
        match b with
        | ⟨0, _⟩ => rfl
        | ⟨1, _⟩ => exact absurd rfl hb) (by show 3 + (c.val - 3) = c.val; omega)).trans ?_
    exact cast_nb N r _
  · refine (concatenate_apply_piece (t := S1024x10) (1 : Fin S1024x10.rank) (pcs v6 N D) concatenates_S1024x3_S1024x3_S1024x3_S1024x1_S1024x10_d1 (ix2 r c) 2 (by show (_ : ℕ) < 4; omega) S1024x3 _ rfl rfl 6 rfl
      (ix2 r ⟨c.val - 6, by omega⟩) (fun b hb => by
        match b with
        | ⟨0, _⟩ => rfl
        | ⟨1, _⟩ => exact absurd rfl hb) (by show 6 + (c.val - 6) = c.val; omega)).trans ?_
    exact congrArg (fun z => v6 (ix2 r ⟨c.val - 6, by omega⟩) - z) (cast_nb N r _)
  · refine (concatenate_apply_piece (t := S1024x10) (1 : Fin S1024x10.rank) (pcs v6 N D) concatenates_S1024x3_S1024x3_S1024x3_S1024x1_S1024x10_d1 (ix2 r c) 3 (by show (_ : ℕ) < 4; omega) S1024x1 _ rfl rfl 9 rfl
      (ix2 r (0 : Fin 1)) (fun b hb => by
        match b with
        | ⟨0, _⟩ => rfl
        | ⟨1, _⟩ => exact absurd rfl hb) (by show 9 + 0 = c.val; have := c.isLt; omega)).trans ?_
    exact cast_ds D r _

/-- One neighbour's convolution output at block row `r` and channel `d`. -/
def cv10 (v6 : FVec Ideal S1024x3 .f32) (v8 : FVec Ideal S10x16 .f32) (v10 : FVec Ideal S1x16 .f32)
    (N : Vec Ideal S1x1024x1x3 .f32) (D : Vec Ideal S1x1024x1 .f32) (r : Fin 1024) (d : Fin 16) : EReal :=
  (∑ c : Fin 10, row10 v6 N D r c * v8 (ix2 c d)) + v10 (ix2 (0 : Fin 1) d)

theorem pay10_apply (v6 : FVec Ideal S1024x3 .f32) (v8 : FVec Ideal S10x16 .f32) (v10 : FVec Ideal S1x16 .f32)
    (N : Vec Ideal S1x1024x1x3 .f32) (D : Vec Ideal S1x1024x1 .f32) (r : Fin 1024) (d : Fin 16) :
    k0_pay10 v6 v8 v10 N D (ix2 r d) = cv10 v6 v8 v10 N D r d := by
  unfold k0_pay10 cv10
  refine (congrArg₂ (· + ·) (mm_apply _ v8 r d) (broadcastTo_1b_ab_apply v10 broadcasts_S1x16_S1024x16 r d)).trans ?_
  exact congrArg (· + v10 (ix2 (0 : Fin 1) d)) (Finset.sum_congr rfl fun c _ => congrArg (· * v8 (ix2 c d)) (cat_apply v6 N D r c))

/-- A [1024, 16] array summed over its rows and read as one row of 16. -/
theorem rowsum_apply (v : FVec Ideal S1024x16 .f32) (u : Fin 1) (d : Fin 16) :
    shapeCast S1x16 (multiReduction (F := Ideal) .add [0] S16 v 0x00000000#32 reduces_S1024x16_S16 (.inl rfl) rfl) shapeCasts_S16_S1x16 (ix2 u d)
      = ∑ r : Fin 1024, v (ix2 r d) := by
  refine (shapeCast_a_1a_apply _ shapeCasts_S16_S1x16 u d).trans ?_
  refine (Ideal.multiReduction_add_single v _ reduces_S1024x16_S16 (.inl rfl) rfl (ix1 d)).trans ?_
  refine Finset.sum_congr rfl fun r _ => congrArg v (funext fun a => Fin.ext ?_)
  match a with
  | ⟨0, _⟩ => rfl
  | ⟨1, _⟩ => rfl

/-! ## What one grid point leaves in the two outputs -/

section Pieces
variable {F : FTy → Type} [FloatOps F]

theorem hz2 : (![0, 0] : Fin 2 → ℕ) = fun _ => 0 := funext fun a => by fin_cases a <;> rfl
theorem hz3 : (![0, 0, 0] : Fin 3 → ℕ) = fun _ => 0 := funext fun a => by fin_cases a <;> rfl

/-- A [1024, 16] array summed over its rows, as one row of 16. -/
def rsum (v : FVec F S1024x16 .f32) : FVec F S1x16 .f32 :=
  shapeCast S1x16 (multiReduction .add [0] S16 v 0x00000000#32 reduces_S1024x16_S16 (.inl rfl) rfl) shapeCasts_S16_S1x16

/-- The zero row. -/
def zero16 : FVec F S1x16 .f32 := broadcast S1x16 (Scalar.ofBits .f32 0x00000000#32)

theorem nb_inb (k : Fin 16) : ∀ a, (![0, 0, k.val, 0] : Fin 4 → ℕ) a + S1x1024x1x3.size a ≤ S1x1024x16x3.size a := fun a => by
  have hk := k.isLt
  match a with
  | ⟨0, _⟩ => show 0 + 1 ≤ 1; omega
  | ⟨1, _⟩ => show 0 + 1024 ≤ 1024; omega
  | ⟨2, _⟩ => show k.val + 1 ≤ 16; omega
  | ⟨3, _⟩ => show 0 + 3 ≤ 3; omega
theorem ds_inb (k : Fin 16) : ∀ a, (![0, 0, k.val] : Fin 3 → ℕ) a + S1x1024x1.size a ≤ S1x1024x16.size a := fun a => by
  have hk := k.isLt
  match a with
  | ⟨0, _⟩ => show 0 + 1 ≤ 1; omega
  | ⟨1, _⟩ => show 0 + 1024 ≤ 1024; omega
  | ⟨2, _⟩ => show k.val + 1 ≤ 16; omega

/-- Neighbour `k`'s slab of a block of neighbours, -/
def nsl (x1 : Vec F S1x1024x16x3 .f32) (k : Fin 16) : Vec F S1x1024x1x3 .f32 :=
  View.ld x1 (Rect.unit (s := S1x1024x16x3) ![0, 0, k.val, 0] S1x1024x1x3.size (nb_inb k))
/-- and of a block of distances. -/
def dsl (x2 : Vec F S1x1024x16 .f32) (k : Fin 16) : Vec F S1x1024x1 .f32 :=
  View.ld x2 (Rect.unit (s := S1x1024x16) ![0, 0, k.val] S1x1024x1.size (ds_inb k))

/-- Neighbour `k`'s convolution over the block's 1024 points. -/
def tm (x0 : Vec F S1x1024x3 .f32) (x1 : Vec F S1x1024x16x3 .f32) (x2 : Vec F S1x1024x16 .f32) (x3 : Vec F S10x16 .f32) (x4 : Vec F S1x16 .f32)
    (k : Fin 16) : FVec F S1024x16 .f32 :=
  k0_pay10 (k0_pay4 x0) (k0_pay5 x3) (k0_pay6 x4) (nsl x1 k) (dsl x2 k)

/-- Sixteen rows added to the zero row one after the other. -/
def acc16 (f : Fin 16 → FVec F S1x16 .f32) : FVec F S1x16 .f32 :=
  addf (addf (addf (addf (addf (addf (addf (addf (addf (addf (addf (addf (addf (addf (addf (addf (zero16) (f 0)) (f 1)) (f 2)) (f 3)) (f 4)) (f 5)) (f 6)) (f 7)) (f 8)) (f 9)) (f 10)) (f 11)) (f 12)) (f 13)) (f 14)) (f 15)

/-- A point's sums over its rows and neighbours added to the row `xo`, -/
def tot5 (x0 : Vec F S1x1024x3 .f32) (x1 : Vec F S1x1024x16x3 .f32) (x2 : Vec F S1x1024x16 .f32) (x3 : Vec F S10x16 .f32) (x4 : Vec F S1x16 .f32)
    (xo : Vec F S1x16 .f32) : FVec F S1x16 .f32 :=
  addf (shapeCast S1x16 xo shapeCasts_S1x16_S1x16) (acc16 fun k => rsum (tm x0 x1 x2 x3 x4 k))
/-- and the sums of the squares. -/
def tot6 (x0 : Vec F S1x1024x3 .f32) (x1 : Vec F S1x1024x16x3 .f32) (x2 : Vec F S1x1024x16 .f32) (x3 : Vec F S10x16 .f32) (x4 : Vec F S1x16 .f32)
    (xo : Vec F S1x16 .f32) : FVec F S1x16 .f32 :=
  addf (shapeCast S1x16 xo shapeCasts_S1x16_S1x16) (acc16 fun k => rsum (mulf (tm x0 x1 x2 x3 x4 k) (tm x0 x1 x2 x3 x4 k)))

theorem piece_B5 (c : Dev nD) (i : grid0.Coords) (arg2 : Memref sig .tc .vmem S1x1024x3 .f32) (harg2 : arg2.IsWhole) (arg3 : Memref sig .tc .vmem S1x1024x16x3 .f32) (harg3 : arg3.IsWhole) (arg4 : Memref sig .tc .vmem S1x1024x16 .f32) (harg4 : arg4.IsWhole) (arg5 : Memref sig .tc .vmem S10x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (hc0 : ¬cond0_0 i)
    (x0 : Vec F S1x1024x3 .f32) (x1 : Vec F S1x1024x16x3 .f32) (x2 : Vec F S1x1024x16 .f32) (x3 : Vec F S10x16 .f32) (x4 : Vec F S1x16 .f32) (xo5 : Vec F S1x16 .f32) (xo6 : Vec F S1x16 .f32) :
    out0_B_5 c i arg2 harg2 arg3 harg3 arg4 harg4 arg5 harg5 arg6 harg6 arg7 harg7 arg8 harg8 hc0 x0 x1 x2 x3 x4 xo5 xo6 = tot5 x0 x1 x2 x3 x4 xo5 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero (S := S1x16) hz2]
  simp only [View.readAt_eq_ld, Memref.IsWhole.read_unread, View.ld_unit_zero (S := S1x1024x3) hz3, View.ld_unit_zero (S := S10x16) hz2, View.ld_unit_zero (S := S1x16) hz2]
  rfl

theorem piece_B6 (c : Dev nD) (i : grid0.Coords) (arg2 : Memref sig .tc .vmem S1x1024x3 .f32) (harg2 : arg2.IsWhole) (arg3 : Memref sig .tc .vmem S1x1024x16x3 .f32) (harg3 : arg3.IsWhole) (arg4 : Memref sig .tc .vmem S1x1024x16 .f32) (harg4 : arg4.IsWhole) (arg5 : Memref sig .tc .vmem S10x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (hc0 : ¬cond0_0 i)
    (x0 : Vec F S1x1024x3 .f32) (x1 : Vec F S1x1024x16x3 .f32) (x2 : Vec F S1x1024x16 .f32) (x3 : Vec F S10x16 .f32) (x4 : Vec F S1x16 .f32) (xo5 : Vec F S1x16 .f32) (xo6 : Vec F S1x16 .f32) :
    out0_B_6 c i arg2 harg2 arg3 harg3 arg4 harg4 arg5 harg5 arg6 harg6 arg7 harg7 arg8 harg8 hc0 x0 x1 x2 x3 x4 xo5 xo6 = tot6 x0 x1 x2 x3 x4 xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero (S := S1x16) hz2]
  simp only [View.readAt_eq_ld, Memref.IsWhole.read_unread, View.readCov_unit_zero (S := S1x16) _ hz2, View.ld_unit_zero (S := S1x1024x3) hz3, View.ld_unit_zero (S := S10x16) hz2, View.ld_unit_zero (S := S1x16) hz2]
  rfl

theorem piece_A5 (c : Dev nD) (i : grid0.Coords) (arg2 : Memref sig .tc .vmem S1x1024x3 .f32) (harg2 : arg2.IsWhole) (arg3 : Memref sig .tc .vmem S1x1024x16x3 .f32) (harg3 : arg3.IsWhole) (arg4 : Memref sig .tc .vmem S1x1024x16 .f32) (harg4 : arg4.IsWhole) (arg5 : Memref sig .tc .vmem S10x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (hc0 : cond0_0 i)
    (x0 : Vec F S1x1024x3 .f32) (x1 : Vec F S1x1024x16x3 .f32) (x2 : Vec F S1x1024x16 .f32) (x3 : Vec F S10x16 .f32) (x4 : Vec F S1x16 .f32) :
    out0_A_5 c i arg2 harg2 arg3 harg3 arg4 harg4 arg5 harg5 arg6 harg6 arg7 harg7 arg8 harg8 hc0 x0 x1 x2 x3 x4 = tot5 x0 x1 x2 x3 x4 zero16 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x16) hz2]
  simp only [View.readAt_eq_ld, Memref.IsWhole.read_unread, View.readCov_unit_zero (S := S1x16) _ hz2, View.ld_unit_zero (S := S1x1024x3) hz3, View.ld_unit_zero (S := S10x16) hz2, View.ld_unit_zero (S := S1x16) hz2]
  rfl

theorem piece_A6 (c : Dev nD) (i : grid0.Coords) (arg2 : Memref sig .tc .vmem S1x1024x3 .f32) (harg2 : arg2.IsWhole) (arg3 : Memref sig .tc .vmem S1x1024x16x3 .f32) (harg3 : arg3.IsWhole) (arg4 : Memref sig .tc .vmem S1x1024x16 .f32) (harg4 : arg4.IsWhole) (arg5 : Memref sig .tc .vmem S10x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S1x16 .f32) (harg8 : arg8.IsWhole) (hc0 : cond0_0 i)
    (x0 : Vec F S1x1024x3 .f32) (x1 : Vec F S1x1024x16x3 .f32) (x2 : Vec F S1x1024x16 .f32) (x3 : Vec F S10x16 .f32) (x4 : Vec F S1x16 .f32) :
    out0_A_6 c i arg2 harg2 arg3 harg3 arg4 harg4 arg5 harg5 arg6 harg6 arg7 harg7 arg8 harg8 hc0 x0 x1 x2 x3 x4 = tot6 x0 x1 x2 x3 x4 zero16 := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x16) hz2]
  simp only [View.readAt_eq_ld, Memref.IsWhole.read_unread, View.readCov_unit_zero (S := S1x16) _ hz2, View.ld_unit_zero (S := S1x1024x3) hz3, View.ld_unit_zero (S := S10x16) hz2, View.ld_unit_zero (S := S1x16) hz2]
  rfl

end Pieces

/-! ## The point's sums, index by index, on the extended reals -/

/-- Sixteen terms added to zero one after the other are their sum. -/
theorem sum16 (f : Fin 16 → EReal) : ((((((((((((((((0) + f 0) + f 1) + f 2) + f 3) + f 4) + f 5) + f 6) + f 7) + f 8) + f 9) + f 10) + f 11) + f 12) + f 13) + f 14) + f 15 = ∑ k : Fin 16, f k := by
  simp only [Fin.sum_univ_castSucc, Fin.sum_univ_zero]
  rfl

theorem zero16_apply (i : S1x16.Idx) : zero16 (F := Ideal) i = 0 := Ideal.ofBits_zero_f32

theorem acc16_apply (f : Fin 16 → FVec Ideal S1x16 .f32) (i : S1x16.Idx) : acc16 f i = ∑ k : Fin 16, f k i := by
  rw [← sum16, ← zero16_apply i]
  rfl

/-- One neighbour's convolution at block row `r` and channel `d`, off the five blocks. -/
def cvB (x0 : Vec Ideal S1x1024x3 .f32) (x1 : Vec Ideal S1x1024x16x3 .f32) (x2 : Vec Ideal S1x1024x16 .f32) (x3 : Vec Ideal S10x16 .f32) (x4 : Vec Ideal S1x16 .f32)
    (k : Fin 16) (r : Fin 1024) (d : Fin 16) : EReal :=
  cv10 (k0_pay4 x0) (k0_pay5 x3) (k0_pay6 x4) (nsl x1 k) (dsl x2 k) r d

theorem tot5_apply (x0 : Vec Ideal S1x1024x3 .f32) (x1 : Vec Ideal S1x1024x16x3 .f32) (x2 : Vec Ideal S1x1024x16 .f32) (x3 : Vec Ideal S10x16 .f32) (x4 : Vec Ideal S1x16 .f32)
    (xo : Vec Ideal S1x16 .f32) (u : Fin 1) (d : Fin 16) :
    tot5 x0 x1 x2 x3 x4 xo (ix2 u d) = xo (ix2 u d) + ∑ k : Fin 16, ∑ r : Fin 1024, cvB x0 x1 x2 x3 x4 k r d := by
  unfold tot5
  refine (addf_apply _ _ _).trans ?_
  rw [shapeCast_self, acc16_apply]
  refine congrArg (xo (ix2 u d) + ·) (Finset.sum_congr rfl fun k _ => ?_)
  refine (rowsum_apply _ u d).trans (Finset.sum_congr rfl fun r _ => ?_)
  exact pay10_apply _ _ _ _ _ r d

theorem tot6_apply (x0 : Vec Ideal S1x1024x3 .f32) (x1 : Vec Ideal S1x1024x16x3 .f32) (x2 : Vec Ideal S1x1024x16 .f32) (x3 : Vec Ideal S10x16 .f32) (x4 : Vec Ideal S1x16 .f32)
    (xo : Vec Ideal S1x16 .f32) (u : Fin 1) (d : Fin 16) :
    tot6 x0 x1 x2 x3 x4 xo (ix2 u d) = xo (ix2 u d) + ∑ k : Fin 16, ∑ r : Fin 1024, cvB x0 x1 x2 x3 x4 k r d * cvB x0 x1 x2 x3 x4 k r d := by
  unfold tot6
  refine (addf_apply _ _ _).trans ?_
  rw [shapeCast_self, acc16_apply]
  refine congrArg (xo (ix2 u d) + ·) (Finset.sum_congr rfl fun k _ => ?_)
  refine (rowsum_apply _ u d).trans (Finset.sum_congr rfl fun r _ => ?_)
  exact congrArg₂ (· * ·) (pay10_apply _ _ _ _ _ r d) (pay10_apply _ _ _ _ _ r d)

/-! ## The blocks, read off the arrays -/

section Blocks
variable {F : FTy → Type} [FloatOps F]

/-- A neighbour's slab of a block, entry by entry. -/
theorem nsl_apply (x1 : Vec F S1x1024x16x3 .f32) (k : Fin 16) (r : Fin 1024) (j : Fin 3) :
    nsl x1 k (ix4 (0 : Fin 1) r (0 : Fin 1) j) = x1 (ix4 (0 : Fin 1) r k j) :=
  congrArg x1 (funext fun a => Fin.ext (by
    match a with
    | ⟨0, _⟩ => rfl
    | ⟨1, _⟩ => show 0 + 1 * r.val = r.val; omega
    | ⟨2, _⟩ => show k.val + 1 * 0 = k.val; omega
    | ⟨3, _⟩ => show 0 + 1 * j.val = j.val; omega))

theorem dsl_apply (x2 : Vec F S1x1024x16 .f32) (k : Fin 16) (r : Fin 1024) :
    dsl x2 k (ix3 (0 : Fin 1) r (0 : Fin 1)) = x2 (ix3 (0 : Fin 1) r k) :=
  congrArg x2 (funext fun a => Fin.ext (by
    match a with
    | ⟨0, _⟩ => rfl
    | ⟨1, _⟩ => show 0 + 1 * r.val = r.val; omega
    | ⟨2, _⟩ => show k.val + 1 * 0 = k.val; omega))

end Blocks

/-- The block indices of the five inputs at grid point `t`: batch `t / 16`, tile `t % 16`; the weights and the bias whole. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 4) = t.val / 16 ∧ win0_1.index t (1 : Fin 4) = t.val % 16 ∧ win0_1.index t (2 : Fin 4) = 0 ∧ win0_1.index t (3 : Fin 4) = 0
    ∧ win0_2.index t (0 : Fin 3) = t.val / 16 ∧ win0_2.index t (1 : Fin 3) = t.val % 16 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The batch of grid point `s`, -/
def bN (s : ℕ) : Fin 4 := ⟨s / 16 % 4, Nat.mod_lt _ (by decide)⟩
/-- and the point of its tile's row `r`. -/
def nN (s : ℕ) (r : Fin 1024) : Fin 16384 :=
  ⟨1024 * (s % 16) + r.val, by have := r.isLt; have := Nat.mod_lt s (show 0 < 16 by decide); omega⟩

section Reads
variable (V : (c : Dev nD) → (b : Ref sig .tc) → Buf (Elt Ideal) ((c : Thread nD τ).loc b))

/-- The five input blocks at a grid point. -/
abbrev blk0 (c : Dev nD) (t : Fin cfg0.N) : Vec Ideal S1x1024x3 .f32 := iblk0 V c 0 t
abbrev blk1 (c : Dev nD) (t : Fin cfg0.N) : Vec Ideal S1x1024x16x3 .f32 := iblk0 V c 1 t
abbrev blk2 (c : Dev nD) (t : Fin cfg0.N) : Vec Ideal S1x1024x16 .f32 := iblk0 V c 2 t
abbrev blk3 (c : Dev nD) (t : Fin cfg0.N) : Vec Ideal S10x16 .f32 := iblk0 V c 3 t
abbrev blk4 (c : Dev nD) (t : Fin cfg0.N) : Vec Ideal S1x16 .f32 := iblk0 V c 4 t

theorem blk0_apply (c : Dev nD) (t : Fin cfg0.N) (r : Fin 1024) (j : Fin 3) :
    blk0 V c t (ix3 (0 : Fin 1) r j) = V c main_arg0 (ix3 (bN t.val) (nN t.val r) j) := by
  obtain ⟨e0, e1, e2, -⟩ := idx_facts t
  have hN : t.val < 64 := lt_of_lt_of_eq t.isLt (show cfg0.N = 64 from N_0)
  show V c main_arg0 (((cfg0.win 0).blk t).view.emb (ix3 (0 : Fin 1) r j)) = _
  refine congrArg (V c main_arg0) (funext fun a => Fin.ext ?_)
  match a with
  | ⟨0, _⟩ => show win0_0.index t (0 : Fin 3) * 1 + 1 * 0 = t.val / 16 % 4; omega
  | ⟨1, _⟩ => show win0_0.index t (1 : Fin 3) * 1024 + 1 * r.val = 1024 * (t.val % 16) + r.val; omega
  | ⟨2, _⟩ => show win0_0.index t (2 : Fin 3) * 3 + 1 * j.val = j.val; omega

theorem blk1_apply (c : Dev nD) (t : Fin cfg0.N) (r : Fin 1024) (k : Fin 16) (j : Fin 3) :
    blk1 V c t (ix4 (0 : Fin 1) r k j) = V c main_v6 (ix4 (bN t.val) (nN t.val r) k j) := by
  obtain ⟨-, -, -, e0, e1, e2, e3, -⟩ := idx_facts t
  have hN : t.val < 64 := lt_of_lt_of_eq t.isLt (show cfg0.N = 64 from N_0)
  show V c main_v6 (((cfg0.win 1).blk t).view.emb (ix4 (0 : Fin 1) r k j)) = _
  refine congrArg (V c main_v6) (funext fun a => Fin.ext ?_)
  match a with
  | ⟨0, _⟩ => show win0_1.index t (0 : Fin 4) * 1 + 1 * 0 = t.val / 16 % 4; omega
  | ⟨1, _⟩ => show win0_1.index t (1 : Fin 4) * 1024 + 1 * r.val = 1024 * (t.val % 16) + r.val; omega
  | ⟨2, _⟩ => show win0_1.index t (2 : Fin 4) * 16 + 1 * k.val = k.val; omega
  | ⟨3, _⟩ => show win0_1.index t (3 : Fin 4) * 3 + 1 * j.val = j.val; omega

theorem blk2_apply (c : Dev nD) (t : Fin cfg0.N) (r : Fin 1024) (k : Fin 16) :
    blk2 V c t (ix3 (0 : Fin 1) r k) = V c main_arg3 (ix3 (bN t.val) (nN t.val r) k) := by
  obtain ⟨-, -, -, -, -, -, -, e0, e1, e2, -⟩ := idx_facts t
  have hN : t.val < 64 := lt_of_lt_of_eq t.isLt (show cfg0.N = 64 from N_0)
  show V c main_arg3 (((cfg0.win 2).blk t).view.emb (ix3 (0 : Fin 1) r k)) = _
  refine congrArg (V c main_arg3) (funext fun a => Fin.ext ?_)
  match a with
  | ⟨0, _⟩ => show win0_2.index t (0 : Fin 3) * 1 + 1 * 0 = t.val / 16 % 4; omega
  | ⟨1, _⟩ => show win0_2.index t (1 : Fin 3) * 1024 + 1 * r.val = 1024 * (t.val % 16) + r.val; omega
  | ⟨2, _⟩ => show win0_2.index t (2 : Fin 3) * 16 + 1 * k.val = k.val; omega

theorem blk3_apply (c : Dev nD) (t : Fin cfg0.N) (ch : Fin 10) (d : Fin 16) :
    blk3 V c t (ix2 ch d) = V c main_v9 (ix2 ch d) := by
  obtain ⟨-, -, -, -, -, -, -, -, -, -, e0, e1, -⟩ := idx_facts t
  show V c main_v9 (((cfg0.win 3).blk t).view.emb (ix2 ch d)) = _
  refine congrArg (V c main_v9) (funext fun a => Fin.ext ?_)
  match a with
  | ⟨0, _⟩ => show win0_3.index t (0 : Fin 2) * 10 + 1 * ch.val = ch.val; omega
  | ⟨1, _⟩ => show win0_3.index t (1 : Fin 2) * 16 + 1 * d.val = d.val; omega

theorem blk4_apply (c : Dev nD) (t : Fin cfg0.N) (d : Fin 16) :
    blk4 V c t (ix2 (0 : Fin 1) d) = V c main_v10 (ix2 (0 : Fin 1) d) := by
  obtain ⟨-, -, -, -, -, -, -, -, -, -, -, -, e0, e1⟩ := idx_facts t
  show V c main_v10 (((cfg0.win 4).blk t).view.emb (ix2 (0 : Fin 1) d)) = _
  refine congrArg (V c main_v10) (funext fun a => Fin.ext ?_)
  match a with
  | ⟨0, _⟩ => show win0_4.index t (0 : Fin 2) * 1 + 1 * 0 = 0; omega
  | ⟨1, _⟩ => show win0_4.index t (1 : Fin 2) * 16 + 1 * d.val = d.val; omega

end Reads

/-! ## A point's sums are the specification's, over the point's tile -/

section Conv
variable (V : (c : Dev nD) → (b : Ref sig .tc) → Buf (Elt Ideal) ((c : Thread nD τ).loc b))

/-- The ten-channel row built from the blocks is the specification's at the block's place in the arrays. -/
theorem row_blk (c : Dev nD) (t : Fin cfg0.N) (k : Fin 16) (r : Fin 1024) (ch : Fin 10) :
    row10 (k0_pay4 (blk0 V c t)) (nsl (blk1 V c t) k) (dsl (blk2 V c t) k) r ch
      = Spec.cat (V c main_arg0) (V c main_v6) (V c main_arg3) (bN t.val) (nN t.val r) k ch := by
  unfold row10 Spec.cat
  split_ifs with h3 h6 h9
  · exact (shapeCast_1ab_ab_apply (blk0 V c t) shapeCasts_S1x1024x3_S1024x3 r _).trans (blk0_apply V c t r _)
  · exact (nsl_apply (blk1 V c t) k r _).trans (blk1_apply V c t r k _)
  · exact congrArg₂ (· - ·) ((shapeCast_1ab_ab_apply (blk0 V c t) shapeCasts_S1x1024x3_S1024x3 r _).trans (blk0_apply V c t r _))
      ((nsl_apply (blk1 V c t) k r _).trans (blk1_apply V c t r k _))
  · exact (dsl_apply (blk2 V c t) k r).trans (blk2_apply V c t r k)

/-- So is the convolution's output (the two sides multiply in opposite orders). -/
theorem cvB_blk (c : Dev nD) (t : Fin cfg0.N) (k : Fin 16) (r : Fin 1024) (d : Fin 16) :
    cvB (blk0 V c t) (blk1 V c t) (blk2 V c t) (blk3 V c t) (blk4 V c t) k r d
      = Spec.conv (V c main_arg0) (V c main_v6) (V c main_arg3) (Spec.wOf (V c main_v9)) (Spec.rowOf (V c main_v10)) (bN t.val) d (nN t.val r) k := by
  unfold cvB cv10 Spec.conv
  refine congrArg₂ (· + ·) (Finset.sum_congr rfl fun ch _ => ?_) ?_
  · rw [mul_comm]
    refine congrArg₂ (· * ·) ?_ (row_blk V c t k r ch)
    exact (congrFun (shapeCast_self (blk3 V c t) shapeCasts_S10x16_S10x16) (ix2 ch d)).trans (blk3_apply V c t ch d)
  · exact (congrFun (shapeCast_self (blk4 V c t) shapeCasts_S1x16_S1x16) (ix2 (0 : Fin 1) d)).trans (blk4_apply V c t d)

/-- What grid point `s` adds to channel `d`'s sum: its tile's 1024 points, each with its 16 neighbours; -/
def tile1 (c : Dev nD) (s : ℕ) (d : Fin 16) : EReal :=
  ∑ k : Fin 16, ∑ r : Fin 1024, Spec.conv (V c main_arg0) (V c main_v6) (V c main_arg3) (Spec.wOf (V c main_v9)) (Spec.rowOf (V c main_v10)) (bN s) d (nN s r) k
/-- and to its sum of squares. -/
def tile2 (c : Dev nD) (s : ℕ) (d : Fin 16) : EReal :=
  ∑ k : Fin 16, ∑ r : Fin 1024, Spec.conv (V c main_arg0) (V c main_v6) (V c main_arg3) (Spec.wOf (V c main_v9)) (Spec.rowOf (V c main_v10)) (bN s) d (nN s r) k * Spec.conv (V c main_arg0) (V c main_v6) (V c main_arg3) (Spec.wOf (V c main_v9)) (Spec.rowOf (V c main_v10)) (bN s) d (nN s r) k

theorem tile1_blk (c : Dev nD) (t : Fin cfg0.N) (d : Fin 16) :
    ∑ k : Fin 16, ∑ r : Fin 1024, cvB (blk0 V c t) (blk1 V c t) (blk2 V c t) (blk3 V c t) (blk4 V c t) k r d = tile1 V c t.val d :=
  Finset.sum_congr rfl fun k _ => Finset.sum_congr rfl fun r _ => cvB_blk V c t k r d
theorem tile2_blk (c : Dev nD) (t : Fin cfg0.N) (d : Fin 16) :
    ∑ k : Fin 16, ∑ r : Fin 1024, cvB (blk0 V c t) (blk1 V c t) (blk2 V c t) (blk3 V c t) (blk4 V c t) k r d * cvB (blk0 V c t) (blk1 V c t) (blk2 V c t) (blk3 V c t) (blk4 V c t) k r d = tile2 V c t.val d :=
  Finset.sum_congr rfl fun k _ => Finset.sum_congr rfl fun r _ => congrArg₂ (· * ·) (cvB_blk V c t k r d) (cvB_blk V c t k r d)

/-- THE RUNNING SUMS. After grid point `n` the two outputs hold, per channel, the sums over the points up to `n`. -/
theorem running (c : Dev nD) : ∀ (n : ℕ) (hn : n < cfg0.N) (d : Fin 16),
    (outsAt0 V c n hn).1 (ix2 (0 : Fin 1) d) = ∑ s ∈ Finset.range (n + 1), tile1 V c s d
    ∧ (outsAt0 V c n hn).2 (ix2 (0 : Fin 1) d) = ∑ s ∈ Finset.range (n + 1), tile2 V c s d
  | 0, hn, d => by
    rw [outsAt0_A V c ⟨0, hn⟩ rfl]
    dsimp only
    constructor
    · refine (congrFun (piece_A5 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr rfl) (blk0 V c ⟨0, hn⟩) (blk1 V c ⟨0, hn⟩) (blk2 V c ⟨0, hn⟩) (blk3 V c ⟨0, hn⟩) (blk4 V c ⟨0, hn⟩)) (ix2 (0 : Fin 1) d)).trans ?_
      rw [tot5_apply, zero16_apply, zero_add, Finset.sum_range_one]
      exact tile1_blk V c ⟨0, hn⟩ d
    · refine (congrFun (piece_A6 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr rfl) (blk0 V c ⟨0, hn⟩) (blk1 V c ⟨0, hn⟩) (blk2 V c ⟨0, hn⟩) (blk3 V c ⟨0, hn⟩) (blk4 V c ⟨0, hn⟩)) (ix2 (0 : Fin 1) d)).trans ?_
      rw [tot6_apply, zero16_apply, zero_add, Finset.sum_range_one]
      exact tile2_blk V c ⟨0, hn⟩ d
  | n + 1, hn, d => by
    have hN : cfg0.N = 64 := N_0
    have hB : ¬(⟨n + 1, hn⟩ : Fin cfg0.N).val % 64 = 0 := by dsimp only; omega
    have ih := running c n (Nat.lt_of_succ_lt hn) d
    rw [outsAt0_B V c ⟨n + 1, hn⟩ hB]
    dsimp only
    constructor
    · refine (congrFun (piece_B5 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => hB ((hcond0_0 ⟨n + 1, hn⟩).mp h)) (blk0 V c ⟨n + 1, hn⟩) (blk1 V c ⟨n + 1, hn⟩) (blk2 V c ⟨n + 1, hn⟩) (blk3 V c ⟨n + 1, hn⟩) (blk4 V c ⟨n + 1, hn⟩)
        (outsAt0 V c n (Nat.lt_of_succ_lt hn)).1 (outsAt0 V c n (Nat.lt_of_succ_lt hn)).2) (ix2 (0 : Fin 1) d)).trans ?_
      rw [tot5_apply, ih.1, Finset.sum_range_succ _ (n + 1)]
      exact congrArg (_ + ·) (tile1_blk V c ⟨n + 1, hn⟩ d)
    · refine (congrFun (piece_B6 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => hB ((hcond0_0 ⟨n + 1, hn⟩).mp h)) (blk0 V c ⟨n + 1, hn⟩) (blk1 V c ⟨n + 1, hn⟩) (blk2 V c ⟨n + 1, hn⟩) (blk3 V c ⟨n + 1, hn⟩) (blk4 V c ⟨n + 1, hn⟩)
        (outsAt0 V c n (Nat.lt_of_succ_lt hn)).1 (outsAt0 V c n (Nat.lt_of_succ_lt hn)).2) (ix2 (0 : Fin 1) d)).trans ?_
      rw [tot6_apply, ih.2, Finset.sum_range_succ _ (n + 1)]
      exact congrArg (_ + ·) (tile2_blk V c ⟨n + 1, hn⟩ d)

end Conv

/-! ## The 64 tiles make up the whole cloud -/

/-- The 16384 points of a batch are 16 tiles of 1024. -/
theorem sum_split (f : Fin 16384 → EReal) :
    ∑ n : Fin 16384, f n = ∑ nt : Fin 16, ∑ r : Fin 1024, f ⟨1024 * nt.val + r.val, by have := nt.isLt; have := r.isLt; omega⟩ := by
  rw [← Equiv.sum_comp (finProdFinEquiv : Fin 16 × Fin 1024 ≃ Fin 16384) f, Fintype.sum_prod_type]
  refine Finset.sum_congr rfl fun nt _ => Finset.sum_congr rfl fun r _ => congrArg f (Fin.ext ?_)
  show r.val + 1024 * nt.val = 1024 * nt.val + r.val
  omega

/-- The 64 grid points are 4 batches of 16 tiles. -/
theorem sum_points (f : ℕ → EReal) :
    ∑ s ∈ Finset.range 64, f s = ∑ b : Fin 4, ∑ nt : Fin 16, f (16 * b.val + nt.val) := by
  rw [Finset.sum_range, ← Equiv.sum_comp (finProdFinEquiv : Fin 4 × Fin 16 ≃ Fin 64) (fun s => f s.val), Fintype.sum_prod_type]
  refine Finset.sum_congr rfl fun b _ => Finset.sum_congr rfl fun nt _ => congrArg f ?_
  show nt.val + 16 * b.val = 16 * b.val + nt.val
  omega

/-- A function of the batch and the point, summed tile by tile over the grid, is summed over all batches and points. -/
theorem sum_tiles (g : Fin 4 → Fin 16384 → EReal) :
    ∑ s ∈ Finset.range 64, ∑ r : Fin 1024, g (bN s) (nN s r) = ∑ b : Fin 4, ∑ n : Fin 16384, g b n := by
  rw [sum_points]
  refine Finset.sum_congr rfl fun b _ => ?_
  rw [sum_split]
  refine Finset.sum_congr rfl fun nt _ => Finset.sum_congr rfl fun r _ => ?_
  have hb : bN (16 * b.val + nt.val) = b := Fin.ext (by
    show (16 * b.val + nt.val) / 16 % 4 = b.val
    have := b.isLt; have := nt.isLt; omega)
  have hn : nN (16 * b.val + nt.val) r = ⟨1024 * nt.val + r.val, by have := nt.isLt; have := r.isLt; omega⟩ := Fin.ext (by
    show 1024 * ((16 * b.val + nt.val) % 16) + r.val = 1024 * nt.val + r.val
    have := nt.isLt; omega)
  rw [hb, hn]

/-! ## The arrays after the region -/

section Final
variable (V : (c : Dev nD) → (b : Ref sig .tc) → Buf (Elt Ideal) ((c : Thread nD τ).loc b))

/-- All 64 points' sums are the specification's sums over the whole cloud. -/
theorem sum1_eq (c : Dev nD) (d : Fin 16) :
    ∑ s ∈ Finset.range 64, tile1 V c s d = Spec.sum1 (V c main_arg0) (V c main_v6) (V c main_arg3) (Spec.wOf (V c main_v9)) (Spec.rowOf (V c main_v10)) d := by
  unfold Spec.sum1 tile1
  rw [← sum_tiles (fun b n => ∑ k : Fin 16, Spec.conv (V c main_arg0) (V c main_v6) (V c main_arg3) (Spec.wOf (V c main_v9)) (Spec.rowOf (V c main_v10)) b d n k)]
  exact Finset.sum_congr rfl fun s _ => Finset.sum_comm
theorem sum2_eq (c : Dev nD) (d : Fin 16) :
    ∑ s ∈ Finset.range 64, tile2 V c s d = Spec.sum2 (V c main_arg0) (V c main_v6) (V c main_arg3) (Spec.wOf (V c main_v9)) (Spec.rowOf (V c main_v10)) d := by
  unfold Spec.sum2 tile2
  rw [← sum_tiles (fun b n => ∑ k : Fin 16, Spec.conv (V c main_arg0) (V c main_v6) (V c main_arg3) (Spec.wOf (V c main_v9)) (Spec.rowOf (V c main_v10)) b d n k * Spec.conv (V c main_arg0) (V c main_v6) (V c main_arg3) (Spec.wOf (V c main_v9)) (Spec.rowOf (V c main_v10)) b d n k)]
  exact Finset.sum_congr rfl fun s _ => Finset.sum_comm

theorem lastLt : 63 < cfg0.N := by rw [show cfg0.N = 64 from N_0]; omega
/-- The last grid point, the one after which the two outputs are written back. -/
abbrev tLast : Fin cfg0.N := ⟨63, lastLt⟩

/-- The outputs' one block is the whole array at every point. -/
theorem out_facts : ∀ t : Fin cfg0.N,
    win0_5.index t (0 : Fin 2) = 0 ∧ win0_5.index t (1 : Fin 2) = 0
    ∧ win0_6.index t (0 : Fin 2) = 0 ∧ win0_6.index t (1 : Fin 2) = 0
    ∧ win0_5.xsize (grid0.coords t) (0 : Fin 2) = 1 ∧ win0_5.xsize (grid0.coords t) (1 : Fin 2) = 16
    ∧ win0_6.xsize (grid0.coords t) (0 : Fin 2) = 1 ∧ win0_6.xsize (grid0.coords t) (1 : Fin 2) = 16 :=
  (by decide +kernel : ∀ t : Fin grid0.N, _)

/-- A [1, 16] index is its second coordinate under the one first coordinate. -/
theorem idx_row (j : S1x16.Idx) : j = ix2 (0 : Fin 1) (j 1) :=
  (eq_ix2 j).trans (congrArg (fun u : Fin 1 => ix2 u (j 1)) (Subsingleton.elim _ _))

/-- The write-back of output one writes its staging buffer's contents whole, at whichever point. -/
theorem cut5_pt (t : Fin cfg0.N) (X : Vec Ideal S1x16 .f32) :
    (cfg0.win 5).cut (grid0.coords t) X = ((cfg0.win 5).blk t).view.read (Elt Ideal) X := by
  obtain ⟨e0, e1, -⟩ := out_facts t
  have hz' : (fun a => win0_5.index t a * main_v13_0.ty.shape.size a) = fun _ => 0 := funext fun a => by
    match a with
    | ⟨0, _⟩ => show win0_5.index t (0 : Fin 2) * 1 = 0; omega
    | ⟨1, _⟩ => show win0_5.index t (1 : Fin 2) * 16 = 0; omega
  exact (Memref.read_access_unit_zero (Elt Ideal) main_v13_0 hz' (fun a => by rw [congrFun hz' a]; simp) X).symm

/-- What a point writes back of output one is its block of what the point left in the staging buffer. -/
theorem flushed5_pt (c : Dev nD) (t : Fin cfg0.N) :
    (dat0 V c).flushed 5 t = ((cfg0.win 5).blk t).view.read (Elt Ideal) (outsAt0 V c t.val t.isLt).1 := by
  show (cfg0.win 5).cut (grid0.coords t) ((dat0 V c).after 5 t) = _
  rw [after0_5]
  exact cut5_pt t _

/-- After the last point output one's staging buffer holds the specification's sums. -/
theorem last_sum1 (c : Dev nD) (t : Fin cfg0.N) (h63 : t.val = 63) :
    (outsAt0 V c t.val t.isLt).1 = fun j : S1x16.Idx => Spec.sum1 (V c main_arg0) (V c main_v6) (V c main_arg3) (Spec.wOf (V c main_v9)) (Spec.rowOf (V c main_v10)) (j 1) := by
  funext j
  refine (congrArg (outsAt0 V c t.val t.isLt).1 (idx_row j)).trans ?_
  have h := (running V c t.val t.isLt (j 1)).1
  rw [show t.val + 1 = 64 by omega] at h
  exact h.trans (sum1_eq V c (j 1))

/-- The last point's block is the whole of output array one. -/
theorem cover5 {c : Dev nD} (i : ((cfg0.win 5).arr.view.loc (c.tc : Thread nD τ)).2.ty.Idx) :
    ∃ t : Fin cfg0.N, (cfg0.win 5).flush t = true ∧ i ∈ ((cfg0.win 5).blk t).view.set :=
  ⟨tLast, (flush0_5 tLast).mpr rfl, by
    obtain ⟨e0, e1, -, -, x0, x1, -⟩ := out_facts tLast
    show i ∈ ((View.whole main_v13_0).slice (win0_5.rect tLast)).set
    rw [View.set_slice_whole, Rect.mem_set_unit]
    intro a
    have h0 : (i 0 : ℕ) < 1 := (i 0).isLt
    have h1 : (i 1 : ℕ) < 16 := (i 1).isLt
    match a with
    | ⟨0, _⟩ =>
      show win0_5.index tLast (0 : Fin 2) * win0_5.size (0 : Fin 2) ≤ (i 0 : ℕ) ∧ (i 0 : ℕ) < win0_5.index tLast (0 : Fin 2) * win0_5.size (0 : Fin 2) + win0_5.xsize (grid0.coords tLast) (0 : Fin 2)
      rw [e0, x0]; omega
    | ⟨1, _⟩ =>
      show win0_5.index tLast (1 : Fin 2) * win0_5.size (1 : Fin 2) ≤ (i 1 : ℕ) ∧ (i 1 : ℕ) < win0_5.index tLast (1 : Fin 2) * win0_5.size (1 : Fin 2) + win0_5.xsize (grid0.coords tLast) (1 : Fin 2)
      rw [e1, x1]; omega⟩

/-- The write-back of output two writes its staging buffer's contents whole, at whichever point. -/
theorem cut6_pt (t : Fin cfg0.N) (X : Vec Ideal S1x16 .f32) :
    (cfg0.win 6).cut (grid0.coords t) X = ((cfg0.win 6).blk t).view.read (Elt Ideal) X := by
  obtain ⟨-, -, e0, e1, -⟩ := out_facts t
  have hz' : (fun a => win0_6.index t a * main_v13_1.ty.shape.size a) = fun _ => 0 := funext fun a => by
    match a with
    | ⟨0, _⟩ => show win0_6.index t (0 : Fin 2) * 1 = 0; omega
    | ⟨1, _⟩ => show win0_6.index t (1 : Fin 2) * 16 = 0; omega
  exact (Memref.read_access_unit_zero (Elt Ideal) main_v13_1 hz' (fun a => by rw [congrFun hz' a]; simp) X).symm

/-- What a point writes back of output two is its block of what the point left in the staging buffer. -/
theorem flushed6_pt (c : Dev nD) (t : Fin cfg0.N) :
    (dat0 V c).flushed 6 t = ((cfg0.win 6).blk t).view.read (Elt Ideal) (outsAt0 V c t.val t.isLt).2 := by
  show (cfg0.win 6).cut (grid0.coords t) ((dat0 V c).after 6 t) = _
  rw [after0_6]
  exact cut6_pt t _

/-- After the last point output two's staging buffer holds the specification's sums of squares. -/
theorem last_sum2 (c : Dev nD) (t : Fin cfg0.N) (h63 : t.val = 63) :
    (outsAt0 V c t.val t.isLt).2 = fun j : S1x16.Idx => Spec.sum2 (V c main_arg0) (V c main_v6) (V c main_arg3) (Spec.wOf (V c main_v9)) (Spec.rowOf (V c main_v10)) (j 1) := by
  funext j
  refine (congrArg (outsAt0 V c t.val t.isLt).2 (idx_row j)).trans ?_
  have h := (running V c t.val t.isLt (j 1)).2
  rw [show t.val + 1 = 64 by omega] at h
  exact h.trans (sum2_eq V c (j 1))

/-- The last point's block is the whole of output array two. -/
theorem cover6 {c : Dev nD} (i : ((cfg0.win 6).arr.view.loc (c.tc : Thread nD τ)).2.ty.Idx) :
    ∃ t : Fin cfg0.N, (cfg0.win 6).flush t = true ∧ i ∈ ((cfg0.win 6).blk t).view.set :=
  ⟨tLast, (flush0_6 tLast).mpr rfl, by
    obtain ⟨-, -, e0, e1, -, -, x0, x1⟩ := out_facts tLast
    show i ∈ ((View.whole main_v13_1).slice (win0_6.rect tLast)).set
    rw [View.set_slice_whole, Rect.mem_set_unit]
    intro a
    have h0 : (i 0 : ℕ) < 1 := (i 0).isLt
    have h1 : (i 1 : ℕ) < 16 := (i 1).isLt
    match a with
    | ⟨0, _⟩ =>
      show win0_6.index tLast (0 : Fin 2) * win0_6.size (0 : Fin 2) ≤ (i 0 : ℕ) ∧ (i 0 : ℕ) < win0_6.index tLast (0 : Fin 2) * win0_6.size (0 : Fin 2) + win0_6.xsize (grid0.coords tLast) (0 : Fin 2)
      rw [e0, x0]; omega
    | ⟨1, _⟩ =>
      show win0_6.index tLast (1 : Fin 2) * win0_6.size (1 : Fin 2) ≤ (i 1 : ℕ) ∧ (i 1 : ℕ) < win0_6.index tLast (1 : Fin 2) * win0_6.size (1 : Fin 2) + win0_6.xsize (grid0.coords tLast) (1 : Fin 2)
      rw [e1, x1]; omega⟩

end Final

variable (V : (c : Dev nD) → (b : Ref sig .tc) → Buf (Elt Ideal) ((c : Thread nD τ).loc b))

/-- After the region, the first output array holds each channel's sum over all positions. -/
theorem sum_final (c : Dev nD) :
    (dat0 (F := Ideal) V c).arrAt 5 cfg0.N = fun j : S1x16.Idx =>
      Spec.sum1 (V c main_arg0) (V c main_v6) (V c main_arg3) (Spec.wOf (V c main_v9)) (Spec.rowOf (V c main_v10)) (j 1) := by
  exact (dat0 V c).arrAt_eq_of_cover 5 _ (fun t hf => by
    have hN : cfg0.N = 64 := N_0
    have h63 : t.val = 63 := by have := (flush0_5 t).mp hf; have := t.isLt; omega
    exact (flushed5_pt V c t).trans (congrArg (((cfg0.win 5).blk t).view.read (Elt Ideal)) (last_sum1 V c t h63))) (cover5 (c := c))

/-- After the region, the second output array holds each channel's sum of squares over all positions. -/
theorem sumsq_final (c : Dev nD) :
    (dat0 (F := Ideal) V c).arrAt 6 cfg0.N = fun j : S1x16.Idx =>
      Spec.sum2 (V c main_arg0) (V c main_v6) (V c main_arg3) (Spec.wOf (V c main_v9)) (Spec.rowOf (V c main_v10)) (j 1) := by
  exact (dat0 V c).arrAt_eq_of_cover 6 _ (fun t hf => by
    have hN : cfg0.N = 64 := N_0
    have h63 : t.val = 63 := by have := (flush0_6 t).mp hf; have := t.isLt; omega
    exact (flushed6_pt V c t).trans (congrArg (((cfg0.win 6).blk t).view.read (Elt Ideal)) (last_sum2 V c t h63))) (cover6 (c := c))

end Cert.KernelIdeal.Region0

end
-- ==== Proof.Region1.lean ====
/-
  What the second kernel region leaves in its output array: for every point and neighbour, the 16 normalised
  channels followed by the point's 16 features, neighbour and channel folded into one axis of 512. Each of the 64
  grid points writes the block of its 1024 points; the blocks tile the array.
-/
import proofs.«125758_j12592844112371_1_alg».proof.Proof.Gen.KernelIdeal.Frame
import proofs.«125758_j12592844112371_1_alg».proof.Proof.Spec
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx
open Idealize.ShloMosaic.Pipeline (Dat)

/-! ## The payload's layout operations read at an index -/

/-- A neighbour slab `[1, 1024, 1, 3]` cast to `[1024, 3]`, at `(r, j)`. -/
theorem nbCast_apply (nb : Vec Ideal S1x1024x1x3 .f32) (r : Fin 1024) (j : Fin 3) :
    shapeCast S1024x3 nb shapeCasts_S1x1024x1x3_S1024x3 (ix2 r j) = nb (ix4 (0 : Fin 1) r (0 : Fin 1) j) :=
  shapeCast_apply nb _ _ _ (by
    rw [Shape.rowMajor_val_four, Shape.rowMajor_val_two]
    show ((0 * 1024 + r.val) * 1 + 0) * 3 + j.val = r.val * 3 + j.val
    omega)

/-- A distance slab `[1, 1024, 1]` cast to `[1024]` and then to `[1024, 1]`, at `(r, u)`. -/
theorem dsCast_apply (ds : Vec Ideal S1x1024x1 .f32) (r : Fin 1024) (u : Fin 1) :
    shapeCast S1024x1 (shapeCast S1024 ds shapeCasts_S1x1024x1_S1024) shapeCasts_S1024_S1024x1 (ix2 r u)
      = ds (ix3 (0 : Fin 1) r (0 : Fin 1)) := by
  have hu : u.val = 0 := by omega
  refine (shapeCast_apply _ _ (ix2 r u) (ix1 r) (by
    rw [Shape.rowMajor_val_one, Shape.rowMajor_val_two]
    show r.val = r.val * 1 + u.val
    omega)).trans ?_
  exact shapeCast_apply ds _ (ix1 r) _ (by
    rw [Shape.rowMajor_val_three, Shape.rowMajor_val_one]
    show (0 * 1024 + r.val) * 1 + 0 = r.val
    omega)

/-- The coordinates block `[1, 1024, 3]` cast to `[1024, 3]`, at `(r, j)`. -/
theorem coCast_apply (x0 : Vec Ideal S1x1024x3 .f32) (r : Fin 1024) (j : Fin 3) :
    k1_pay4 x0 (ix2 r j) = x0 (ix3 (0 : Fin 1) r j) :=
  shapeCast_1ab_ab_apply x0 _ r j

/-- The features block `[1, 1024, 16]` cast to `[1024, 16]`, at `(r, j)`. -/
theorem ftCast_apply (x3 : Vec Ideal S1x1024x16 .f32) (r : Fin 1024) (j : Fin 16) :
    k1_pay11 x3 (ix2 r j) = x3 (ix3 (0 : Fin 1) r j) :=
  shapeCast_1ab_ab_apply x3 _ r j

/-- The ten-channel row block: four pieces laid side by side along the channel axis, read at `(r, c)`. -/
theorem row_apply (A B C : S1024x3.Idx → EReal) (D : S1024x1.Idx → EReal) (r : Fin 1024) (c : Fin 10) :
    concatenate S1024x10 1 [⟨S1024x3, A⟩, ⟨S1024x3, B⟩, ⟨S1024x3, C⟩, ⟨S1024x1, D⟩]
        concatenates_S1024x3_S1024x3_S1024x3_S1024x1_S1024x10_d1 (ix2 r c)
      = if h3 : c.val < 3 then A (ix2 r ⟨c.val, h3⟩)
        else if h6 : c.val < 6 then B (ix2 r ⟨c.val - 3, by omega⟩)
        else if h9 : c.val < 9 then C (ix2 r ⟨c.val - 6, by omega⟩)
        else D (ix2 r (0 : Fin 1)) := by
  have hc : c.val < 10 := c.isLt
  split_ifs with h3 h6 h9
  · refine concatenate_apply_piece (t := S1024x10) (1 : Fin 2) [⟨S1024x3, A⟩, ⟨S1024x3, B⟩, ⟨S1024x3, C⟩, ⟨S1024x1, D⟩]
      concatenates_S1024x3_S1024x3_S1024x3_S1024x1_S1024x10_d1 (ix2 r c) 0 (by simp) S1024x3 A rfl rfl 0 rfl _ ?_ ?_
    · intro b hb
      match b with
      | ⟨0, _⟩ => rfl
      | ⟨1, _⟩ => exact absurd rfl hb
    · show 0 + c.val = c.val
      omega
  · refine concatenate_apply_piece (t := S1024x10) (1 : Fin 2) [⟨S1024x3, A⟩, ⟨S1024x3, B⟩, ⟨S1024x3, C⟩, ⟨S1024x1, D⟩]
      concatenates_S1024x3_S1024x3_S1024x3_S1024x1_S1024x10_d1 (ix2 r c) 1 (by simp) S1024x3 B rfl rfl 3 rfl _ ?_ ?_
    · intro b hb
      match b with
      | ⟨0, _⟩ => rfl
      | ⟨1, _⟩ => exact absurd rfl hb
    · show 3 + (c.val - 3) = c.val
      omega
  · refine concatenate_apply_piece (t := S1024x10) (1 : Fin 2) [⟨S1024x3, A⟩, ⟨S1024x3, B⟩, ⟨S1024x3, C⟩, ⟨S1024x1, D⟩]
      concatenates_S1024x3_S1024x3_S1024x3_S1024x1_S1024x10_d1 (ix2 r c) 2 (by simp) S1024x3 C rfl rfl 6 rfl _ ?_ ?_
    · intro b hb
      match b with
      | ⟨0, _⟩ => rfl
      | ⟨1, _⟩ => exact absurd rfl hb
    · show 6 + (c.val - 6) = c.val
      omega
  · refine concatenate_apply_piece (t := S1024x10) (1 : Fin 2) [⟨S1024x3, A⟩, ⟨S1024x3, B⟩, ⟨S1024x3, C⟩, ⟨S1024x1, D⟩]
      concatenates_S1024x3_S1024x3_S1024x3_S1024x1_S1024x10_d1 (ix2 r c) 3 (by simp) S1024x1 D rfl rfl 9 rfl _ ?_ ?_
    · intro b hb
      match b with
      | ⟨0, _⟩ => rfl
      | ⟨1, _⟩ => exact absurd rfl hb
    · show 9 + 0 = c.val
      omega

/-! ## The block product read at an index -/

theorem lhs_dot_0 (i : S1024x16.Idx) (q : dot_S1024x10_S10x16_S1024x16_1_0_0_1_n_n.contr.Idx) :
    (dot_S1024x10_S10x16_S1024x16_1_0_0_1_n_n.lhsIdx i q 0).val = (i 0).val := by
  unfold DotDims.lhsIdx
  rw [dif_neg (show ¬(0 : Fin S1024x10.rank) ∈ dot_S1024x10_S10x16_S1024x16_1_0_0_1_n_n.lhsBatch by decide), dif_pos (show (0 : Fin S1024x10.rank) ∈ dot_S1024x10_S10x16_S1024x16_1_0_0_1_n_n.lhsNonContracting by decide)]
  rfl
theorem lhs_dot_1 (i : S1024x16.Idx) (q : dot_S1024x10_S10x16_S1024x16_1_0_0_1_n_n.contr.Idx) :
    (dot_S1024x10_S10x16_S1024x16_1_0_0_1_n_n.lhsIdx i q 1).val = (q ⟨0, by decide⟩).val :=
  dot_S1024x10_S10x16_S1024x16_1_0_0_1_n_n.lhsIdx_val_of_single rfl i q
theorem rhs_dot_0 (i : S1024x16.Idx) (q : dot_S1024x10_S10x16_S1024x16_1_0_0_1_n_n.contr.Idx) :
    (dot_S1024x10_S10x16_S1024x16_1_0_0_1_n_n.rhsIdx i q 0).val = (q ⟨0, by decide⟩).val :=
  dot_S1024x10_S10x16_S1024x16_1_0_0_1_n_n.rhsIdx_val_of_single rfl i q
theorem rhs_dot_1 (i : S1024x16.Idx) (q : dot_S1024x10_S10x16_S1024x16_1_0_0_1_n_n.contr.Idx) :
    (dot_S1024x10_S10x16_S1024x16_1_0_0_1_n_n.rhsIdx i q 1).val = (i 1).val := by
  unfold DotDims.rhsIdx
  rw [dif_neg (show ¬(1 : Fin S10x16.rank) ∈ dot_S1024x10_S10x16_S1024x16_1_0_0_1_n_n.rhsBatch by decide), dif_pos (show (1 : Fin S10x16.rank) ∈ dot_S1024x10_S10x16_S1024x16_1_0_0_1_n_n.rhsNonContracting by decide)]
  rfl

/-- The product of a `[1024, 10]` block with the `[10, 16]` weights into a zero accumulator, at `(r, d)`: the sum over
    the ten channels. -/
theorem matmul_row_apply (lhs : FVec Ideal S1024x10 .f32) (rhs : FVec Ideal S10x16 .f32) (r : Fin 1024) (d : Fin 16) :
    matmul dot_S1024x10_S10x16_S1024x16_1_0_0_1_n_n none lhs rhs (constant (F := Ideal) S1024x16 .f32 0x00000000#32) (ix2 r d)
      = ∑ c : Fin 10, lhs (ix2 r c) * rhs (ix2 c d) := by
  refine (Ideal.matmul_constant_zero_apply _ _ _ _ _).trans ?_
  rw [← Equiv.sum_comp (contrEquiv1 dot_S1024x10_S10x16_S1024x16_1_0_0_1_n_n 10 rfl rfl).symm]
  refine Finset.sum_congr rfl fun k _ => ?_
  have hk := contrEquiv1_symm_val dot_S1024x10_S10x16_S1024x16_1_0_0_1_n_n 10 rfl rfl k
  have el : dot_S1024x10_S10x16_S1024x16_1_0_0_1_n_n.lhsIdx (ix2 r d) ((contrEquiv1 dot_S1024x10_S10x16_S1024x16_1_0_0_1_n_n 10 rfl rfl).symm k) = ix2 r k := funext fun a => Fin.ext (by
    match a with
    | ⟨0, _⟩ => exact lhs_dot_0 _ _
    | ⟨1, _⟩ => exact (lhs_dot_1 _ _).trans hk)
  have er : dot_S1024x10_S10x16_S1024x16_1_0_0_1_n_n.rhsIdx (ix2 r d) ((contrEquiv1 dot_S1024x10_S10x16_S1024x16_1_0_0_1_n_n 10 rfl rfl).symm k) = ix2 k d := funext fun a => Fin.ext (by
    match a with
    | ⟨0, _⟩ => exact (rhs_dot_0 _ _).trans hk
    | ⟨1, _⟩ => exact rhs_dot_1 _ _)
  rw [el, er]

/-! ## One point's arithmetic, over the extended reals -/

/-- The ten-channel row of a point and one of its neighbours, from the point's three coordinates, the neighbour's three
    coordinates and their distance. -/
def catv (co3 nb3 : Fin 3 → EReal) (dsv : EReal) (c : Fin 10) : EReal :=
  if h3 : c.val < 3 then co3 ⟨c.val, h3⟩
  else if h6 : c.val < 6 then nb3 ⟨c.val - 3, by omega⟩
  else if h9 : c.val < 9 then co3 ⟨c.val - 6, by omega⟩ - nb3 ⟨c.val - 6, by omega⟩
  else dsv

/-- The convolution's channel `d` of that row, for weights given as `[10, 16]` and a one-row bias. -/
def convv (co3 nb3 : Fin 3 → EReal) (dsv : EReal) (wT : FVec Ideal S10x16 .f32) (bi : FVec Ideal S1x16 .f32)
    (d : Fin 16) : EReal :=
  (∑ c : Fin 10, wT (ix2 c d) * catv co3 nb3 dsv c) + bi (ix2 (0 : Fin 1) d)

/-- The channel normalised by a mean and a variance given as one-row arrays, scaled, shifted and clipped below at zero. -/
def actv (co3 nb3 : Fin 3 → EReal) (dsv : EReal) (wT : FVec Ideal S10x16 .f32) (bi ga be mu var : FVec Ideal S1x16 .f32)
    (d : Fin 16) : EReal :=
  max (((convv co3 nb3 dsv wT bi d - mu (ix2 (0 : Fin 1) d)) * Ideal.rsqrt (var (ix2 (0 : Fin 1) d) + Spec.eps))
    * ga (ix2 (0 : Fin 1) d) + be (ix2 (0 : Fin 1) d)) 0

/-- The specification's normalised channel is that arithmetic of the arrays' entries at the point. -/
theorem actG_eq_actv (co : FVec Ideal Spec.SCo .f32) (nb : FVec Ideal Spec.SNb .f32) (ds : FVec Ideal Spec.SDs .f32)
    (wT : FVec Ideal S10x16 .f32) (bi ga be mu var : FVec Ideal S1x16 .f32)
    (b : Fin 4) (d : Fin 16) (n : Fin 16384) (k : Fin 16) :
    Spec.actG co nb ds (Spec.wOf wT) (Spec.rowOf bi) (Spec.rowOf ga) (Spec.rowOf be) (Spec.chOf mu) (Spec.chOf var) b d n k
      = actv (fun j => co (ix3 b n j)) (fun j => nb (ix4 b n k j)) (ds (ix3 b n k)) wT bi ga be mu var d := rfl

/-- The convolution term less the mean, as the payload spells it, at `(r, d)`. -/
theorem xsub_apply (v1 : FVec Ideal S1024x3 .f32) (v3 : FVec Ideal S10x16 .f32) (v5 v11 : FVec Ideal S1x16 .f32)
    (nb : Vec Ideal S1x1024x1x3 .f32) (ds : Vec Ideal S1x1024x1 .f32) (r : Fin 1024) (d : Fin 16) :
    k1_pay15 v1 v3 v5 v11 nb ds (ix2 r d)
      = convv (fun j => v1 (ix2 r j)) (fun j => nb (ix4 (0 : Fin 1) r (0 : Fin 1) j)) (ds (ix3 (0 : Fin 1) r (0 : Fin 1))) v3 v5 d
        - v11 (ix2 (0 : Fin 1) d) := by
  unfold k1_pay15
  refine (subf_apply _ _ _).trans ?_
  refine congrArg₂ (· - ·) ?_ (broadcastTo_1b_ab_apply v11 _ r d)
  refine (addf_apply _ _ _).trans ?_
  unfold convv
  refine congrArg₂ (· + ·) ?_ (broadcastTo_1b_ab_apply v5 _ r d)
  refine (matmul_row_apply _ _ r d).trans ?_
  refine Finset.sum_congr rfl fun c _ => ?_
  rw [mul_comm]
  refine congrArg (v3 (ix2 c d) * ·) ?_
  refine (row_apply _ _ _ _ r c).trans ?_
  unfold catv
  split_ifs with h3 h6 h9
  · rfl
  · exact nbCast_apply nb r _
  · exact (subf_apply _ _ _).trans (congrArg (v1 _ - ·) (nbCast_apply nb r _))
  · exact dsCast_apply ds r 0

/-- The specification's folded result at `(B, N, Q)`: channel `Q % 32` of neighbour `Q / 32` of point `(B, N)`. -/
theorem folded_apply (co : FVec Ideal Spec.SCo .f32) (nb : FVec Ideal Spec.SNb .f32) (ds : FVec Ideal Spec.SDs .f32)
    (wT : FVec Ideal S10x16 .f32) (bi ga be mu var : FVec Ideal S1x16 .f32) (f3 : FVec Ideal Spec.SDs .f32)
    (B : Fin 4) (N : Fin 16384) (Q : Fin 512) :
    Spec.folded co nb ds (Spec.wOf wT) (Spec.rowOf bi) (Spec.rowOf ga) (Spec.rowOf be) (Spec.chOf mu) (Spec.chOf var) f3
        (ix3 B N Q)
      = if h : Q.val % 32 < 16 then
          actv (fun j => co (ix3 B N j)) (fun j => nb (ix4 B N ⟨Q.val / 32, by have := Q.isLt; omega⟩ j))
            (ds (ix3 B N ⟨Q.val / 32, by have := Q.isLt; omega⟩)) wT bi ga be mu var ⟨Q.val % 32, h⟩
        else f3 (ix3 B N ⟨Q.val % 32 - 16, by omega⟩) := rfl

/-- The stabilised inverse root of the variance row, at `(0, d)`. -/
theorem rstd_apply (x9 : Vec Ideal S1x16 .f32) (u : Fin 1) (d : Fin 16) :
    k1_pay10 x9 (ix2 u d) = Ideal.rsqrt (x9 (ix2 u d) + Spec.eps) := by
  unfold k1_pay10
  rw [shapeCast_self]
  rfl

/-- A one-row array cast to its own shape. -/
theorem rowSelf_apply (x : Vec Ideal S1x16 .f32) : k1_pay6 x = x ∧ k1_pay7 x = x ∧ k1_pay8 x = x ∧ k1_pay9 x = x :=
  ⟨shapeCast_self _ _, shapeCast_self _ _, shapeCast_self _ _, shapeCast_self _ _⟩

theorem wSelf_apply (x : Vec Ideal S10x16 .f32) : k1_pay5 x = x := shapeCast_self _ _

/-- One neighbour's 32 channels: the 16 normalised ones, then the point's 16 features; at `(r, ch)`. -/
theorem chunk_apply (v7 v9 v16 : FVec Ideal S1x16 .f32) (v18 xs : FVec Ideal S1024x16 .f32) (r : Fin 1024) (ch : Fin 32) :
    k1_pay13 v7 v9 v16 v18 xs (ix2 r ch)
      = if h : ch.val < 16 then
          max ((xs (ix2 r ⟨ch.val, h⟩) * v16 (ix2 (0 : Fin 1) ⟨ch.val, h⟩)) * v7 (ix2 (0 : Fin 1) ⟨ch.val, h⟩)
            + v9 (ix2 (0 : Fin 1) ⟨ch.val, h⟩)) 0
        else v18 (ix2 r ⟨ch.val - 16, by have := ch.isLt; omega⟩) := by
  unfold k1_pay13
  have hch : ch.val < 32 := ch.isLt
  split_ifs with h
  · refine (concatenate_pair_apply_left (t := S1024x32) (1 : Fin 2) _ _ concatenates_S1024x16_S1024x16_S1024x32_d1
      (ix2 r ch) rfl (ix2 r ⟨ch.val, h⟩) (fun b => by
        match b with
        | ⟨0, _⟩ => rfl
        | ⟨1, _⟩ => rfl)).trans ?_
    refine (maximumf_apply _ _ _).trans ?_
    refine congrArg₂ max ?_ ?_
    · refine (addf_apply _ _ _).trans ?_
      refine congrArg₂ (· + ·) ?_ (broadcastTo_1b_ab_apply v9 _ r _)
      refine (mulf_apply _ _ _).trans ?_
      refine congrArg₂ (· * ·) ?_ (broadcastTo_1b_ab_apply v7 _ r _)
      refine (mulf_apply _ _ _).trans ?_
      exact congrArg (xs _ * ·) (broadcastTo_1b_ab_apply v16 _ r _)
    · show Ideal.ofBits .f32 0x00000000#32 = 0
      exact Ideal.ofBits_zero_f32
  · exact concatenate_pair_apply_right (t := S1024x32) (1 : Fin 2) _ _ concatenates_S1024x16_S1024x16_S1024x32_d1
      (ix2 r ch) rfl rfl (ix2 r ⟨ch.val - 16, by omega⟩) (fun b hb => by
        match b with
        | ⟨0, _⟩ => rfl
        | ⟨1, _⟩ => exact absurd rfl hb) (by show (ch.val - 16) + 16 = ch.val; omega)

/-! ## The output block from its sixteen neighbour chunks -/

/-- Sixteen `[1024, 32]` chunks laid side by side and given a leading unit axis: position `q` of row `r` is channel
    `q % 32` of chunk `q / 32`. -/
theorem fold_apply (f : Fin 16 → FVec Ideal S1024x32 .f32) (u : Fin 1) (r : Fin 1024) (q : Fin 512) :
    k1_pay3 (f 0) (f 1) (f 2) (f 3) (f 4) (f 5) (f 6) (f 7) (f 8) (f 9) (f 10) (f 11) (f 12) (f 13) (f 14) (f 15) (ix3 u r q)
      = f ⟨q.val / 32, by have := q.isLt; omega⟩ (ix2 r ⟨q.val % 32, Nat.mod_lt _ (by decide)⟩) := by
  unfold k1_pay3
  refine (shapeCast_ab_1ab_apply _ _ u r q).trans ?_
  exact concatenate_ofFn_apply (t := S1024x512) (1 : Fin 2) f concatenates_S1024x32_S1024x32_S1024x32_S1024x32_S1024x32_S1024x32_S1024x32_S1024x32_S1024x32_S1024x32_S1024x32_S1024x32_S1024x32_S1024x32_S1024x32_S1024x32_S1024x512_d1 rfl 32 rfl (ix2 r q)
    ⟨q.val / 32, by have := q.isLt; omega⟩ rfl (ix2 r ⟨q.val % 32, Nat.mod_lt _ (by decide)⟩) rfl
    (fun b hb => by
      match b with
      | ⟨0, _⟩ => rfl
      | ⟨1, _⟩ => exact absurd rfl hb)

/-- Neighbour `k`'s slab of the neighbours block lies inside it. -/
theorem nb_inb (k : Fin 16) : ∀ a, (![0, 0, k.val, 0] : Fin 4 → Nat) a + S1x1024x1x3.size a ≤ S1x1024x16x3.size a := by
  have hk := k.isLt
  intro a
  match a with
  | ⟨0, _⟩ => show 0 + 1 ≤ 1; omega
  | ⟨1, _⟩ => show 0 + 1024 ≤ 1024; omega
  | ⟨2, _⟩ => show k.val + 1 ≤ 16; omega
  | ⟨3, _⟩ => show 0 + 3 ≤ 3; omega

/-- Neighbour `k`'s slab of the distances block lies inside it. -/
theorem ds_inb (k : Fin 16) : ∀ a, (![0, 0, k.val] : Fin 3 → Nat) a + S1x1024x1.size a ≤ S1x1024x16.size a := by
  have hk := k.isLt
  intro a
  match a with
  | ⟨0, _⟩ => show 0 + 1 ≤ 1; omega
  | ⟨1, _⟩ => show 0 + 1024 ≤ 1024; omega
  | ⟨2, _⟩ => show k.val + 1 ≤ 16; omega

/-- Neighbour `k`'s slab of the neighbours block, at `(0, r, 0, j)`. -/
theorem nbSlab_apply (x1 : Vec Ideal S1x1024x16x3 .f32) (k : ℕ) (hk : k < 16)
    (inb : ∀ a, (![0, 0, k, 0] : Fin 4 → Nat) a + S1x1024x1x3.size a ≤ S1x1024x16x3.size a) (r : Fin 1024) (j : Fin 3) :
    View.ld x1 (Rect.unit (s := S1x1024x16x3) ![0, 0, k, 0] S1x1024x1x3.size inb) (ix4 (0 : Fin 1) r (0 : Fin 1) j)
      = x1 (ix4 (0 : Fin 1) r ⟨k, hk⟩ j) := by
  show x1 _ = x1 _
  refine congrArg x1 (funext fun a => Fin.ext ?_)
  match a with
  | ⟨0, _⟩ => show 0 + 1 * 0 = 0; omega
  | ⟨1, _⟩ => show 0 + 1 * r.val = r.val; omega
  | ⟨2, _⟩ => show k + 1 * 0 = k; omega
  | ⟨3, _⟩ => show 0 + 1 * j.val = j.val; omega

/-- Neighbour `k`'s slab of the distances block, at `(0, r, 0)`. -/
theorem dsSlab_apply (x2 : Vec Ideal S1x1024x16 .f32) (k : ℕ) (hk : k < 16)
    (inb : ∀ a, (![0, 0, k] : Fin 3 → Nat) a + S1x1024x1.size a ≤ S1x1024x16.size a) (r : Fin 1024) :
    View.ld x2 (Rect.unit (s := S1x1024x16) ![0, 0, k] S1x1024x1.size inb) (ix3 (0 : Fin 1) r (0 : Fin 1))
      = x2 (ix3 (0 : Fin 1) r ⟨k, hk⟩) := by
  show x2 _ = x2 _
  refine congrArg x2 (funext fun a => Fin.ext ?_)
  match a with
  | ⟨0, _⟩ => show 0 + 1 * 0 = 0; omega
  | ⟨1, _⟩ => show 0 + 1 * r.val = r.val; omega
  | ⟨2, _⟩ => show k + 1 * 0 = k; omega

theorem hz2 : (![0, 0] : Fin 2 → Nat) = fun _ => 0 := funext fun a => by
  match a with
  | ⟨0, _⟩ => rfl
  | ⟨1, _⟩ => rfl
theorem hz3 : (![0, 0, 0] : Fin 3 → Nat) = fun _ => 0 := funext fun a => by
  match a with
  | ⟨0, _⟩ => rfl
  | ⟨1, _⟩ => rfl
  | ⟨2, _⟩ => rfl

/-- Neighbour `k`'s chunk of the output block, from the ten input blocks. -/
def chunkOf (x0 : Vec Ideal S1x1024x3 .f32) (x1 : Vec Ideal S1x1024x16x3 .f32) (x2 : Vec Ideal S1x1024x16 .f32)
    (x3 : Vec Ideal S1x1024x16 .f32) (x4 : Vec Ideal S10x16 .f32) (x5 x6 x7 x8 x9 : Vec Ideal S1x16 .f32) (k : Fin 16) :
    FVec Ideal S1024x32 .f32 :=
  k1_pay13 (k1_pay7 (View.ld x6 r1_2)) (k1_pay8 (View.ld x7 r1_2)) (k1_pay10 (View.ld x9 r1_2)) (k1_pay11 (View.ld x3 r1_3))
    (k1_pay15 (k1_pay4 (View.ld x0 r1_0)) (k1_pay5 (View.ld x4 r1_1)) (k1_pay6 (View.ld x5 r1_2)) (k1_pay9 (View.ld x8 r1_2))
      (View.ld x1 (Rect.unit (s := S1x1024x16x3) ![0, 0, k.val, 0] S1x1024x1x3.size (nb_inb k)))
      (View.ld x2 (Rect.unit (s := S1x1024x16) ![0, 0, k.val] S1x1024x1.size (ds_inb k))))

/-- The output block is the sixteen chunks folded. -/
theorem out_eq_chunks (x0 : Vec Ideal S1x1024x3 .f32) (x1 : Vec Ideal S1x1024x16x3 .f32) (x2 : Vec Ideal S1x1024x16 .f32)
    (x3 : Vec Ideal S1x1024x16 .f32) (x4 : Vec Ideal S10x16 .f32) (x5 x6 x7 x8 x9 : Vec Ideal S1x16 .f32) :
    out1_10 x0 x1 x2 x3 x4 x5 x6 x7 x8 x9
      = k1_pay3 (chunkOf x0 x1 x2 x3 x4 x5 x6 x7 x8 x9 0) (chunkOf x0 x1 x2 x3 x4 x5 x6 x7 x8 x9 1)
          (chunkOf x0 x1 x2 x3 x4 x5 x6 x7 x8 x9 2) (chunkOf x0 x1 x2 x3 x4 x5 x6 x7 x8 x9 3)
          (chunkOf x0 x1 x2 x3 x4 x5 x6 x7 x8 x9 4) (chunkOf x0 x1 x2 x3 x4 x5 x6 x7 x8 x9 5)
          (chunkOf x0 x1 x2 x3 x4 x5 x6 x7 x8 x9 6) (chunkOf x0 x1 x2 x3 x4 x5 x6 x7 x8 x9 7)
          (chunkOf x0 x1 x2 x3 x4 x5 x6 x7 x8 x9 8) (chunkOf x0 x1 x2 x3 x4 x5 x6 x7 x8 x9 9)
          (chunkOf x0 x1 x2 x3 x4 x5 x6 x7 x8 x9 10) (chunkOf x0 x1 x2 x3 x4 x5 x6 x7 x8 x9 11)
          (chunkOf x0 x1 x2 x3 x4 x5 x6 x7 x8 x9 12) (chunkOf x0 x1 x2 x3 x4 x5 x6 x7 x8 x9 13)
          (chunkOf x0 x1 x2 x3 x4 x5 x6 x7 x8 x9 14) (chunkOf x0 x1 x2 x3 x4 x5 x6 x7 x8 x9 15) := by
  unfold out1_10
  rw [View.canon_unit_zero hz3]
  rfl

/-- Position `q` of row `r` of the output block, from the ten input blocks: channel `q % 32` of neighbour `q / 32`. -/
def blockAt (x0 : Vec Ideal S1x1024x3 .f32) (x1 : Vec Ideal S1x1024x16x3 .f32) (x2 : Vec Ideal S1x1024x16 .f32)
    (x3 : Vec Ideal S1x1024x16 .f32) (x4 : Vec Ideal S10x16 .f32) (x5 x6 x7 x8 x9 : Vec Ideal S1x16 .f32)
    (r : Fin 1024) (q : Fin 512) : EReal :=
  if h : q.val % 32 < 16 then
    actv (fun j => x0 (ix3 (0 : Fin 1) r j))
      (fun j => x1 (ix4 (0 : Fin 1) r ⟨q.val / 32, by have := q.isLt; omega⟩ j))
      (x2 (ix3 (0 : Fin 1) r ⟨q.val / 32, by have := q.isLt; omega⟩)) x4 x5 x6 x7 x8 x9 ⟨q.val % 32, h⟩
  else x3 (ix3 (0 : Fin 1) r ⟨q.val % 32 - 16, by omega⟩)

/-- The body's output block, index by index. -/
theorem out_apply (x0 : Vec Ideal S1x1024x3 .f32) (x1 : Vec Ideal S1x1024x16x3 .f32) (x2 : Vec Ideal S1x1024x16 .f32)
    (x3 : Vec Ideal S1x1024x16 .f32) (x4 : Vec Ideal S10x16 .f32) (x5 x6 x7 x8 x9 : Vec Ideal S1x16 .f32)
    (u : Fin 1) (r : Fin 1024) (q : Fin 512) :
    out1_10 x0 x1 x2 x3 x4 x5 x6 x7 x8 x9 (ix3 u r q) = blockAt x0 x1 x2 x3 x4 x5 x6 x7 x8 x9 r q := by
  have hq : q.val < 512 := q.isLt
  rw [out_eq_chunks]
  refine (fold_apply (chunkOf x0 x1 x2 x3 x4 x5 x6 x7 x8 x9) u r q).trans ?_
  unfold chunkOf
  refine (chunk_apply _ _ _ _ _ r _).trans ?_
  unfold blockAt
  show (if h : q.val % 32 < 16 then _ else _) = _
  split_ifs with h
  · unfold actv
    simp only [View.ld_unit_zero (S := S1x16) hz2, View.ld_unit_zero (S := S10x16) hz2,
      View.ld_unit_zero (S := S1x1024x3) hz3, View.ld_unit_zero (S := S1x1024x16) hz3]
    rw [(rowSelf_apply x6).2.1, (rowSelf_apply x7).2.2.1, rstd_apply, xsub_apply, wSelf_apply, (rowSelf_apply x5).1,
      (rowSelf_apply x8).2.2.2]
    simp only [coCast_apply, nbSlab_apply x1 (q.val / 32) (by omega), dsSlab_apply x2 (q.val / 32) (by omega)]
  · simp only [View.ld_unit_zero (S := S1x1024x16) hz3]
    exact ftCast_apply x3 r _

/-! ## From blocks to the array -/

/-- The index maps, decided over the grid: point `t = 16 b + s` takes batch `b`'s tile `s` of the four per-point arrays
    and of the output, and the whole of the six small arrays. -/
theorem idx_facts : ∀ t : Fin cfg1.N,
    (win1_0.index t (0 : Fin 3) = t.val / 16 ∧ win1_0.index t (1 : Fin 3) = t.val % 16 ∧ win1_0.index t (2 : Fin 3) = 0)
    ∧ (win1_1.index t (0 : Fin 4) = t.val / 16 ∧ win1_1.index t (1 : Fin 4) = t.val % 16 ∧ win1_1.index t (2 : Fin 4) = 0
        ∧ win1_1.index t (3 : Fin 4) = 0)
    ∧ (win1_2.index t (0 : Fin 3) = t.val / 16 ∧ win1_2.index t (1 : Fin 3) = t.val % 16 ∧ win1_2.index t (2 : Fin 3) = 0)
    ∧ (win1_3.index t (0 : Fin 3) = t.val / 16 ∧ win1_3.index t (1 : Fin 3) = t.val % 16 ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 3) = t.val / 16 ∧ win1_10.index t (1 : Fin 3) = t.val % 16 ∧ win1_10.index t (2 : Fin 3) = 0) :=
  (by decide +kernel : ∀ t : Fin grid1.N, _)

theorem t_lt (t : Fin cfg1.N) : t.val < 64 := Nat.lt_of_lt_of_eq t.isLt N_1

variable (V : (c : Dev nD) → (b : Ref sig .tc) → Buf (Elt Ideal) ((c : Thread nD τ).loc b))

/-- The coordinates block of point `t`: rows `1024 s … 1024 s + 1023` of batch `b`. -/
theorem blk0_apply (c : Dev nD) (t : Fin cfg1.N) (B : Fin 4) (N : Fin 16384) (r : Fin 1024) (j : Fin 3)
    (hB : B.val = t.val / 16) (hN : N.val = 1024 * (t.val % 16) + r.val) :
    (iblk1 V c 0 t : Vec Ideal S1x1024x3 .f32) (ix3 (0 : Fin 1) r j) = V c main_arg0 (ix3 B N j) := by
  obtain ⟨⟨e0, e1, e2⟩, -⟩ := idx_facts t
  show V c main_arg0 (((cfg1.win 0).blk t).view.emb (ix3 (0 : Fin 1) r j)) = V c main_arg0 (ix3 B N j)
  refine congrArg (V c main_arg0) (funext fun a => Fin.ext ?_)
  match a with
  | ⟨0, _⟩ => show win1_0.index t (0 : Fin 3) * 1 + 1 * 0 = B.val; omega
  | ⟨1, _⟩ => show win1_0.index t (1 : Fin 3) * 1024 + 1 * r.val = N.val; omega
  | ⟨2, _⟩ => show win1_0.index t (2 : Fin 3) * 3 + 1 * j.val = j.val; omega

/-- The neighbours block of point `t`. -/
theorem blk1_apply (c : Dev nD) (t : Fin cfg1.N) (B : Fin 4) (N : Fin 16384) (r : Fin 1024) (k : Fin 16) (j : Fin 3)
    (hB : B.val = t.val / 16) (hN : N.val = 1024 * (t.val % 16) + r.val) :
    (iblk1 V c 1 t : Vec Ideal S1x1024x16x3 .f32) (ix4 (0 : Fin 1) r k j) = V c main_v6 (ix4 B N k j) := by
  obtain ⟨-, ⟨e0, e1, e2, e3⟩, -⟩ := idx_facts t
  show V c main_v6 (((cfg1.win 1).blk t).view.emb (ix4 (0 : Fin 1) r k j)) = V c main_v6 (ix4 B N k j)
  refine congrArg (V c main_v6) (funext fun a => Fin.ext ?_)
  match a with
  | ⟨0, _⟩ => show win1_1.index t (0 : Fin 4) * 1 + 1 * 0 = B.val; omega
  | ⟨1, _⟩ => show win1_1.index t (1 : Fin 4) * 1024 + 1 * r.val = N.val; omega
  | ⟨2, _⟩ => show win1_1.index t (2 : Fin 4) * 16 + 1 * k.val = k.val; omega
  | ⟨3, _⟩ => show win1_1.index t (3 : Fin 4) * 3 + 1 * j.val = j.val; omega

/-- The distances block of point `t`. -/
theorem blk2_apply (c : Dev nD) (t : Fin cfg1.N) (B : Fin 4) (N : Fin 16384) (r : Fin 1024) (k : Fin 16)
    (hB : B.val = t.val / 16) (hN : N.val = 1024 * (t.val % 16) + r.val) :
    (iblk1 V c 2 t : Vec Ideal S1x1024x16 .f32) (ix3 (0 : Fin 1) r k) = V c main_arg3 (ix3 B N k) := by
  obtain ⟨-, -, ⟨e0, e1, e2⟩, -⟩ := idx_facts t
  show V c main_arg3 (((cfg1.win 2).blk t).view.emb (ix3 (0 : Fin 1) r k)) = V c main_arg3 (ix3 B N k)
  refine congrArg (V c main_arg3) (funext fun a => Fin.ext ?_)
  match a with
  | ⟨0, _⟩ => show win1_2.index t (0 : Fin 3) * 1 + 1 * 0 = B.val; omega
  | ⟨1, _⟩ => show win1_2.index t (1 : Fin 3) * 1024 + 1 * r.val = N.val; omega
  | ⟨2, _⟩ => show win1_2.index t (2 : Fin 3) * 16 + 1 * k.val = k.val; omega

/-- The features block of point `t`. -/
theorem blk3_apply (c : Dev nD) (t : Fin cfg1.N) (B : Fin 4) (N : Fin 16384) (r : Fin 1024) (k : Fin 16)
    (hB : B.val = t.val / 16) (hN : N.val = 1024 * (t.val % 16) + r.val) :
    (iblk1 V c 3 t : Vec Ideal S1x1024x16 .f32) (ix3 (0 : Fin 1) r k) = V c main_v8 (ix3 B N k) := by
  obtain ⟨-, -, -, ⟨e0, e1, e2⟩, -⟩ := idx_facts t
  show V c main_v8 (((cfg1.win 3).blk t).view.emb (ix3 (0 : Fin 1) r k)) = V c main_v8 (ix3 B N k)
  refine congrArg (V c main_v8) (funext fun a => Fin.ext ?_)
  match a with
  | ⟨0, _⟩ => show win1_3.index t (0 : Fin 3) * 1 + 1 * 0 = B.val; omega
  | ⟨1, _⟩ => show win1_3.index t (1 : Fin 3) * 1024 + 1 * r.val = N.val; omega
  | ⟨2, _⟩ => show win1_3.index t (2 : Fin 3) * 16 + 1 * k.val = k.val; omega

/-- The weights' block is the whole array, at every point. -/
theorem blk4_eq (c : Dev nD) (t : Fin cfg1.N) : (iblk1 V c 4 t : Vec Ideal S10x16 .f32) = V c main_v9 := by
  obtain ⟨-, -, -, -, ⟨e0, e1⟩, -⟩ := idx_facts t
  funext i
  show V c main_v9 (((cfg1.win 4).blk t).view.emb i) = V c main_v9 i
  refine congrArg (V c main_v9) (funext fun a => Fin.ext ?_)
  match a with
  | ⟨0, _⟩ => show win1_4.index t (0 : Fin 2) * 10 + 1 * (i 0).val = (i 0).val; omega
  | ⟨1, _⟩ => show win1_4.index t (1 : Fin 2) * 16 + 1 * (i 1).val = (i 1).val; omega

/-- A one-row array's block is the whole array, at every point. -/
theorem blk5_eq (c : Dev nD) (t : Fin cfg1.N) : (iblk1 V c 5 t : Vec Ideal S1x16 .f32) = V c main_v10 := by
  obtain ⟨-, -, -, -, -, ⟨e0, e1⟩, -⟩ := idx_facts t
  funext i
  show V c main_v10 (((cfg1.win 5).blk t).view.emb i) = V c main_v10 i
  refine congrArg (V c main_v10) (funext fun a => Fin.ext ?_)
  match a with
  | ⟨0, _⟩ => show win1_5.index t (0 : Fin 2) * 1 + 1 * (i 0).val = (i 0).val; omega
  | ⟨1, _⟩ => show win1_5.index t (1 : Fin 2) * 16 + 1 * (i 1).val = (i 1).val; omega

/-- A one-row array's block is the whole array, at every point. -/
theorem blk6_eq (c : Dev nD) (t : Fin cfg1.N) : (iblk1 V c 6 t : Vec Ideal S1x16 .f32) = V c main_v11 := by
  obtain ⟨-, -, -, -, -, -, ⟨e0, e1⟩, -⟩ := idx_facts t
  funext i
  show V c main_v11 (((cfg1.win 6).blk t).view.emb i) = V c main_v11 i
  refine congrArg (V c main_v11) (funext fun a => Fin.ext ?_)
  match a with
  | ⟨0, _⟩ => show win1_6.index t (0 : Fin 2) * 1 + 1 * (i 0).val = (i 0).val; omega
  | ⟨1, _⟩ => show win1_6.index t (1 : Fin 2) * 16 + 1 * (i 1).val = (i 1).val; omega

/-- A one-row array's block is the whole array, at every point. -/
theorem blk7_eq (c : Dev nD) (t : Fin cfg1.N) : (iblk1 V c 7 t : Vec Ideal S1x16 .f32) = V c main_v12 := by
  obtain ⟨-, -, -, -, -, -, -, ⟨e0, e1⟩, -⟩ := idx_facts t
  funext i
  show V c main_v12 (((cfg1.win 7).blk t).view.emb i) = V c main_v12 i
  refine congrArg (V c main_v12) (funext fun a => Fin.ext ?_)
  match a with
  | ⟨0, _⟩ => show win1_7.index t (0 : Fin 2) * 1 + 1 * (i 0).val = (i 0).val; omega
  | ⟨1, _⟩ => show win1_7.index t (1 : Fin 2) * 16 + 1 * (i 1).val = (i 1).val; omega

/-- A one-row array's block is the whole array, at every point. -/
theorem blk8_eq (c : Dev nD) (t : Fin cfg1.N) : (iblk1 V c 8 t : Vec Ideal S1x16 .f32) = V c main_v15 := by
  obtain ⟨-, -, -, -, -, -, -, -, ⟨e0, e1⟩, -⟩ := idx_facts t
  funext i
  show V c main_v15 (((cfg1.win 8).blk t).view.emb i) = V c main_v15 i
  refine congrArg (V c main_v15) (funext fun a => Fin.ext ?_)
  match a with
  | ⟨0, _⟩ => show win1_8.index t (0 : Fin 2) * 1 + 1 * (i 0).val = (i 0).val; omega
  | ⟨1, _⟩ => show win1_8.index t (1 : Fin 2) * 16 + 1 * (i 1).val = (i 1).val; omega

/-- A one-row array's block is the whole array, at every point. -/
theorem blk9_eq (c : Dev nD) (t : Fin cfg1.N) : (iblk1 V c 9 t : Vec Ideal S1x16 .f32) = V c main_v19 := by
  obtain ⟨-, -, -, -, -, -, -, -, -, ⟨e0, e1⟩, -⟩ := idx_facts t
  funext i
  show V c main_v19 (((cfg1.win 9).blk t).view.emb i) = V c main_v19 i
  refine congrArg (V c main_v19) (funext fun a => Fin.ext ?_)
  match a with
  | ⟨0, _⟩ => show win1_9.index t (0 : Fin 2) * 1 + 1 * (i 0).val = (i 0).val; omega
  | ⟨1, _⟩ => show win1_9.index t (1 : Fin 2) * 16 + 1 * (i 1).val = (i 1).val; omega

/-- What point `t` writes back is its block of the folded result of the arrays the region was entered with. -/
theorem flushed_eq (c : Dev nD) (t : Fin cfg1.N) :
    (dat1 (F := Ideal) V c).flushed 10 t = ((cfg1.win 10).blk t).view.read (Elt Ideal)
      (Spec.folded (V c main_arg0) (V c main_v6) (V c main_arg3) (Spec.wOf (V c main_v9)) (Spec.rowOf (V c main_v10))
        (Spec.rowOf (V c main_v11)) (Spec.rowOf (V c main_v12)) (Spec.chOf (V c main_v15)) (Spec.chOf (V c main_v19))
        (V c main_v8)) := by
  show (cfg1.win 10).cut (grid1.coords t) ((dat1 V c).after 10 t) = _
  rw [after1_10]
  have ht := t_lt t
  obtain ⟨-, -, -, -, -, -, -, -, -, -, ⟨e0, e1, e2⟩⟩ := idx_facts t
  funext y
  obtain ⟨u, r, q, rfl⟩ : ∃ (u : Fin 1) (r : Fin 1024) (q : Fin 512), y = ix3 u r q := ⟨y 0, y 1, y 2, eq_ix3 y⟩
  have hr : r.val < 1024 := r.isLt
  have hq : q.val < 512 := q.isLt
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix3 u r q)
    = Spec.folded (V c main_arg0) (V c main_v6) (V c main_arg3) (Spec.wOf (V c main_v9)) (Spec.rowOf (V c main_v10))
        (Spec.rowOf (V c main_v11)) (Spec.rowOf (V c main_v12)) (Spec.chOf (V c main_v15)) (Spec.chOf (V c main_v19))
        (V c main_v8) (((cfg1.win 10).blk t).view.emb (ix3 u r q))
  have hemb : ((cfg1.win 10).blk t).view.emb (ix3 u r q)
      = ix3 (⟨t.val / 16, by omega⟩ : Fin 4) (⟨1024 * (t.val % 16) + r.val, by omega⟩ : Fin 16384) q :=
    funext fun a => Fin.ext (by
      match a with
      | ⟨0, _⟩ => show win1_10.index t (0 : Fin 3) * 1 + 1 * u.val = t.val / 16; omega
      | ⟨1, _⟩ => show win1_10.index t (1 : Fin 3) * 1024 + 1 * r.val = 1024 * (t.val % 16) + r.val; omega
      | ⟨2, _⟩ => show win1_10.index t (2 : Fin 3) * 512 + 1 * q.val = q.val; omega)
  rw [hemb, folded_apply]
  refine (out_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) u r q).trans ?_
  unfold blockAt
  rw [blk4_eq V c t, blk5_eq V c t, blk6_eq V c t, blk7_eq V c t, blk8_eq V c t, blk9_eq V c t]
  split_ifs with h
  · have a0 : (fun j => (iblk1 V c 0 t : Vec Ideal S1x1024x3 .f32) (ix3 (0 : Fin 1) r j))
        = fun j => V c main_arg0 (ix3 (⟨t.val / 16, by omega⟩ : Fin 4) (⟨1024 * (t.val % 16) + r.val, by omega⟩ : Fin 16384) j) :=
      funext fun j => blk0_apply V c t _ _ r j rfl rfl
    have a1 : (fun j => (iblk1 V c 1 t : Vec Ideal S1x1024x16x3 .f32) (ix4 (0 : Fin 1) r (⟨q.val / 32, by omega⟩ : Fin 16) j))
        = fun j => V c main_v6 (ix4 (⟨t.val / 16, by omega⟩ : Fin 4) (⟨1024 * (t.val % 16) + r.val, by omega⟩ : Fin 16384)
            (⟨q.val / 32, by omega⟩ : Fin 16) j) :=
      funext fun j => blk1_apply V c t _ _ r _ j rfl rfl
    have a2 := blk2_apply V c t (⟨t.val / 16, by omega⟩ : Fin 4) (⟨1024 * (t.val % 16) + r.val, by omega⟩ : Fin 16384) r
      (⟨q.val / 32, by omega⟩ : Fin 16) rfl rfl
    rw [a0, a1, a2]
  · exact blk3_apply V c t _ _ r _ rfl rfl

/-- An index of the output array is in point `t`'s block iff each coordinate is in the block's range on its axis. -/
theorem mem_blk (t : Fin cfg1.N) (i : S4x16384x512.Idx) :
    i ∈ ((cfg1.win 10).blk t).view.set ↔ ∀ a : Fin 3, win1_10.index t a * S1x1024x512.size a ≤ (i a).val
      ∧ (i a).val < win1_10.index t a * S1x1024x512.size a + S1x1024x512.size a := by
  show i ∈ ((View.whole main_v20).slice (win1_10.rect t)).set ↔ _
  rw [View.set_slice_whole, Rect.mem_set_unit]
  exact Iff.rfl

/-- Every index of the output array is in some point's block: row `n` of batch `b` is in the block of point
    `16 b + n / 1024`. -/
theorem covered (i : S4x16384x512.Idx) :
    ∃ t : Fin cfg1.N, (cfg1.win 10).flush t = true ∧ i ∈ ((cfg1.win 10).blk t).view.set := by
  have h0 : (i 0).val < 4 := (i 0).isLt
  have h1 : (i 1).val < 16384 := (i 1).isLt
  have h2 : (i 2).val < 512 := (i 2).isLt
  have hlt : 16 * (i 0).val + (i 1).val / 1024 < cfg1.N := by
    rw [show cfg1.N = 64 from N_1]; omega
  obtain ⟨-, -, -, -, -, -, -, -, -, -, ⟨e0, e1, e2⟩⟩ := idx_facts ⟨16 * (i 0).val + (i 1).val / 1024, hlt⟩
  refine ⟨⟨16 * (i 0).val + (i 1).val / 1024, hlt⟩, flush1_10 _, ?_⟩
  rw [mem_blk]
  intro a
  match a with
  | ⟨0, _⟩ =>
    show win1_10.index ⟨16 * (i 0).val + (i 1).val / 1024, hlt⟩ (0 : Fin 3) * 1 ≤ (i 0).val
      ∧ (i 0).val < win1_10.index ⟨16 * (i 0).val + (i 1).val / 1024, hlt⟩ (0 : Fin 3) * 1 + 1
    rw [e0]; show (16 * (i 0).val + (i 1).val / 1024) / 16 * 1 ≤ _ ∧ _ < (16 * (i 0).val + (i 1).val / 1024) / 16 * 1 + 1
    omega
  | ⟨1, _⟩ =>
    show win1_10.index ⟨16 * (i 0).val + (i 1).val / 1024, hlt⟩ (1 : Fin 3) * 1024 ≤ (i 1).val
      ∧ (i 1).val < win1_10.index ⟨16 * (i 0).val + (i 1).val / 1024, hlt⟩ (1 : Fin 3) * 1024 + 1024
    rw [e1]; show (16 * (i 0).val + (i 1).val / 1024) % 16 * 1024 ≤ _ ∧ _ < (16 * (i 0).val + (i 1).val / 1024) % 16 * 1024 + 1024
    omega
  | ⟨2, _⟩ =>
    show win1_10.index ⟨16 * (i 0).val + (i 1).val / 1024, hlt⟩ (2 : Fin 3) * 512 ≤ (i 2).val
      ∧ (i 2).val < win1_10.index ⟨16 * (i 0).val + (i 1).val / 1024, hlt⟩ (2 : Fin 3) * 512 + 512
    rw [e2]; omega

/-- After the region, the output array holds the folded result of the arrays the region was entered with: the
    mean and the variance it normalises by are the two one-row arrays it is handed. -/
theorem out_final (c : Dev nD) :
    (dat1 (F := Ideal) V c).arrAt 10 cfg1.N =
      Spec.folded (V c main_arg0) (V c main_v6) (V c main_arg3) (Spec.wOf (V c main_v9)) (Spec.rowOf (V c main_v10))
        (Spec.rowOf (V c main_v11)) (Spec.rowOf (V c main_v12)) (Spec.chOf (V c main_v15)) (Spec.chOf (V c main_v19))
        (V c main_v8) :=
  (dat1 (F := Ideal) V c).arrAt_eq_of_cover 10 _ (fun t _ => flushed_eq V c t) covered

end Cert.KernelIdeal.Region1

end
-- ==== Proof.HostOps.lean ====
/-
  The host operations around the two kernel regions, read at the buffers the regions are handed.

  Before the first region the host gathers each point's 16 neighbours' coordinates, lays the features out as
  (batch, point, feature), transposes the weights and reshapes the bias, scale and shift to one row. Between the
  regions it divides the two sums by the count and forms the variance. After the second region it unfolds the
  512-axis into (neighbour, channel) and moves the channel axis forward.
-/
import proofs.«125758_j12592844112371_1_alg».proof.Proof.Gen.KernelIdeal.Frame
import proofs.«125758_j12592844112371_1_alg».proof.Proof.Spec
import Idealize.ShloMosaic.Lib.ValueLayout
import Idealize.ShloMosaic.Lib.IdealHost

set_option maxRecDepth 16384

noncomputable section

open scoped BigOperators

namespace Cert.KernelIdeal.HostOps

open Cert.KernelIdeal Cert.KernelIdeal.Gen
open Idealize.ShloMosaic Idealize.ShloMosaic.TcCoe Idealize.ShloMosaic.ValueIdx Idealize.ShloMosaic.StableHlo

/-- The neighbours' coordinates: the points' coordinates gathered at the neighbour indices, a negative index
    counted from the end (16384 added). -/
def nbOf (co : Vec Ideal S4x16384x3 .f32) (idx : Vec Ideal S4x16384x16 .i32) : Vec Ideal S4x16384x16x3 .f32 :=
  Host.gather gather_S4x16384x3_S4x16384x16x1_S4x16384x16x3_3_1_0_0_1_3_113 co
    (broadcastInDim S4x16384x16x1 ![0, 1, 2] bcast_S4x16384x16_S4x16384x16x1_0_1_2
      (select (cmpi .slt idx (broadcastInDim S4x16384x16 ![] bcast_S_S4x16384x16 (constantI S_ 32 0#32)))
        (addi idx (broadcastInDim S4x16384x16 ![] bcast_S_S4x16384x16 (constantI S_ 32 16384#32))) idx))

/-! ## The two re-layouts read at an index -/

/-- The features `[4, 16, 16384, 1]` with the unit axis dropped and the last two axes swapped read, at
    (batch, point, feature), the entry (batch, feature, point, 0). -/
theorem feat_apply (x : Vec Ideal S4x16x16384x1 .f32) (b : Fin 4) (n : Fin 16384) (f : Fin 16) :
    transpose S4x16384x16 [0, 2, 1] (shapeCast S4x16x16384 x shapeCasts_S4x16x16384x1_S4x16x16384)
        transposes_S4x16x16384_S4x16384x16_0_2_1 (ix3 b n f)
      = x (ix4 b f n (0 : Fin 1)) := by
  rw [transpose_ix3_021_apply]
  exact shapeCast_apply x _ _ _ (by
    rw [Shape.rowMajor_val_four, Shape.rowMajor_val_three]
    show ((b.val * 16 + f.val) * 16384 + n.val) * 1 + 0 = (b.val * 16 + f.val) * 16384 + n.val
    omega)

/-- The `[4, 16384, 512]` array with its last axis unfolded into (neighbour, channel) and the channel axis moved
    forward reads, at (batch, channel, point, neighbour), the entry (batch, point, 32 * neighbour + channel). -/
theorem unfold_apply (x : Vec Ideal S4x16384x512 .f32) (b : Fin 4) (ch : Fin 32) (n : Fin 16384) (k : Fin 16) :
    transpose S4x32x16384x16 [0, 3, 1, 2] (shapeCast S4x16384x16x32 x shapeCasts_S4x16384x512_S4x16384x16x32)
        transposes_S4x16384x16x32_S4x32x16384x16_0_3_1_2 (ix4 b ch n k)
      = x (ix3 b n ⟨32 * k.val + ch.val, by omega⟩) := by
  refine (transpose_apply _ _ _ _ (ix4 b n k ch)
    (fun a => match a with | ⟨0, _⟩ => rfl | ⟨1, _⟩ => rfl | ⟨2, _⟩ => rfl | ⟨3, _⟩ => rfl)).trans ?_
  exact shapeCast_apply x _ _ _ (by
    rw [Shape.rowMajor_val_three, Shape.rowMajor_val_four]
    show (b.val * 16384 + n.val) * 512 + (32 * k.val + ch.val) = ((b.val * 16384 + n.val) * 16 + k.val) * 32 + ch.val
    omega)

variable (m : (ℓ : Loc nD τ sig) → Buf (Elt Ideal) ℓ) (ρ : Dev nD → PrngReg)

/-- A buffer that no operation of a host stretch writes keeps its contents over the stretch. -/
local macro "unwritten" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## What the first region is entered with -/

theorem V1_arg0 (c : Dev nD) : V1 m ρ c main_arg0 = m ((c : Thread nD τ).loc main_arg0) := by
  show W1 m ρ c (Proc.devRef .tc main_arg0) = W0 m ρ c (Proc.devRef .tc main_arg0)
  unwritten

theorem V1_v6 (c : Dev nD) : V1 m ρ c main_v6 = nbOf (m ((c : Thread nD τ).loc main_arg0)) (m ((c : Thread nD τ).loc main_arg2)) := by
  dsimp only [V1, W1, hostOps0]
  after_results
  rfl

theorem V1_arg3 (c : Dev nD) : V1 m ρ c main_arg3 = m ((c : Thread nD τ).loc main_arg3) := by
  show W1 m ρ c (Proc.devRef .tc main_arg3) = W0 m ρ c (Proc.devRef .tc main_arg3)
  unwritten

theorem V1_v9 (c : Dev nD) : Spec.wOf (V1 m ρ c main_v9) = m ((c : Thread nD τ).loc main_arg4) := by
  have e : (V1 m ρ c main_v9 : S10x16.Idx → EReal)
      = transpose S10x16 [1, 0] (m ((c : Thread nD τ).loc main_arg4)) transposes_S16x10_S10x16_1_0 := by
    dsimp only [V1, W1, hostOps0]; after_results
  funext i
  obtain ⟨d, c', rfl⟩ : ∃ d c', i = ix2 d c' := ⟨i 0, i 1, eq_ix2 i⟩
  show (V1 m ρ c main_v9 : S10x16.Idx → EReal) (ix2 c' d) = _
  rw [e]
  exact transpose_ix2_apply _ _ c' d

theorem V1_v10 (c : Dev nD) : Spec.rowOf (V1 m ρ c main_v10) = m ((c : Thread nD τ).loc main_arg5) := by
  have e : (V1 m ρ c main_v10 : S1x16.Idx → EReal)
      = shapeCast S1x16 (m ((c : Thread nD τ).loc main_arg5)) shapeCasts_S16_S1x16 := by
    dsimp only [V1, W1, hostOps0]; after_results; rfl
  funext i
  obtain ⟨d, rfl⟩ : ∃ d, i = ix1 d := ⟨i 0, eq_ix1 i⟩
  show (V1 m ρ c main_v10 : S1x16.Idx → EReal) (ix2 (0 : Fin 1) d) = _
  rw [e]
  exact shapeCast_a_1a_apply _ _ (0 : Fin 1) d

/-! ## What the second region is entered with -/

theorem V3_arg0 (c : Dev nD) : V3 m ρ c main_arg0 = m ((c : Thread nD τ).loc main_arg0) :=
  calc V3 m ρ c main_arg0
    _ = W2 m ρ c (Proc.devRef .tc main_arg0) := by
        show W3 m ρ c (Proc.devRef .tc main_arg0) = _
        unwritten
    _ = W1 m ρ c (Proc.devRef .tc main_arg0) :=
        (W2_arr m ρ c 0).trans (((dat0 (V1 m ρ) c).arrAt_in 0 rfl _).trans (A_eq0 (V1 m ρ) c 0))
    _ = _ := V1_arg0 m ρ c

theorem V3_v6 (c : Dev nD) : V3 m ρ c main_v6 = nbOf (m ((c : Thread nD τ).loc main_arg0)) (m ((c : Thread nD τ).loc main_arg2)) :=
  calc V3 m ρ c main_v6
    _ = W2 m ρ c (Proc.devRef .tc main_v6) := by
        show W3 m ρ c (Proc.devRef .tc main_v6) = _
        unwritten
    _ = W1 m ρ c (Proc.devRef .tc main_v6) :=
        (W2_arr m ρ c 1).trans (((dat0 (V1 m ρ) c).arrAt_in 1 rfl _).trans (A_eq0 (V1 m ρ) c 1))
    _ = _ := V1_v6 m ρ c

theorem V3_arg3 (c : Dev nD) : V3 m ρ c main_arg3 = m ((c : Thread nD τ).loc main_arg3) :=
  calc V3 m ρ c main_arg3
    _ = W2 m ρ c (Proc.devRef .tc main_arg3) := by
        show W3 m ρ c (Proc.devRef .tc main_arg3) = _
        unwritten
    _ = W1 m ρ c (Proc.devRef .tc main_arg3) :=
        (W2_arr m ρ c 2).trans (((dat0 (V1 m ρ) c).arrAt_in 2 rfl _).trans (A_eq0 (V1 m ρ) c 2))
    _ = _ := V1_arg3 m ρ c

/-- The features as (batch, point, feature). -/
theorem V3_v8 (c : Dev nD) (b : Fin 4) (n : Fin 16384) (f : Fin 16) :
    (V3 m ρ c main_v8 : Vec Ideal S4x16384x16 .f32) (ix3 b n f) = (m ((c : Thread nD τ).loc main_arg1) : Vec Ideal S4x16x16384x1 .f32) (ix4 b f n (0 : Fin 1)) := by
  have e : (V3 m ρ c main_v8 : S4x16384x16.Idx → EReal)
      = transpose S4x16384x16 [0, 2, 1]
          (shapeCast S4x16x16384 (m ((c : Thread nD τ).loc main_arg1) : Vec Ideal S4x16x16384x1 .f32)
            shapeCasts_S4x16x16384x1_S4x16x16384)
          transposes_S4x16x16384_S4x16384x16_0_2_1 :=
    calc (V3 m ρ c main_v8 : S4x16384x16.Idx → EReal)
      _ = W2 m ρ c (Proc.devRef .tc main_v8) := by
          show W3 m ρ c (Proc.devRef .tc main_v8) = _
          unwritten
      _ = W1 m ρ c (Proc.devRef .tc main_v8) := W2_of_ne m ρ c main_v8 (by decide)
      _ = _ := by dsimp only [W1, hostOps0]; after_results; rfl
  rw [e]
  exact feat_apply _ b n f

theorem V3_v9 (c : Dev nD) : Spec.wOf (V3 m ρ c main_v9) = m ((c : Thread nD τ).loc main_arg4) := by
  have e : V3 m ρ c main_v9 = V1 m ρ c main_v9 :=
    calc V3 m ρ c main_v9
      _ = W2 m ρ c (Proc.devRef .tc main_v9) := by
          show W3 m ρ c (Proc.devRef .tc main_v9) = _
          unwritten
      _ = W1 m ρ c (Proc.devRef .tc main_v9) :=
          (W2_arr m ρ c 3).trans (((dat0 (V1 m ρ) c).arrAt_in 3 rfl _).trans (A_eq0 (V1 m ρ) c 3))
  rw [e]
  exact V1_v9 m ρ c

theorem V3_v10 (c : Dev nD) : Spec.rowOf (V3 m ρ c main_v10) = m ((c : Thread nD τ).loc main_arg5) := by
  have e : V3 m ρ c main_v10 = V1 m ρ c main_v10 :=
    calc V3 m ρ c main_v10
      _ = W2 m ρ c (Proc.devRef .tc main_v10) := by
          show W3 m ρ c (Proc.devRef .tc main_v10) = _
          unwritten
      _ = W1 m ρ c (Proc.devRef .tc main_v10) :=
          (W2_arr m ρ c 4).trans (((dat0 (V1 m ρ) c).arrAt_in 4 rfl _).trans (A_eq0 (V1 m ρ) c 4))
  rw [e]
  exact V1_v10 m ρ c

theorem V3_v11 (c : Dev nD) : Spec.rowOf (V3 m ρ c main_v11) = m ((c : Thread nD τ).loc main_arg6) := by
  have e : (V3 m ρ c main_v11 : S1x16.Idx → EReal)
      = shapeCast S1x16 (m ((c : Thread nD τ).loc main_arg6)) shapeCasts_S16_S1x16 :=
    calc (V3 m ρ c main_v11 : S1x16.Idx → EReal)
      _ = W2 m ρ c (Proc.devRef .tc main_v11) := by
          show W3 m ρ c (Proc.devRef .tc main_v11) = _
          unwritten
      _ = W1 m ρ c (Proc.devRef .tc main_v11) := W2_of_ne m ρ c main_v11 (by decide)
      _ = _ := by dsimp only [W1, hostOps0]; after_results; rfl
  funext i
  obtain ⟨d, rfl⟩ : ∃ d, i = ix1 d := ⟨i 0, eq_ix1 i⟩
  show (V3 m ρ c main_v11 : S1x16.Idx → EReal) (ix2 (0 : Fin 1) d) = _
  rw [e]
  exact shapeCast_a_1a_apply _ _ (0 : Fin 1) d

theorem V3_v12 (c : Dev nD) : Spec.rowOf (V3 m ρ c main_v12) = m ((c : Thread nD τ).loc main_arg7) := by
  have e : (V3 m ρ c main_v12 : S1x16.Idx → EReal)
      = shapeCast S1x16 (m ((c : Thread nD τ).loc main_arg7)) shapeCasts_S16_S1x16 :=
    calc (V3 m ρ c main_v12 : S1x16.Idx → EReal)
      _ = W2 m ρ c (Proc.devRef .tc main_v12) := by
          show W3 m ρ c (Proc.devRef .tc main_v12) = _
          unwritten
      _ = W1 m ρ c (Proc.devRef .tc main_v12) := W2_of_ne m ρ c main_v12 (by decide)
      _ = _ := by dsimp only [W1, hostOps0]; after_results; rfl
  funext i
  obtain ⟨d, rfl⟩ : ∃ d, i = ix1 d := ⟨i 0, eq_ix1 i⟩
  show (V3 m ρ c main_v12 : S1x16.Idx → EReal) (ix2 (0 : Fin 1) d) = _
  rw [e]
  exact shapeCast_a_1a_apply _ _ (0 : Fin 1) d

/-- The mean: the first region's first output divided by the count. -/
theorem V3_v15 (c : Dev nD) (d : Fin 16) :
    Spec.chOf (V3 m ρ c main_v15) d = Ideal.div ((V2 m ρ c main_v13_0 : Vec Ideal S1x16 .f32) (ix2 (0 : Fin 1) d)) Spec.cnt := by
  have e : (V3 m ρ c main_v15 : S1x16.Idx → EReal)
      = Host.divf (V2 m ρ c main_v13_0 : Vec Ideal S1x16 .f32)
          (broadcastInDim S1x16 ![] bcast_S_S1x16 (constant (F := Ideal) S_ .f32 0x49800000#32)) := by
    dsimp only [V3, W3, hostOps1]; after_results
  show (V3 m ρ c main_v15 : S1x16.Idx → EReal) (ix2 (0 : Fin 1) d) = _
  rw [e, hostDivf_apply, broadcastInDim_scalar_apply, constant_apply]
  rfl

/-- The variance: the first region's second output divided by the count, minus the square of the mean. -/
theorem V3_v19 (c : Dev nD) (d : Fin 16) :
    Spec.chOf (V3 m ρ c main_v19) d =
      Ideal.div ((V2 m ρ c main_v13_1 : Vec Ideal S1x16 .f32) (ix2 (0 : Fin 1) d)) Spec.cnt
        - Spec.chOf (V3 m ρ c main_v15) d * Spec.chOf (V3 m ρ c main_v15) d := by
  have e : (V3 m ρ c main_v19 : S1x16.Idx → EReal)
      = subf (Host.divf (V2 m ρ c main_v13_1 : Vec Ideal S1x16 .f32)
            (broadcastInDim S1x16 ![] bcast_S_S1x16 (constant (F := Ideal) S_ .f32 0x49800000#32)))
          (mulf (V3 m ρ c main_v15 : Vec Ideal S1x16 .f32) (V3 m ρ c main_v15 : Vec Ideal S1x16 .f32)) := by
    dsimp only [V3, W3, hostOps1]; after_results
  show (V3 m ρ c main_v19 : S1x16.Idx → EReal) (ix2 (0 : Fin 1) d) = _
  rw [e, subf_apply, mulf_apply, hostDivf_apply, broadcastInDim_scalar_apply, constant_apply]
  rfl

/-! ## The result after the last host operations -/

/-- Entry `(b, ch, n, k)` of the result is entry `(b, n, 32 * k + ch)` of the second region's output. -/
theorem W5_v22 (c : Dev nD) (b : Fin 4) (ch : Fin 32) (n : Fin 16384) (k : Fin 16) :
    (W5 m ρ c (Proc.devRef .tc main_v22) : Vec Ideal S4x32x16384x16 .f32) (ix4 b ch n k)
      = (V4 m ρ c main_v20 : Vec Ideal S4x16384x512 .f32) (ix3 b n ⟨32 * k.val + ch.val, by omega⟩) := by
  have e : (W5 m ρ c (Proc.devRef .tc main_v22) : S4x32x16384x16.Idx → EReal)
      = transpose S4x32x16384x16 [0, 3, 1, 2]
          (shapeCast S4x16384x16x32 (V4 m ρ c main_v20 : Vec Ideal S4x16384x512 .f32)
            shapeCasts_S4x16384x512_S4x16384x16x32)
          transposes_S4x16384x16x32_S4x32x16384x16_0_3_1_2 := by
    dsimp only [W5, hostOps2]; after_results; rfl
  rw [e]
  exact unfold_apply _ b ch n k

end Cert.KernelIdeal.HostOps

end
-- ==== Proof.KernelValue.lean ====
/-
  The kernel program's result is the specification at the variance taken as the mean of the squares minus the
  square of the mean: the first region's two sums, divided by the count on the host, are the mean and that
  variance; the second region normalises by them; the last host operations unfold its output.
-/
import proofs.«125758_j12592844112371_1_alg».proof.Proof.Region0
import proofs.«125758_j12592844112371_1_alg».proof.Proof.Region1
import proofs.«125758_j12592844112371_1_alg».proof.Proof.HostOps

set_option maxRecDepth 16384

noncomputable section

open scoped BigOperators

namespace Cert.KernelIdeal.KernelValue

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-- The mean the second region is handed is the specification's mean: the first region's sum over the count. -/
theorem mean_eq (c : Dev nD) :
    Spec.chOf (V3 m ρ c main_v15) = Spec.mean (m ((c : Thread nD τ).loc main_arg0))
      (HostOps.nbOf (m ((c : Thread nD τ).loc main_arg0)) (m ((c : Thread nD τ).loc main_arg2)))
      (m ((c : Thread nD τ).loc main_arg3)) (m ((c : Thread nD τ).loc main_arg4)) (m ((c : Thread nD τ).loc main_arg5)) := by
  funext d
  rw [HostOps.V3_v15 m ρ c d]
  have hs : (V2 m ρ c main_v13_0 : Vec Ideal S1x16 .f32) = _ := (W2_arr m ρ c 5).trans (Region0.sum_final (V1 m ρ) c)
  rw [hs, HostOps.V1_arg0, HostOps.V1_v6, HostOps.V1_arg3, HostOps.V1_v9, HostOps.V1_v10]
  rfl

/-- The variance the second region is handed is the mean of the squares minus the square of the mean. -/
theorem var_eq (c : Dev nD) :
    Spec.chOf (V3 m ρ c main_v19) = Spec.varM (m ((c : Thread nD τ).loc main_arg0))
      (HostOps.nbOf (m ((c : Thread nD τ).loc main_arg0)) (m ((c : Thread nD τ).loc main_arg2)))
      (m ((c : Thread nD τ).loc main_arg3)) (m ((c : Thread nD τ).loc main_arg4)) (m ((c : Thread nD τ).loc main_arg5)) := by
  funext d
  rw [HostOps.V3_v19 m ρ c d, mean_eq m ρ c]
  have hs : (V2 m ρ c main_v13_1 : Vec Ideal S1x16 .f32) = _ := (W2_arr m ρ c 6).trans (Region0.sumsq_final (V1 m ρ) c)
  rw [hs, HostOps.V1_arg0, HostOps.V1_v6, HostOps.V1_arg3, HostOps.V1_v9, HostOps.V1_v10]
  rfl

/-- The result buffer after the last host operation, as a function of the argument arrays. -/
theorem result_eq (c : Dev nD) :
    (W5 m ρ c (Proc.devRef .tc main_v22) : Vec Ideal S4x32x16384x16 .f32)
      = Spec.out (m ((c : Thread nD τ).loc main_arg0))
          (HostOps.nbOf (m ((c : Thread nD τ).loc main_arg0)) (m ((c : Thread nD τ).loc main_arg2)))
          (m ((c : Thread nD τ).loc main_arg3)) (m ((c : Thread nD τ).loc main_arg4)) (m ((c : Thread nD τ).loc main_arg5))
          (m ((c : Thread nD τ).loc main_arg6)) (m ((c : Thread nD τ).loc main_arg7))
          (Spec.varM (m ((c : Thread nD τ).loc main_arg0))
            (HostOps.nbOf (m ((c : Thread nD τ).loc main_arg0)) (m ((c : Thread nD τ).loc main_arg2)))
            (m ((c : Thread nD τ).loc main_arg3)) (m ((c : Thread nD τ).loc main_arg4)) (m ((c : Thread nD τ).loc main_arg5)))
          (m ((c : Thread nD τ).loc main_arg1)) := by
  funext j
  obtain ⟨b, ch, n, k, rfl⟩ : ∃ (b : Fin 4) (ch : Fin 32) (n : Fin 16384) (k : Fin 16), j = ix4 b ch n k :=
    ⟨j 0, j 1, j 2, j 3, eq_ix4 j⟩
  rw [HostOps.W5_v22 m ρ c b ch n k]
  have hf : (V4 m ρ c main_v20 : Vec Ideal S4x16384x512 .f32) = _ := (W4_arr m ρ c 10).trans (Region1.out_final (V3 m ρ) c)
  rw [hf, HostOps.V3_arg0, HostOps.V3_v6, HostOps.V3_arg3, HostOps.V3_v9, HostOps.V3_v10, HostOps.V3_v11, HostOps.V3_v12,
    mean_eq m ρ c, var_eq m ρ c]
  have hch : ch.val < 32 := ch.isLt
  have hk : k.val < 16 := k.isLt
  have e1 : (32 * k.val + ch.val) % 32 = ch.val := by omega
  have e2 : (32 * k.val + ch.val) / 32 = k.val := by omega
  unfold Spec.folded Spec.out Spec.act
  by_cases h : ch.val < 16
  · have h' : (32 * k.val + ch.val) % 32 < 16 := by omega
    rw [dif_pos h', dif_pos h]
    congr 1
    · exact Fin.ext e1
    · exact Fin.ext e2
  · have h' : ¬ (32 * k.val + ch.val) % 32 < 16 := by omega
    rw [dif_neg h', dif_neg h]
    have e3 : (⟨(32 * k.val + ch.val) % 32 - 16, by omega⟩ : Fin 16) = ⟨ch.val - 16, by omega⟩ := Fin.ext (by simp only [e1])
    rw [show (ix3 b n ⟨32 * k.val + ch.val, by omega⟩ : S4x16384x512.Idx) 0 = b from rfl]
    exact (congrArg (fun f => (V3 m ρ c main_v8 : Vec Ideal S4x16384x16 .f32) (ix3 b n f)) e3).trans
      (HostOps.V3_v8 m ρ c b n ⟨ch.val - 16, by omega⟩)

end Cert.KernelIdeal.KernelValue

end
-- ==== Proof.RefRun.lean ====
/-
  The reference program's run: every weakly fair execution of its 53 host operations terminates with the result
  buffer at the last operation's value as a function of the eight argument arrays, the arguments unchanged. The
  operations are taken in three stretches (up to the convolution's output; the mean and the variance; the rest),
  each read for an arbitrary valuation of the buffers it takes over from the stretch before.
-/
import proofs.«125758_j12592844112371_1_alg».proof.Proof.Gen.ReferenceIdeal
import proofs.«125758_j12592844112371_1_alg».proof.Proof.RefRead
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! The operations, in three stretches. -/

/-- Operations 1 to 19: up to the convolution's output with its bias. -/
abbrev opsA : List (HloOp τ sig (Elt F)) :=
  [ nullary main_c (constantI S_ 32 0#32),
    unary main_c main_v0 (broadcastInDim S4x16384x16 ![] bcast_S_S4x16384x16 : (⟨S_, .i32⟩ : BufTy).Contents (Elt F) → (⟨S4x16384x16, .i32⟩ : BufTy).Contents (Elt F)),
    binary main_arg2 main_v0 main_v1 (cmpi .slt : (⟨S4x16384x16, .i32⟩ : BufTy).Contents (Elt F) → (⟨S4x16384x16, .i32⟩ : BufTy).Contents (Elt F) → (⟨S4x16384x16, .i1⟩ : BufTy).Contents (Elt F)),
    nullary main_c_0 (constantI S_ 32 16384#32),
    unary main_c_0 main_v2 (broadcastInDim S4x16384x16 ![] bcast_S_S4x16384x16 : (⟨S_, .i32⟩ : BufTy).Contents (Elt F) → (⟨S4x16384x16, .i32⟩ : BufTy).Contents (Elt F)),
    binary main_arg2 main_v2 main_v3 (addi : (⟨S4x16384x16, .i32⟩ : BufTy).Contents (Elt F) → (⟨S4x16384x16, .i32⟩ : BufTy).Contents (Elt F) → (⟨S4x16384x16, .i32⟩ : BufTy).Contents (Elt F)),
    ternary main_v1 main_v3 main_arg2 main_v4 (select : (⟨S4x16384x16, .i1⟩ : BufTy).Contents (Elt F) → (⟨S4x16384x16, .i32⟩ : BufTy).Contents (Elt F) → (⟨S4x16384x16, .i32⟩ : BufTy).Contents (Elt F) → (⟨S4x16384x16, .i32⟩ : BufTy).Contents (Elt F)),
    unary main_v4 main_v5 (broadcastInDim S4x16384x16x1 ![0, 1, 2] bcast_S4x16384x16_S4x16384x16x1_0_1_2 : (⟨S4x16384x16, .i32⟩ : BufTy).Contents (Elt F) → (⟨S4x16384x16x1, .i32⟩ : BufTy).Contents (Elt F)),
    binary main_arg0 main_v5 main_v6 ((fun x i => Host.gather gather_S4x16384x3_S4x16384x16x1_S4x16384x16x3_3_1_0_0_1_3_113 x i) : (⟨S4x16384x3, .f32⟩ : BufTy).Contents (Elt F) → (⟨S4x16384x16x1, .i32⟩ : BufTy).Contents (Elt F) → (⟨S4x16384x16x3, .f32⟩ : BufTy).Contents (Elt F)),
    unary main_arg0 main_v7 (broadcastInDim S4x16384x1x3 ![0, 1, 3] bcast_S4x16384x3_S4x16384x1x3_0_1_3 : (⟨S4x16384x3, .f32⟩ : BufTy).Contents (Elt F) → (⟨S4x16384x1x3, .f32⟩ : BufTy).Contents (Elt F)),
    unary main_v7 main_v8 (broadcastInDim S4x16384x16x3 ![0, 1, 2, 3] bcast_S4x16384x1x3_S4x16384x16x3_0_1_2_3 : (⟨S4x16384x1x3, .f32⟩ : BufTy).Contents (Elt F) → (⟨S4x16384x16x3, .f32⟩ : BufTy).Contents (Elt F)),
    binary main_v8 main_v6 main_v9 (subf : (⟨S4x16384x16x3, .f32⟩ : BufTy).Contents (Elt F) → (⟨S4x16384x16x3, .f32⟩ : BufTy).Contents (Elt F) → (⟨S4x16384x16x3, .f32⟩ : BufTy).Contents (Elt F)),
    unary main_arg3 main_v10 (broadcastInDim S4x16384x16x1 ![0, 1, 2] bcast_S4x16384x16_S4x16384x16x1_0_1_2 : (⟨S4x16384x16, .f32⟩ : BufTy).Contents (Elt F) → (⟨S4x16384x16x1, .f32⟩ : BufTy).Contents (Elt F)),
    nary ![main_v8, main_v6, main_v9, main_v10] main_v11 (fun u => concatenate S4x16384x16x10 3 [⟨S4x16384x16x3, u 0⟩, ⟨S4x16384x16x3, u 1⟩, ⟨S4x16384x16x3, u 2⟩, ⟨S4x16384x16x1, u 3⟩] concatenates_S4x16384x16x3_S4x16384x16x3_S4x16384x16x3_S4x16384x16x1_S4x16384x16x10_d3),
    binary main_arg4 main_v11 main_v12 ((fun l r => Host.dotGeneral dot_S16x10_S4x16384x16x10_S16x4x16384x16_1_3_0_012_n_n none l r) : (⟨S16x10, .f32⟩ : BufTy).Contents (Elt F) → (⟨S4x16384x16x10, .f32⟩ : BufTy).Contents (Elt F) → (⟨S16x4x16384x16, .f32⟩ : BufTy).Contents (Elt F)),
    unary main_v12 main_v13 ((transpose S4x16x16384x16 [1, 0, 2, 3] · transposes_S16x4x16384x16_S4x16x16384x16_1_0_2_3) : (⟨S16x4x16384x16, .f32⟩ : BufTy).Contents (Elt F) → (⟨S4x16x16384x16, .f32⟩ : BufTy).Contents (Elt F)),
    unary main_arg5 main_v14 (broadcastInDim S1x16x1x1 ![1] bcast_S16_S1x16x1x1_1 : (⟨S16, .f32⟩ : BufTy).Contents (Elt F) → (⟨S1x16x1x1, .f32⟩ : BufTy).Contents (Elt F)),
    unary main_v14 main_v15 (broadcastInDim S4x16x16384x16 ![0, 1, 2, 3] bcast_S1x16x1x1_S4x16x16384x16_0_1_2_3 : (⟨S1x16x1x1, .f32⟩ : BufTy).Contents (Elt F) → (⟨S4x16x16384x16, .f32⟩ : BufTy).Contents (Elt F)),
    binary main_v13 main_v15 main_v16 (addf : (⟨S4x16x16384x16, .f32⟩ : BufTy).Contents (Elt F) → (⟨S4x16x16384x16, .f32⟩ : BufTy).Contents (Elt F) → (⟨S4x16x16384x16, .f32⟩ : BufTy).Contents (Elt F)) ]

/-- Operations 20 to 34: the two sums over all positions, the mean and the variance. -/
abbrev opsB : List (HloOp τ sig (Elt F)) :=
  [ nullary main_cst (constant S_ .f32 0x00000000#32),
    binary main_v16 main_cst main_v17 ((fun x v => Host.reduceAdd x v reducesTo_S4x16x16384x16_S16_d0_2_3 h_S_) : (⟨S4x16x16384x16, .f32⟩ : BufTy).Contents (Elt F) → (⟨S_, .f32⟩ : BufTy).Contents (Elt F) → (⟨S16, .f32⟩ : BufTy).Contents (Elt F)),
    unary main_v17 main_v18 (broadcastInDim S1x16x1x1 ![1] bcast_S16_S1x16x1x1_1 : (⟨S16, .f32⟩ : BufTy).Contents (Elt F) → (⟨S1x16x1x1, .f32⟩ : BufTy).Contents (Elt F)),
    nullary main_cst_1 (constant S_ .f32 0x49800000#32),
    unary main_cst_1 main_v19 (broadcastInDim S1x16x1x1 ![] bcast_S_S1x16x1x1 : (⟨S_, .f32⟩ : BufTy).Contents (Elt F) → (⟨S1x16x1x1, .f32⟩ : BufTy).Contents (Elt F)),
    binary main_v18 main_v19 main_v20 (Host.divf : (⟨S1x16x1x1, .f32⟩ : BufTy).Contents (Elt F) → (⟨S1x16x1x1, .f32⟩ : BufTy).Contents (Elt F) → (⟨S1x16x1x1, .f32⟩ : BufTy).Contents (Elt F)),
    unary main_v20 main_v21 (broadcastInDim S4x16x16384x16 ![0, 1, 2, 3] bcast_S1x16x1x1_S4x16x16384x16_0_1_2_3 : (⟨S1x16x1x1, .f32⟩ : BufTy).Contents (Elt F) → (⟨S4x16x16384x16, .f32⟩ : BufTy).Contents (Elt F)),
    binary main_v16 main_v21 main_v22 (subf : (⟨S4x16x16384x16, .f32⟩ : BufTy).Contents (Elt F) → (⟨S4x16x16384x16, .f32⟩ : BufTy).Contents (Elt F) → (⟨S4x16x16384x16, .f32⟩ : BufTy).Contents (Elt F)),
    binary main_v22 main_v22 main_v23 (mulf : (⟨S4x16x16384x16, .f32⟩ : BufTy).Contents (Elt F) → (⟨S4x16x16384x16, .f32⟩ : BufTy).Contents (Elt F) → (⟨S4x16x16384x16, .f32⟩ : BufTy).Contents (Elt F)),
    nullary main_cst_2 (constant S_ .f32 0x00000000#32),
    binary main_v23 main_cst_2 main_v24 ((fun x v => Host.reduceAdd x v reducesTo_S4x16x16384x16_S16_d0_2_3 h_S_) : (⟨S4x16x16384x16, .f32⟩ : BufTy).Contents (Elt F) → (⟨S_, .f32⟩ : BufTy).Contents (Elt F) → (⟨S16, .f32⟩ : BufTy).Contents (Elt F)),
    unary main_v24 main_v25 (broadcastInDim S1x16x1x1 ![1] bcast_S16_S1x16x1x1_1 : (⟨S16, .f32⟩ : BufTy).Contents (Elt F) → (⟨S1x16x1x1, .f32⟩ : BufTy).Contents (Elt F)),
    nullary main_cst_3 (constant S_ .f32 0x49800000#32),
    unary main_cst_3 main_v26 (broadcastInDim S1x16x1x1 ![] bcast_S_S1x16x1x1 : (⟨S_, .f32⟩ : BufTy).Contents (Elt F) → (⟨S1x16x1x1, .f32⟩ : BufTy).Contents (Elt F)),
    binary main_v25 main_v26 main_v27 (Host.divf : (⟨S1x16x1x1, .f32⟩ : BufTy).Contents (Elt F) → (⟨S1x16x1x1, .f32⟩ : BufTy).Contents (Elt F) → (⟨S1x16x1x1, .f32⟩ : BufTy).Contents (Elt F)) ]

/-- Operations 35 to 53: the normalisation, the scale and shift, the clip at zero and the final concatenation. -/
abbrev opsC : List (HloOp τ sig (Elt F)) :=
  [ unary main_v20 main_v28 (broadcastInDim S4x16x16384x16 ![0, 1, 2, 3] bcast_S1x16x1x1_S4x16x16384x16_0_1_2_3 : (⟨S1x16x1x1, .f32⟩ : BufTy).Contents (Elt F) → (⟨S4x16x16384x16, .f32⟩ : BufTy).Contents (Elt F)),
    binary main_v16 main_v28 main_v29 (subf : (⟨S4x16x16384x16, .f32⟩ : BufTy).Contents (Elt F) → (⟨S4x16x16384x16, .f32⟩ : BufTy).Contents (Elt F) → (⟨S4x16x16384x16, .f32⟩ : BufTy).Contents (Elt F)),
    nullary main_cst_4 (constant S_ .f32 0x358637BD#32),
    unary main_cst_4 main_v30 (broadcastInDim S1x16x1x1 ![] bcast_S_S1x16x1x1 : (⟨S_, .f32⟩ : BufTy).Contents (Elt F) → (⟨S1x16x1x1, .f32⟩ : BufTy).Contents (Elt F)),
    binary main_v27 main_v30 main_v31 (addf : (⟨S1x16x1x1, .f32⟩ : BufTy).Contents (Elt F) → (⟨S1x16x1x1, .f32⟩ : BufTy).Contents (Elt F) → (⟨S1x16x1x1, .f32⟩ : BufTy).Contents (Elt F)),
    unary main_v31 main_v32 (Host.rsqrt : (⟨S1x16x1x1, .f32⟩ : BufTy).Contents (Elt F) → (⟨S1x16x1x1, .f32⟩ : BufTy).Contents (Elt F)),
    unary main_v32 main_v33 (broadcastInDim S4x16x16384x16 ![0, 1, 2, 3] bcast_S1x16x1x1_S4x16x16384x16_0_1_2_3 : (⟨S1x16x1x1, .f32⟩ : BufTy).Contents (Elt F) → (⟨S4x16x16384x16, .f32⟩ : BufTy).Contents (Elt F)),
    binary main_v29 main_v33 main_v34 (mulf : (⟨S4x16x16384x16, .f32⟩ : BufTy).Contents (Elt F) → (⟨S4x16x16384x16, .f32⟩ : BufTy).Contents (Elt F) → (⟨S4x16x16384x16, .f32⟩ : BufTy).Contents (Elt F)),
    unary main_arg6 main_v35 (broadcastInDim S1x16x1x1 ![1] bcast_S16_S1x16x1x1_1 : (⟨S16, .f32⟩ : BufTy).Contents (Elt F) → (⟨S1x16x1x1, .f32⟩ : BufTy).Contents (Elt F)),
    unary main_v35 main_v36 (broadcastInDim S4x16x16384x16 ![0, 1, 2, 3] bcast_S1x16x1x1_S4x16x16384x16_0_1_2_3 : (⟨S1x16x1x1, .f32⟩ : BufTy).Contents (Elt F) → (⟨S4x16x16384x16, .f32⟩ : BufTy).Contents (Elt F)),
    binary main_v34 main_v36 main_v37 (mulf : (⟨S4x16x16384x16, .f32⟩ : BufTy).Contents (Elt F) → (⟨S4x16x16384x16, .f32⟩ : BufTy).Contents (Elt F) → (⟨S4x16x16384x16, .f32⟩ : BufTy).Contents (Elt F)),
    unary main_arg7 main_v38 (broadcastInDim S1x16x1x1 ![1] bcast_S16_S1x16x1x1_1 : (⟨S16, .f32⟩ : BufTy).Contents (Elt F) → (⟨S1x16x1x1, .f32⟩ : BufTy).Contents (Elt F)),
    unary main_v38 main_v39 (broadcastInDim S4x16x16384x16 ![0, 1, 2, 3] bcast_S1x16x1x1_S4x16x16384x16_0_1_2_3 : (⟨S1x16x1x1, .f32⟩ : BufTy).Contents (Elt F) → (⟨S4x16x16384x16, .f32⟩ : BufTy).Contents (Elt F)),
    binary main_v37 main_v39 main_v40 (addf : (⟨S4x16x16384x16, .f32⟩ : BufTy).Contents (Elt F) → (⟨S4x16x16384x16, .f32⟩ : BufTy).Contents (Elt F) → (⟨S4x16x16384x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4x16x16384x16, .f32⟩) main_call0_v0) (broadcastInDim S4x16x16384x16 ![] bcast_S_S4x16x16384x16),
    TRef.binary (TRef.of (T := ⟨S4x16x16384x16, .f32⟩) main_v40) (TRef.of (T := ⟨S4x16x16384x16, .f32⟩) main_call0_v0) (TRef.of (T := ⟨S4x16x16384x16, .f32⟩) main_v41) maximumf,
    unary main_arg1 main_v42 (broadcastInDim S4x16x16384x16 ![0, 1, 2, 3] bcast_S4x16x16384x1_S4x16x16384x16_0_1_2_3 : (⟨S4x16x16384x1, .f32⟩ : BufTy).Contents (Elt F) → (⟨S4x16x16384x16, .f32⟩ : BufTy).Contents (Elt F)),
    binary main_v41 main_v42 main_v43 ((fun a b => concatenate S4x32x16384x16 1 [⟨S4x16x16384x16, a⟩, ⟨S4x16x16384x16, b⟩] concatenates_S4x16x16384x16_S4x16x16384x16_S4x32x16384x16_d1) : (⟨S4x16x16384x16, .f32⟩ : BufTy).Contents (Elt F) → (⟨S4x16x16384x16, .f32⟩ : BufTy).Contents (Elt F) → (⟨S4x32x16384x16, .f32⟩ : BufTy).Contents (Elt F)) ]

set_option maxRecDepth 8192 in
theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., nary_bufs_sub .., binary_bufs_sub .., unary_bufs_sub .., unary_bufs_sub .., unary_bufs_sub .., binary_bufs_sub ..⟩

set_option maxRecDepth 8192 in
theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub ..⟩

set_option maxRecDepth 8192 in
theorem opsC_sub : (opsC : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub ..⟩

/-! What a stretch computes, as a function of the buffers it takes over. -/

/-- The per-channel mean of a `[4, 16, 16384, 16]` array, as operations 20 to 25 compute it. -/
def meanOf (y : (⟨S4x16x16384x16, .f32⟩ : BufTy).Contents (Elt F)) : (⟨S1x16x1x1, .f32⟩ : BufTy).Contents (Elt F) :=
  Host.divf (broadcastInDim S1x16x1x1 ![1] bcast_S16_S1x16x1x1_1
      (Host.reduceAdd y (ReadP.val_main_cst (F := F)) reducesTo_S4x16x16384x16_S16_d0_2_3 h_S_))
    (ReadP.val_main_v19 (F := F))

/-- The deviations of an array from a per-channel value. -/
def devOf (y : (⟨S4x16x16384x16, .f32⟩ : BufTy).Contents (Elt F)) (mu : (⟨S1x16x1x1, .f32⟩ : BufTy).Contents (Elt F)) : (⟨S4x16x16384x16, .f32⟩ : BufTy).Contents (Elt F) :=
  subf y (broadcastInDim S4x16x16384x16 ![0, 1, 2, 3] bcast_S1x16x1x1_S4x16x16384x16_0_1_2_3 mu)

/-- The per-channel mean of the squared deviations from `mu`, as operations 26 to 34 compute it. -/
def varOf (y : (⟨S4x16x16384x16, .f32⟩ : BufTy).Contents (Elt F)) (mu : (⟨S1x16x1x1, .f32⟩ : BufTy).Contents (Elt F)) : (⟨S1x16x1x1, .f32⟩ : BufTy).Contents (Elt F) :=
  Host.divf (broadcastInDim S1x16x1x1 ![1] bcast_S16_S1x16x1x1_1
      (Host.reduceAdd (mulf (devOf y mu) (devOf y mu)) (ReadP.val_main_cst_2 (F := F)) reducesTo_S4x16x16384x16_S16_d0_2_3 h_S_))
    (ReadP.val_main_v26 (F := F))

/-- The last stretch's result from the convolution's output `y`, the mean `mu`, the variance `var`, the scale
    `x6`, the shift `x7` and the features `x1`. -/
def tailOf (y : (⟨S4x16x16384x16, .f32⟩ : BufTy).Contents (Elt F)) (mu var : (⟨S1x16x1x1, .f32⟩ : BufTy).Contents (Elt F)) (x6 x7 : (⟨S16, .f32⟩ : BufTy).Contents (Elt F)) (x1 : (⟨S4x16x16384x1, .f32⟩ : BufTy).Contents (Elt F)) :
    (⟨S4x32x16384x16, .f32⟩ : BufTy).Contents (Elt F) :=
  concatenate S4x32x16384x16 1
    [⟨S4x16x16384x16, maximumf
        (addf (mulf (mulf (devOf y mu)
              (broadcastInDim S4x16x16384x16 ![0, 1, 2, 3] bcast_S1x16x1x1_S4x16x16384x16_0_1_2_3
                (Host.rsqrt (addf var (ReadP.val_main_v30 (F := F))))))
            (ReadP.val_main_v36 (F := F) x6)) (ReadP.val_main_v39 (F := F) x7))
        (ReadP.val_main_call0_v0 (F := F))⟩,
     ⟨S4x16x16384x16, ReadP.val_main_v42 (F := F) x1⟩]
    concatenates_S4x16x16384x16_S4x16x16384x16_S4x32x16384x16_d1

/-! The stage functions at the stages of the operations read one at a time. -/

theorem meanOf_val (x0 : (⟨S4x16384x3, .f32⟩ : BufTy).Contents (Elt F)) (x2 : (⟨S4x16384x16, .i32⟩ : BufTy).Contents (Elt F)) (x3 : (⟨S4x16384x16, .f32⟩ : BufTy).Contents (Elt F)) (x4 : (⟨S16x10, .f32⟩ : BufTy).Contents (Elt F)) (x5 : (⟨S16, .f32⟩ : BufTy).Contents (Elt F)) :
    meanOf (F := F) (ReadP.val_main_v16 (F := F) x0 x2 x3 x4 x5) = ReadP.val_main_v20 (F := F) x0 x2 x3 x4 x5 := rfl

theorem varOf_val (x0 : (⟨S4x16384x3, .f32⟩ : BufTy).Contents (Elt F)) (x2 : (⟨S4x16384x16, .i32⟩ : BufTy).Contents (Elt F)) (x3 : (⟨S4x16384x16, .f32⟩ : BufTy).Contents (Elt F)) (x4 : (⟨S16x10, .f32⟩ : BufTy).Contents (Elt F)) (x5 : (⟨S16, .f32⟩ : BufTy).Contents (Elt F)) :
    varOf (F := F) (ReadP.val_main_v16 (F := F) x0 x2 x3 x4 x5) (ReadP.val_main_v20 (F := F) x0 x2 x3 x4 x5)
      = ReadP.val_main_v27 (F := F) x0 x2 x3 x4 x5 := rfl

theorem tailOf_val (x0 : (⟨S4x16384x3, .f32⟩ : BufTy).Contents (Elt F)) (x2 : (⟨S4x16384x16, .i32⟩ : BufTy).Contents (Elt F)) (x3 : (⟨S4x16384x16, .f32⟩ : BufTy).Contents (Elt F)) (x4 : (⟨S16x10, .f32⟩ : BufTy).Contents (Elt F)) (x5 : (⟨S16, .f32⟩ : BufTy).Contents (Elt F)) (x6 x7 : (⟨S16, .f32⟩ : BufTy).Contents (Elt F)) (x1 : (⟨S4x16x16384x1, .f32⟩ : BufTy).Contents (Elt F)) :
    tailOf (F := F) (ReadP.val_main_v16 (F := F) x0 x2 x3 x4 x5) (ReadP.val_main_v20 (F := F) x0 x2 x3 x4 x5)
        (ReadP.val_main_v27 (F := F) x0 x2 x3 x4 x5) x6 x7 x1
      = ReadP.val_main_v43 (F := F) x0 x1 x2 x3 x4 x5 x6 x7 := rfl

/-! Each stretch from an arbitrary valuation. -/

set_option maxRecDepth 8192 in
set_option maxHeartbeats 1000000 in
/-- The first stretch leaves the convolution's output, with its bias, of the arguments it finds. -/
theorem stretchA (W : Valuation τ sig (Elt F)) :
    after opsA W (Proc.devRef .tc main_v16)
      = ReadP.val_main_v16 (F := F) (W (Proc.devRef .tc main_arg0)) (W (Proc.devRef .tc main_arg2)) (W (Proc.devRef .tc main_arg3))
          (W (Proc.devRef .tc main_arg4)) (W (Proc.devRef .tc main_arg5)) := by
  simp only [opsA]
  after_results
  rfl

set_option maxRecDepth 8192 in
set_option maxHeartbeats 1000000 in
/-- The second stretch leaves the mean of what it finds at the convolution's output. -/
theorem stretchB_mean (W : Valuation τ sig (Elt F)) :
    after opsB W (Proc.devRef .tc main_v20) = meanOf (F := F) (W (Proc.devRef .tc main_v16)) := by
  simp only [opsB]
  after_results
  rfl

set_option maxRecDepth 8192 in
set_option maxHeartbeats 1000000 in
/-- The second stretch leaves the variance (about that mean) of what it finds at the convolution's output. -/
theorem stretchB_var (W : Valuation τ sig (Elt F)) :
    after opsB W (Proc.devRef .tc main_v27) = varOf (F := F) (W (Proc.devRef .tc main_v16)) (meanOf (F := F) (W (Proc.devRef .tc main_v16))) := by
  simp only [opsB]
  after_results
  rfl

set_option maxRecDepth 8192 in
set_option maxHeartbeats 1000000 in
/-- The last stretch's result from the buffers it takes over. -/
theorem stretchC (W : Valuation τ sig (Elt F)) :
    after opsC W (Proc.devRef .tc main_v43)
      = tailOf (F := F) (W (Proc.devRef .tc main_v16)) (W (Proc.devRef .tc main_v20)) (W (Proc.devRef .tc main_v27))
          (W (Proc.devRef .tc main_arg6)) (W (Proc.devRef .tc main_arg7)) (W (Proc.devRef .tc main_arg1)) := by
  simp only [opsC, TRef.nullary, TRef.unary, TRef.binary, TRef.toBuf, TRef.ofBuf, TRef.of, cast_eq]
  after_results
  rfl

/-! The buffers a stretch does not write keep what they held. -/

set_option maxRecDepth 8192 in
set_option maxHeartbeats 1000000 in
theorem frameA_arg1 (W : Valuation τ sig (Elt F)) :
    after opsA W (Proc.devRef .tc main_arg1) = W (Proc.devRef .tc main_arg1) := by
  simp only [opsA]
  after_results <;> rfl

set_option maxRecDepth 8192 in
set_option maxHeartbeats 1000000 in
theorem frameA_arg6 (W : Valuation τ sig (Elt F)) :
    after opsA W (Proc.devRef .tc main_arg6) = W (Proc.devRef .tc main_arg6) := by
  simp only [opsA]
  after_results <;> rfl

set_option maxRecDepth 8192 in
set_option maxHeartbeats 1000000 in
theorem frameA_arg7 (W : Valuation τ sig (Elt F)) :
    after opsA W (Proc.devRef .tc main_arg7) = W (Proc.devRef .tc main_arg7) := by
  simp only [opsA]
  after_results <;> rfl

set_option maxRecDepth 8192 in
set_option maxHeartbeats 1000000 in
theorem frameB_v16 (W : Valuation τ sig (Elt F)) :
    after opsB W (Proc.devRef .tc main_v16) = W (Proc.devRef .tc main_v16) := by
  simp only [opsB]
  after_results <;> rfl

set_option maxRecDepth 8192 in
set_option maxHeartbeats 1000000 in
theorem frameB_arg1 (W : Valuation τ sig (Elt F)) :
    after opsB W (Proc.devRef .tc main_arg1) = W (Proc.devRef .tc main_arg1) := by
  simp only [opsB]
  after_results <;> rfl

set_option maxRecDepth 8192 in
set_option maxHeartbeats 1000000 in
theorem frameB_arg6 (W : Valuation τ sig (Elt F)) :
    after opsB W (Proc.devRef .tc main_arg6) = W (Proc.devRef .tc main_arg6) := by
  simp only [opsB]
  after_results <;> rfl

set_option maxRecDepth 8192 in
set_option maxHeartbeats 1000000 in
theorem frameB_arg7 (W : Valuation τ sig (Elt F)) :
    after opsB W (Proc.devRef .tc main_arg7) = W (Proc.devRef .tc main_arg7) := by
  simp only [opsB]
  after_results <;> rfl

/-- The whole line of operations. -/
abbrev ops : List (HloOp τ sig (Elt F)) := opsA ++ (opsB ++ opsC)

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} (l₁ l₂ : List α) (h₁ : l₁.Forall p) (h₂ : l₂.Forall p) :
    (l₁ ++ l₂).Forall p :=
  List.forall_iff_forall_mem.mpr fun a ha => (List.mem_append.mp ha).elim
    (List.forall_iff_forall_mem.mp h₁ a) (List.forall_iff_forall_mem.mp h₂ a)

theorem ops_sub : (ops : List (HloOp τ sig (Elt F))).Forall fun op => op.bufs ⊆ tcRefs τ sig :=
  forall_append _ _ opsA_sub (forall_append _ _ opsB_sub opsC_sub)

/-- The result buffer after the whole line, from any contents: the last stage of the arguments found. -/
theorem result (W : Valuation τ sig (Elt F)) :
    after ops W (Proc.devRef .tc main_v43)
      = ReadP.val_main_v43 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) (W (Proc.devRef .tc main_arg6))
          (W (Proc.devRef .tc main_arg7)) := by
  rw [ops, StableHlo.after_append, StableHlo.after_append, stretchC, frameB_v16, stretchB_mean, stretchB_var, frameB_arg1,
    frameB_arg6, frameB_arg7, stretchA, frameA_arg1, frameA_arg6, frameA_arg7, meanOf_val, varOf_val, tailOf_val]

set_option maxRecDepth 8192 in
set_option maxHeartbeats 2000000 in
/-- The run, its result named by the stages of the operations read one at a time. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = ReadP.val_main_v43 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  exact (θ_run defs _ _).mono (fun _ h c => ⟨(h c main_v43).trans (result (F := F) (launchContents m c)),
      (h c main_arg0).trans (by simp only [ops, opsA, opsB, opsC, List.cons_append, List.nil_append]; after_results_simp <;> rfl),
      (h c main_arg1).trans (by simp only [ops, opsA, opsB, opsC, List.cons_append, List.nil_append]; after_results_simp <;> rfl),
      (h c main_arg2).trans (by simp only [ops, opsA, opsB, opsC, List.cons_append, List.nil_append]; after_results_simp <;> rfl),
      (h c main_arg3).trans (by simp only [ops, opsA, opsB, opsC, List.cons_append, List.nil_append]; after_results_simp <;> rfl),
      (h c main_arg4).trans (by simp only [ops, opsA, opsB, opsC, List.cons_append, List.nil_append]; after_results_simp <;> rfl),
      (h c main_arg5).trans (by simp only [ops, opsA, opsB, opsC, List.cons_append, List.nil_append]; after_results_simp <;> rfl),
      (h c main_arg6).trans (by simp only [ops, opsA, opsB, opsC, List.cons_append, List.nil_append]; after_results_simp <;> rfl),
      (h c main_arg7).trans (by simp only [ops, opsA, opsB, opsC, List.cons_append, List.nil_append]; after_results_simp <;> rfl)⟩)
    (run_seq scopedRefs_eq scopedSems_eq defs main (fun _ => ops) main_eq (fun _ => ops_sub) m ρ)

end Cert.ReferenceIdeal.RunP

end
-- ==== Proof.RefValue.lean ====
/-
  The reference's result, read index by index, is the specification at the variance taken as the mean of the
  squared deviations.
-/
import proofs.«125758_j12592844112371_1_alg».proof.Proof.RefRead
import proofs.«125758_j12592844112371_1_alg».proof.Proof.Spec
import Idealize.ShloMosaic.Lib.IdealHost
import Idealize.ShloMosaic.Lib.ValueLayout

set_option maxRecDepth 16384

noncomputable section

open scoped BigOperators

namespace Cert.ReferenceIdeal.RefValue

open Cert.ReferenceIdeal Cert.ReferenceIdeal.Gen Idealize.ShloMosaic Idealize.ShloMosaic.ValueIdx

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Which positions the reduction over the batch, the points and the neighbours sends to channel `d`. -/
theorem drop_eq_iff (a : Fin 4) (b : Fin 16) (c : Fin 16384) (e : Fin 16) (d : Fin 16) :
    reducesTo_S4x16x16384x16_S16_d0_2_3.drop (ix4 a b c e) = ix1 d ↔ b = d := by
  have hv : ((reducesTo_S4x16x16384x16_S16_d0_2_3.drop (ix4 a b c e) (0 : Fin 1) : Fin _) : Nat) = b.val :=
    Shape.ReducesTo.drop_apply_val_of_eq reducesTo_S4x16x16384x16_S16_d0_2_3 (ix4 a b c e) (0 : Fin 1) (1 : Fin 4)
  constructor
  · intro h
    have := congrArg (fun (i : S16.Idx) => (i 0 : Nat)) h
    exact Fin.ext (hv.symm.trans this)
  · intro h
    subst h
    funext q
    match q with
    | ⟨0, _⟩ => exact Fin.ext hv

/-- The host's sum over the batch, the points and the neighbours, read at a channel. -/
theorem reduce_at (x : FVec Ideal S4x16x16384x16 .f32) (init : FVec Ideal S_ .f32) (d : Fin 16) :
    Host.reduceAdd (F := Ideal) x init reducesTo_S4x16x16384x16_S16_d0_2_3 h_S_ (ix1 d)
      = init ix0 + ∑ b : Fin 4, ∑ n : Fin 16384, ∑ k : Fin 16, x (ix4 b d n k) := by
  rw [hostReduceAdd_apply]
  unfold Ideal.hostReduceAdd
  have e0 : (Shape.Idx.first h_S_ : S_.Idx) = ix0 := eq_ix0 _
  rw [e0]
  refine congrArg (fun z => init ix0 + z) ?_
  rw [Finset.sum_filter, sum_idx4]
  refine Finset.sum_congr rfl fun a _ => ?_
  rw [Finset.sum_eq_single d]
  · simp only [drop_eq_iff, if_true]
  · intro b _ hb
    simp only [drop_eq_iff, if_neg hb, Finset.sum_const_zero]
  · intro h; exact absurd (Finset.mem_univ d) h

/-- The point's coordinates repeated over the neighbours, read at an index. -/
theorem v8_at (x0 : FVec Ideal S4x16384x3 .f32) (b : Fin 4) (n : Fin 16384) (k : Fin 16) (c : Fin 3) :
    ReadP.val_main_v8 (F := Ideal) x0 (ix4 b n k c) = x0 (ix3 b n c) := by
  rw [ReadP.val_main_v8_apply, ReadP.val_main_v7_apply]
  exact congrArg x0 (funext fun a => by match a with | ⟨0, _⟩ => rfl | ⟨1, _⟩ => rfl | ⟨2, _⟩ => rfl)

/-- The distances with a unit axis appended, read at an index. -/
theorem v10_at (x3 : FVec Ideal S4x16384x16 .f32) (b : Fin 4) (n : Fin 16384) (k : Fin 16) (c : Fin 1) :
    ReadP.val_main_v10 (F := Ideal) x3 (ix4 b n k c) = x3 (ix3 b n k) := by
  rw [ReadP.val_main_v10_apply]
  exact congrArg x3 (funext fun a => by match a with | ⟨0, _⟩ => rfl | ⟨1, _⟩ => rfl | ⟨2, _⟩ => rfl)

/-- The difference of the point's and the neighbour's coordinates, read at an index. -/
theorem v9_at (x0 : FVec Ideal S4x16384x3 .f32) (x2 : IVec S4x16384x16 32) (b : Fin 4) (n : Fin 16384) (k : Fin 16)
    (c : Fin 3) :
    ReadP.val_main_v9 (F := Ideal) x0 x2 (ix4 b n k c)
      = x0 (ix3 b n c) - ReadP.val_main_v6 (F := Ideal) x0 x2 (ix4 b n k c) := by
  rw [ReadP.val_main_v9_apply, v8_at, Ideal.subf_def]

/-- The ten-channel row, read at an index, is the specification's. -/
theorem cat_at (x0 : FVec Ideal S4x16384x3 .f32) (x2 : IVec S4x16384x16 32) (x3 : FVec Ideal S4x16384x16 .f32)
    (b : Fin 4) (n : Fin 16384) (k : Fin 16) (c : Fin 10) :
    ReadP.val_main_v11 (F := Ideal) x0 x2 x3 (ix4 b n k c)
      = Spec.cat x0 (ReadP.val_main_v6 (F := Ideal) x0 x2) x3 b n k c := by
  unfold ReadP.val_main_v11 Spec.cat
  by_cases h3 : c.val < 3
  · rw [dif_pos h3]
    refine (concatenate_apply_piece (3 : Fin 4) _ _ (ix4 b n k c) 0 ?_ S4x16384x16x3
      (ReadP.val_main_v8 (F := Ideal) x0) ?_ rfl 0 ?_ (ix4 b n k (⟨c.val, h3⟩ : Fin 3)) ?_ ?_).trans (v8_at x0 b n k _)
    · exact Nat.succ_pos _
    · rfl
    · rfl
    · intro q hq
      match q with
      | ⟨0, _⟩ => rfl
      | ⟨1, _⟩ => rfl
      | ⟨2, _⟩ => rfl
      | ⟨3, _⟩ => exact absurd rfl hq
    · show 0 + c.val = c.val
      omega
  · rw [dif_neg h3]
    by_cases h6 : c.val < 6
    · rw [dif_pos h6]
      refine concatenate_apply_piece (3 : Fin 4) _ _ (ix4 b n k c) 1 ?_ S4x16384x16x3
        (ReadP.val_main_v6 (F := Ideal) x0 x2) ?_ rfl 3 ?_ (ix4 b n k (⟨c.val - 3, by omega⟩ : Fin 3)) ?_ ?_
      · exact Nat.succ_lt_succ (Nat.succ_pos _)
      · rfl
      · rfl
      · intro q hq
        match q with
        | ⟨0, _⟩ => rfl
        | ⟨1, _⟩ => rfl
        | ⟨2, _⟩ => rfl
        | ⟨3, _⟩ => exact absurd rfl hq
      · show 3 + (c.val - 3) = c.val
        omega
    · rw [dif_neg h6]
      by_cases h9 : c.val < 9
      · rw [dif_pos h9]
        refine (concatenate_apply_piece (3 : Fin 4) _ _ (ix4 b n k c) 2 ?_ S4x16384x16x3
          (ReadP.val_main_v9 (F := Ideal) x0 x2) ?_ rfl 6 ?_ (ix4 b n k (⟨c.val - 6, by omega⟩ : Fin 3)) ?_ ?_).trans
          (v9_at x0 x2 b n k _)
        · exact Nat.succ_lt_succ (Nat.succ_lt_succ (Nat.succ_pos _))
        · rfl
        · rfl
        · intro q hq
          match q with
          | ⟨0, _⟩ => rfl
          | ⟨1, _⟩ => rfl
          | ⟨2, _⟩ => rfl
          | ⟨3, _⟩ => exact absurd rfl hq
        · show 6 + (c.val - 6) = c.val
          omega
      · rw [dif_neg h9]
        refine (concatenate_apply_piece (3 : Fin 4) _ _ (ix4 b n k c) 3 ?_ S4x16384x16x1
          (ReadP.val_main_v10 (F := Ideal) x3) ?_ rfl 9 ?_ (ix4 b n k (0 : Fin 1)) ?_ ?_).trans
          (v10_at x3 b n k _)
        · exact Nat.succ_lt_succ (Nat.succ_lt_succ (Nat.succ_lt_succ (Nat.succ_pos _)))
        · rfl
        · rfl
        · intro q hq
          match q with
          | ⟨0, _⟩ => rfl
          | ⟨1, _⟩ => rfl
          | ⟨2, _⟩ => rfl
          | ⟨3, _⟩ => exact absurd rfl hq
        · show 9 + 0 = c.val
          have := c.isLt
          omega

/-- The convolution's output, read at an index, is the specification's. -/
theorem conv_at (x0 : FVec Ideal S4x16384x3 .f32) (x2 : IVec S4x16384x16 32) (x3 : FVec Ideal S4x16384x16 .f32)
    (x4 : FVec Ideal S16x10 .f32) (x5 : FVec Ideal S16 .f32) (b : Fin 4) (d : Fin 16) (n : Fin 16384) (k : Fin 16) :
    ReadP.val_main_v16 (F := Ideal) x0 x2 x3 x4 x5 (ix4 b d n k)
      = Spec.conv x0 (ReadP.val_main_v6 (F := Ideal) x0 x2) x3 x4 x5 b d n k := by
  rw [ReadP.val_main_v16_apply, ReadP.val_main_v13_apply, ReadP.val_main_v12_apply, ReadP.val_main_v15_apply,
    ReadP.val_main_v14_apply, Ideal.addf_def]
  unfold Spec.conv
  have e5 : ReadP.idx_main_v14 (ReadP.idx_main_v15 (ix4 b d n k)) = ix1 d :=
    funext fun a => by match a with | ⟨0, _⟩ => rfl
  rw [e5]
  refine congrArg (fun z => z + x5 (ix1 d)) ?_
  refine Finset.sum_congr rfl fun c _ => ?_
  have el : ReadP.lidx_main_v12 (ReadP.idx_main_v13 (ix4 b d n k)) c = ix2 d c :=
    funext fun a => by match a with | ⟨0, _⟩ => rfl | ⟨1, _⟩ => rfl
  have er : ReadP.ridx_main_v12 (ReadP.idx_main_v13 (ix4 b d n k)) c = ix4 b n k c :=
    funext fun a => by match a with | ⟨0, _⟩ => rfl | ⟨1, _⟩ => rfl | ⟨2, _⟩ => rfl | ⟨3, _⟩ => rfl
  rw [el, er, cat_at]

/-- The sum of a channel over all positions is the specification's. -/
theorem sum1_at (x0 : FVec Ideal S4x16384x3 .f32) (x2 : IVec S4x16384x16 32) (x3 : FVec Ideal S4x16384x16 .f32)
    (x4 : FVec Ideal S16x10 .f32) (x5 : FVec Ideal S16 .f32) (d : Fin 16) :
    ReadP.val_main_v17 (F := Ideal) x0 x2 x3 x4 x5 (ix1 d)
      = Spec.sum1 x0 (ReadP.val_main_v6 (F := Ideal) x0 x2) x3 x4 x5 d := by
  unfold ReadP.val_main_v17 Spec.sum1
  rw [reduce_at, ReadP.val_main_cst_apply, Ideal.ofBits_def, Ideal.ofBits_zero_f32, zero_add]
  simp only [conv_at]

/-- The channel's mean is the specification's. -/
theorem mean_at (x0 : FVec Ideal S4x16384x3 .f32) (x2 : IVec S4x16384x16 32) (x3 : FVec Ideal S4x16384x16 .f32)
    (x4 : FVec Ideal S16x10 .f32) (x5 : FVec Ideal S16 .f32) (d : Fin 16) :
    ReadP.val_main_v20 (F := Ideal) x0 x2 x3 x4 x5 (ix4 (0 : Fin 1) d (0 : Fin 1) (0 : Fin 1))
      = Spec.mean x0 (ReadP.val_main_v6 (F := Ideal) x0 x2) x3 x4 x5 d := by
  rw [ReadP.val_main_v20_apply, ReadP.val_main_v18_apply, ReadP.val_main_v19_apply, ReadP.val_main_cst_1_apply,
    Ideal.hostDivf_def, Ideal.ofBits_def]
  have e : ReadP.idx_main_v18 (ix4 (0 : Fin 1) d (0 : Fin 1) (0 : Fin 1)) = ix1 d :=
    funext fun a => by match a with | ⟨0, _⟩ => rfl
  rw [e, sum1_at]
  unfold Spec.mean Spec.cnt
  rfl

/-- The channel's mean repeated over all positions, read at an index. -/
theorem v21_at (x0 : FVec Ideal S4x16384x3 .f32) (x2 : IVec S4x16384x16 32) (x3 : FVec Ideal S4x16384x16 .f32)
    (x4 : FVec Ideal S16x10 .f32) (x5 : FVec Ideal S16 .f32) (b : Fin 4) (d : Fin 16) (n : Fin 16384) (k : Fin 16) :
    ReadP.val_main_v21 (F := Ideal) x0 x2 x3 x4 x5 (ix4 b d n k)
      = Spec.mean x0 (ReadP.val_main_v6 (F := Ideal) x0 x2) x3 x4 x5 d := by
  rw [ReadP.val_main_v21_apply]
  have e : ReadP.idx_main_v21 (ix4 b d n k) = ix4 (0 : Fin 1) d (0 : Fin 1) (0 : Fin 1) :=
    funext fun a => by match a with | ⟨0, _⟩ => rfl | ⟨1, _⟩ => rfl | ⟨2, _⟩ => rfl | ⟨3, _⟩ => rfl
  rw [e, mean_at]

/-- The squared deviation from the mean, read at an index. -/
theorem sq_at (x0 : FVec Ideal S4x16384x3 .f32) (x2 : IVec S4x16384x16 32) (x3 : FVec Ideal S4x16384x16 .f32)
    (x4 : FVec Ideal S16x10 .f32) (x5 : FVec Ideal S16 .f32) (b : Fin 4) (d : Fin 16) (n : Fin 16384) (k : Fin 16) :
    ReadP.val_main_v23 (F := Ideal) x0 x2 x3 x4 x5 (ix4 b d n k)
      = (Spec.conv x0 (ReadP.val_main_v6 (F := Ideal) x0 x2) x3 x4 x5 b d n k
            - Spec.mean x0 (ReadP.val_main_v6 (F := Ideal) x0 x2) x3 x4 x5 d)
          * (Spec.conv x0 (ReadP.val_main_v6 (F := Ideal) x0 x2) x3 x4 x5 b d n k
            - Spec.mean x0 (ReadP.val_main_v6 (F := Ideal) x0 x2) x3 x4 x5 d) := by
  rw [ReadP.val_main_v23_apply, ReadP.val_main_v22_apply, conv_at, v21_at, Ideal.mulf_def, Ideal.subf_def]

/-- The channel's variance is the mean of the squared deviations. -/
theorem var_at (x0 : FVec Ideal S4x16384x3 .f32) (x2 : IVec S4x16384x16 32) (x3 : FVec Ideal S4x16384x16 .f32)
    (x4 : FVec Ideal S16x10 .f32) (x5 : FVec Ideal S16 .f32) (d : Fin 16) :
    ReadP.val_main_v27 (F := Ideal) x0 x2 x3 x4 x5 (ix4 (0 : Fin 1) d (0 : Fin 1) (0 : Fin 1))
      = Spec.varD x0 (ReadP.val_main_v6 (F := Ideal) x0 x2) x3 x4 x5 d := by
  rw [ReadP.val_main_v27_apply, ReadP.val_main_v25_apply, ReadP.val_main_v26_apply, ReadP.val_main_cst_3_apply,
    Ideal.hostDivf_def, Ideal.ofBits_def]
  have e : ReadP.idx_main_v25 (ix4 (0 : Fin 1) d (0 : Fin 1) (0 : Fin 1)) = ix1 d :=
    funext fun a => by match a with | ⟨0, _⟩ => rfl
  rw [e]
  unfold ReadP.val_main_v24 Spec.varD Spec.cnt
  rw [reduce_at, ReadP.val_main_cst_2_apply, Ideal.ofBits_def, Ideal.ofBits_zero_f32, zero_add]
  simp only [sq_at]

/-- The normalised, scaled, shifted and clipped channel, read at an index, is the specification's at the variance
    taken as the mean of the squared deviations. -/
theorem act_at (x0 : FVec Ideal S4x16384x3 .f32) (x2 : IVec S4x16384x16 32) (x3 : FVec Ideal S4x16384x16 .f32)
    (x4 : FVec Ideal S16x10 .f32) (x5 x6 x7 : FVec Ideal S16 .f32) (b : Fin 4) (d : Fin 16) (n : Fin 16384)
    (k : Fin 16) :
    ReadP.val_main_v41 (F := Ideal) x0 x2 x3 x4 x5 x6 x7 (ix4 b d n k)
      = Spec.act x0 (ReadP.val_main_v6 (F := Ideal) x0 x2) x3 x4 x5 x6 x7
          (Spec.varD x0 (ReadP.val_main_v6 (F := Ideal) x0 x2) x3 x4 x5) b d n k := by
  have e1 : ReadP.idx_main_v28 (ix4 b d n k) = ix4 (0 : Fin 1) d (0 : Fin 1) (0 : Fin 1) :=
    funext fun a => by match a with | ⟨0, _⟩ => rfl | ⟨1, _⟩ => rfl | ⟨2, _⟩ => rfl | ⟨3, _⟩ => rfl
  have e2 : ReadP.idx_main_v33 (ix4 b d n k) = ix4 (0 : Fin 1) d (0 : Fin 1) (0 : Fin 1) :=
    funext fun a => by match a with | ⟨0, _⟩ => rfl | ⟨1, _⟩ => rfl | ⟨2, _⟩ => rfl | ⟨3, _⟩ => rfl
  have e3 : ReadP.idx_main_v35 (ReadP.idx_main_v36 (ix4 b d n k)) = ix1 d :=
    funext fun a => by match a with | ⟨0, _⟩ => rfl
  have e4 : ReadP.idx_main_v38 (ReadP.idx_main_v39 (ix4 b d n k)) = ix1 d :=
    funext fun a => by match a with | ⟨0, _⟩ => rfl
  rw [ReadP.val_main_v41_apply, ReadP.val_main_call0_v0_apply, ReadP.val_main_call0_cst_apply,
    ReadP.val_main_v40_apply, ReadP.val_main_v39_apply, ReadP.val_main_v38_apply, e4,
    ReadP.val_main_v37_apply, ReadP.val_main_v36_apply, ReadP.val_main_v35_apply, e3,
    ReadP.val_main_v34_apply, ReadP.val_main_v33_apply, e2, ReadP.val_main_v32_apply, ReadP.val_main_v31_apply,
    ReadP.val_main_v30_apply, ReadP.val_main_cst_4_apply, var_at,
    ReadP.val_main_v29_apply, ReadP.val_main_v28_apply, e1, mean_at, conv_at,
    Ideal.maximumf_def, Ideal.addf_def, Ideal.mulf_def, Ideal.mulf_def, Ideal.hostUnary_rsqrt_def, Ideal.addf_def,
    Ideal.subf_def, Ideal.ofBits_def, Ideal.ofBits_def, Ideal.ofBits_zero_f32]
  unfold Spec.act Spec.actG Spec.eps
  rfl

/-- The point's features repeated over the neighbours, read at an index. -/
theorem feat_at (x1 : FVec Ideal S4x16x16384x1 .f32) (b : Fin 4) (d : Fin 16) (n : Fin 16384) (k : Fin 16) :
    ReadP.val_main_v42 (F := Ideal) x1 (ix4 b d n k) = x1 (ix4 b d n (0 : Fin 1)) := by
  rw [ReadP.val_main_v42_apply]
  exact congrArg x1 (funext fun a => by match a with | ⟨0, _⟩ => rfl | ⟨1, _⟩ => rfl | ⟨2, _⟩ => rfl | ⟨3, _⟩ => rfl)

/-- The reference's result, read at an index: below channel 16 the normalised convolution, from 16 on the
    features. -/
theorem out_at (x0 : FVec Ideal S4x16384x3 .f32) (x1 : FVec Ideal S4x16x16384x1 .f32) (x2 : IVec S4x16384x16 32)
    (x3 : FVec Ideal S4x16384x16 .f32) (x4 : FVec Ideal S16x10 .f32) (x5 x6 x7 : FVec Ideal S16 .f32)
    (b : Fin 4) (ch : Fin 32) (n : Fin 16384) (k : Fin 16) :
    ReadP.val_main_v43 (F := Ideal) x0 x1 x2 x3 x4 x5 x6 x7 (ix4 b ch n k)
      = if h : ch.val < 16 then
          Spec.act x0 (ReadP.val_main_v6 (F := Ideal) x0 x2) x3 x4 x5 x6 x7
            (Spec.varD x0 (ReadP.val_main_v6 (F := Ideal) x0 x2) x3 x4 x5) b ⟨ch.val, h⟩ n k
        else x1 (ix4 b (⟨ch.val - 16, by have := ch.isLt; omega⟩ : Fin 16) n (0 : Fin 1)) := by
  unfold ReadP.val_main_v43
  by_cases h : ch.val < 16
  · rw [dif_pos h]
    refine (concatenate_pair_apply_left (s₁ := S4x16x16384x16) (s₂ := S4x16x16384x16) (1 : Fin 4) _ _ _
      (ix4 b ch n k) rfl (ix4 b (⟨ch.val, h⟩ : Fin 16) n k) ?_).trans
      (act_at x0 x2 x3 x4 x5 x6 x7 b _ n k)
    intro q
    match q with
    | ⟨0, _⟩ => rfl
    | ⟨1, _⟩ => rfl
    | ⟨2, _⟩ => rfl
    | ⟨3, _⟩ => rfl
  · rw [dif_neg h]
    refine (concatenate_pair_apply_right (s₁ := S4x16x16384x16) (s₂ := S4x16x16384x16) (1 : Fin 4) _ _ _
      (ix4 b ch n k) rfl rfl
      (ix4 b (⟨ch.val - 16, by have := ch.isLt; omega⟩ : Fin 16) n k) ?_ ?_).trans (feat_at x1 b _ n k)
    · intro q hq
      match q with
      | ⟨0, _⟩ => rfl
      | ⟨1, _⟩ => exact absurd rfl hq
      | ⟨2, _⟩ => rfl
      | ⟨3, _⟩ => rfl
    · show (ch.val - 16) + 16 = ch.val
      omega

/-- The last stage of the reference, at `Ideal`, is the specification: the neighbours' coordinates are the
    gather stage, the variance the mean of the squared deviations. -/
theorem out_eq (x0 : FVec Ideal S4x16384x3 .f32) (x1 : FVec Ideal S4x16x16384x1 .f32) (x2 : IVec S4x16384x16 32)
    (x3 : FVec Ideal S4x16384x16 .f32) (x4 : FVec Ideal S16x10 .f32) (x5 x6 x7 : FVec Ideal S16 .f32) :
    ReadP.val_main_v43 (F := Ideal) x0 x1 x2 x3 x4 x5 x6 x7
      = Spec.out x0 (ReadP.val_main_v6 (F := Ideal) x0 x2) x3 x4 x5 x6 x7
          (Spec.varD x0 (ReadP.val_main_v6 (F := Ideal) x0 x2) x3 x4 x5) x1 := by
  funext j
  obtain ⟨b, ch, n, k, rfl⟩ : ∃ (b : Fin 4) (ch : Fin 32) (n : Fin 16384) (k : Fin 16), j = ix4 b ch n k :=
    ⟨j 0, j 1, j 2, j 3, eq_ix4 j⟩
  rw [out_at]
  rfl

end Cert.ReferenceIdeal.RefValue

end
-- ==== Proof.Law.lean ====
/-
  The two forms of the variance agree when every entry of the convolution's inputs is a real number: over the
  reals, with n = 2^20 values x and mean mu = (sum x) / n,
      (sum x^2) / n - mu^2 = (sum (x - mu)^2) / n,
  because sum (x - mu)^2 = sum x^2 - 2 mu sum x + n mu^2 and sum x = n mu.
-/
import proofs.«125758_j12592844112371_1_alg».proof.Proof.Spec
import Mathlib.Tactic.FieldSimp
import Mathlib.Tactic.Ring
import Mathlib.Tactic.NormNum

noncomputable section

open scoped BigOperators

namespace Cert.Spec

open Idealize.ShloMosaic Idealize.ShloMosaic.ValueIdx

/-- A finite sum of real numbers, read in the extended reals, is the real sum. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The variance identity over the reals, for a family indexed by any finite type with `N` elements:
    with `S` the sum and `mu = S / N`, the sum of `(x - mu)^2` is the sum of `x^2` minus `2 mu S` plus `N mu^2`,
    and `S = N mu`. Division is written as the product with `1 / N`. -/
theorem real_var_identity {ι : Type*} [Fintype ι] (x : ι → ℝ) (N : ℝ) (hN : N ≠ 0)
    (hc : (Fintype.card ι : ℝ) = N) :
    (∑ i, x i * x i) * (1 / N) - ((∑ i, x i) * (1 / N)) * ((∑ i, x i) * (1 / N)) =
      (∑ i, (x i - (∑ j, x j) * (1 / N)) * (x i - (∑ j, x j) * (1 / N))) * (1 / N) := by
  have hexp : ∀ m : ℝ, ∑ i, (x i - m) * (x i - m) = (∑ i, x i * x i) - 2 * m * (∑ i, x i) + N * (m * m) := by
    intro m
    have hpt : ∀ i, (x i - m) * (x i - m) = x i * x i - 2 * m * x i + m * m := fun i => by ring
    simp_rw [hpt]
    rw [Finset.sum_add_distrib, Finset.sum_sub_distrib, ← Finset.mul_sum, Finset.sum_const, Finset.card_univ,
      nsmul_eq_mul, hc]
  rw [hexp]
  field_simp
  ring

/-- The count the programs spell is the real number 2^20 = 1048576. -/
theorem cnt_eq : cnt = ((1048576 : ℝ) : EReal) := by
  unfold cnt
  simp [Ideal.ofBits, Ideal.ieee, -EReal.coe_mul]; norm_num

/-- With real inputs, every channel of the ten-channel row is a real number. -/
theorem cat_real (co : FVec Ideal SCo .f32) (nb : FVec Ideal SNb .f32) (ds : FVec Ideal SDs .f32)
    (hco : ∀ i, ∃ r : ℝ, co i = (r : EReal)) (hnb : ∀ i, ∃ r : ℝ, nb i = (r : EReal))
    (hds : ∀ i, ∃ r : ℝ, ds i = (r : EReal)) (b : Fin 4) (n : Fin 16384) (k : Fin 16) (c : Fin 10) :
    ∃ r : ℝ, cat co nb ds b n k c = (r : EReal) := by
  unfold cat
  split_ifs with h3 h6 h9
  · exact hco _
  · exact hnb _
  · obtain ⟨r1, h1⟩ := hco (ix3 b n ⟨c.val - 6, by omega⟩)
    obtain ⟨r2, h2⟩ := hnb (ix4 b n k ⟨c.val - 6, by omega⟩)
    exact ⟨r1 - r2, by rw [h1, h2, EReal.coe_sub]⟩
  · exact hds _

/-- With real inputs, every output of the convolution is a real number. -/
theorem conv_real (co : FVec Ideal SCo .f32) (nb : FVec Ideal SNb .f32) (ds : FVec Ideal SDs .f32)
    (w : FVec Ideal SW .f32) (bi : FVec Ideal SV .f32)
    (hco : ∀ i, ∃ r : ℝ, co i = (r : EReal)) (hnb : ∀ i, ∃ r : ℝ, nb i = (r : EReal))
    (hds : ∀ i, ∃ r : ℝ, ds i = (r : EReal)) (hw : ∀ i, ∃ r : ℝ, w i = (r : EReal))
    (hbi : ∀ i, ∃ r : ℝ, bi i = (r : EReal)) (b : Fin 4) (d : Fin 16) (n : Fin 16384) (k : Fin 16) :
    ∃ r : ℝ, conv co nb ds w bi b d n k = (r : EReal) := by
  unfold conv
  choose cr hcr using fun c => cat_real co nb ds hco hnb hds b n k c
  choose wr hwr using hw
  obtain ⟨br, hbr⟩ := hbi (ix1 d)
  refine ⟨(∑ c : Fin 10, wr (ix2 d c) * cr c) + br, ?_⟩
  rw [hbr, EReal.coe_add, ← coe_finset_sum]
  congr 1
  refine Finset.sum_congr rfl fun c _ => ?_
  rw [hwr, hcr, EReal.coe_mul]

/-- With real inputs the mean of the squares minus the square of the mean is the mean of the squared deviations. -/
theorem varM_eq_varD (co : FVec Ideal SCo .f32) (nb : FVec Ideal SNb .f32) (ds : FVec Ideal SDs .f32)
    (w : FVec Ideal SW .f32) (bi : FVec Ideal SV .f32)
    (hco : ∀ i, ∃ r : ℝ, co i = (r : EReal)) (hnb : ∀ i, ∃ r : ℝ, nb i = (r : EReal))
    (hds : ∀ i, ∃ r : ℝ, ds i = (r : EReal)) (hw : ∀ i, ∃ r : ℝ, w i = (r : EReal))
    (hbi : ∀ i, ∃ r : ℝ, bi i = (r : EReal)) :
    varM co nb ds w bi = varD co nb ds w bi := by
  funext d
  choose x hx using fun b n k => conv_real co nb ds w bi hco hnb hds hw hbi b d n k
  have hN : (1048576 : ℝ) ≠ 0 := by norm_num
  have hcard : (Fintype.card (Fin 4 × Fin 16384 × Fin 16) : ℝ) = 1048576 := by
    simp only [Fintype.card_prod, Fintype.card_fin]; norm_num
  have key := real_var_identity (fun p : Fin 4 × Fin 16384 × Fin 16 => x p.1 p.2.1 p.2.2) 1048576 hN hcard
  simp only [Fintype.sum_prod_type] at key
  unfold varM varD mean sum1 sum2
  simp only [hx, cnt_eq, Ideal.div_coe hN, ← EReal.coe_mul, coe_finset_sum, ← EReal.coe_sub]
  exact congrArg Real.toEReal key

end Cert.Spec

end
-- ==== Proof.Finite.lean ====
/-
  The precondition says every float input holds finite numbers; read at an entry: each entry of the coordinates,
  the distances, the weights and the bias is a real number.
-/
import proofs.«125758_j12592844112371_1_alg».proof.Proof.Gen.Pre_finite_inputs
import Idealize.ShloMosaic.PureOps.Ideal
import Idealize.ShloMosaic.Lib.ValueIdx
import Idealize.ShloMosaic.Lib.ReduceAll

noncomputable section

namespace Cert.Pre_finite_inputs.Finite

open Cert.Pre_finite_inputs Idealize.ShloMosaic Idealize.ShloMosaic.ValueIdx

/-- The pattern of positive infinity denotes the top element of the extended reals. -/
theorem inf_eq_top : Ideal.ofBits .f32 0x7F800000#32 = (⊤ : EReal) := by
  simp [Ideal.ofBits, Ideal.ieee]

/-- The strict comparison that answers one says the left side lies strictly below the right side. -/
theorem lt_of_cmp_olt (a b : EReal) (h : Ideal.cmp .olt a b = 1#1) : a < b := by
  by_contra hn
  have h0 : Ideal.cmp .olt a b = 0#1 := by simp [Ideal.cmp, hn]
  rw [h0] at h
  exact absurd h (by decide)

/-- An extended real whose absolute value lies strictly below the top element is a real number:
    the absolute value of either infinity is the top element. -/
theorem real_of_abs_lt_top (x : EReal) (h : max x (-x) < ⊤) : ∃ r : ℝ, x = (r : EReal) := by
  induction x using EReal.rec with
  | bot => simp at h
  | coe r => exact ⟨r, rfl⟩
  | top => simp at h

/-- A shape of rank zero has one index. -/
theorem subsingleton_idx_S_ : Subsingleton S_.Idx := ⟨fun a b => funext fun d => d.elim0⟩

/-- Where the conjunction, over all entries of an array, of "the absolute value is below infinity" is one,
    every entry of the array is a real number. -/
theorem real_of_all {S : Shape} {axes : List (Fin S.rank)} (x : FVec Ideal S .f32)
    (hb : S_.BroadcastsInDim S (![] : Fin 0 → Fin S.rank)) (hr : S.ReducesTo axes S_) (hu : 0 < S_.numel)
    (j : S_.Idx)
    (h : Host.reduce IntOp.andi (cmpf .olt (Host.absf x) (broadcastInDim S ![] hb (constant S_ .f32 0x7F800000#32)))
      (constantI S_ 1 1#1) hr hu j = 1#1) : ∀ i, ∃ r : ℝ, x i = (r : EReal) := by
  intro i
  haveI := subsingleton_idx_S_
  have hi := Host.reduce_andi_all _ _ hr hu j h i
  -- at the entry: the compare of |x i| with the infinity pattern
  have hc : Ideal.cmp .olt (max (x i) (-(x i))) (Ideal.ofBits .f32 0x7F800000#32) = 1#1 := hi
  rw [inf_eq_top] at hc
  exact real_of_abs_lt_top _ (lt_of_cmp_olt _ _ hc)

/-- Where the precondition's predicate is all ones, every entry of arguments 0, 3, 4 and 5 is a real number. -/
theorem real_of_fn [Cert.Pre_finite_inputs.Facts] (x0 : FVec Ideal S4x16384x3 .f32) (x1 : FVec Ideal S4x16x16384x1 .f32)
    (x2 : IVec S4x16384x16 32) (x3 : FVec Ideal S4x16384x16 .f32) (x4 : FVec Ideal S16x10 .f32)
    (x5 x6 x7 : FVec Ideal S16 .f32)
    (h : Cert.Pre_finite_inputs.fn (F := Ideal) x0 x1 x2 x3 x4 x5 x6 x7 = fun _ => 1#1) :
    (∀ i, ∃ r : ℝ, x0 i = (r : EReal)) ∧ (∀ i, ∃ r : ℝ, x3 i = (r : EReal))
      ∧ (∀ i, ∃ r : ℝ, x4 i = (r : EReal)) ∧ (∀ i, ∃ r : ℝ, x5 i = (r : EReal)) := by
  -- the predicate at its one index: a conjunction of seven "all entries finite", nested to the left
  have h0 := congrFun h ValueIdx.ix0
  dsimp only [fn, fn_part1] at h0
  -- peel the conjuncts from the outside: arguments 7, 6, 5, 4, 3, then 1 and 0
  obtain ⟨h6, -⟩ := IntOp.andi_eq_one.1 h0
  obtain ⟨h5, -⟩ := IntOp.andi_eq_one.1 h6
  obtain ⟨h4, hx5⟩ := IntOp.andi_eq_one.1 h5
  obtain ⟨h3, hx4⟩ := IntOp.andi_eq_one.1 h4
  obtain ⟨h1, hx3⟩ := IntOp.andi_eq_one.1 h3
  obtain ⟨hx0, -⟩ := IntOp.andi_eq_one.1 h1
  exact ⟨real_of_all x0 _ _ _ _ hx0, real_of_all x3 _ _ _ _ hx3, real_of_all x4 _ _ _ _ hx4,
    real_of_all x5 _ _ _ _ hx5⟩

end Cert.Pre_finite_inputs.Finite

end
-- ==== Proof.lean ====
/-
  The kernel program and its reference compute one function on the extended reals.

  Both gather each point's sixteen neighbours, form the ten-channel rows (point, neighbour, difference, distance),
  apply the 1x1 convolution, normalise each of the sixteen channels over all 2^20 positions, scale, shift, clip at
  zero, and append the point's features. The kernel program computes the channel sums and sums of squares in a
  first pass over 64 tiles and normalises in a second pass, so its variance is the mean of the squares minus the
  square of the mean; the reference's is the mean of the squared deviations. The two agree because every float
  input is finite (the precondition): all quantities are then real numbers, and over the reals
  sum (x - mu)^2 = sum x^2 - n mu^2 when mu = (sum x) / n and n is the number of terms. Sums are regrouped freely
  (addition on the extended reals is commutative and associative); the neighbours' coordinates are one gathered
  array on both sides and are never opened, except to see that a gathered entry is an entry of the coordinates.
-/
import proofs.«125758_j12592844112371_1_alg».proof.Defs
import proofs.«125758_j12592844112371_1_alg».proof.Proof.Gen.Kernel
import proofs.«125758_j12592844112371_1_alg».proof.Proof.Gen.Kernel.Skeleton
import proofs.«125758_j12592844112371_1_alg».proof.Proof.Gen.Kernel.Launch
import proofs.«125758_j12592844112371_1_alg».proof.Proof.Gen.Kernel.Points
import proofs.«125758_j12592844112371_1_alg».proof.Proof.Gen.Kernel.Frame
import proofs.«125758_j12592844112371_1_alg».proof.Proof.Gen.KernelIdeal
import proofs.«125758_j12592844112371_1_alg».proof.Proof.Gen.KernelIdeal.Skeleton
import proofs.«125758_j12592844112371_1_alg».proof.Proof.Gen.KernelIdeal.Launch
import proofs.«125758_j12592844112371_1_alg».proof.Proof.Gen.KernelIdeal.Points
import proofs.«125758_j12592844112371_1_alg».proof.Proof.Gen.KernelIdeal.Frame
import proofs.«125758_j12592844112371_1_alg».proof.Proof.Gen.ReferenceIdeal
import proofs.«125758_j12592844112371_1_alg».proof.Proof.Gen.Pre_finite_inputs
import proofs.«125758_j12592844112371_1_alg».proof.Proof.KernelRun
import proofs.«125758_j12592844112371_1_alg».proof.Proof.KernelValue
import proofs.«125758_j12592844112371_1_alg».proof.Proof.RefRun
import proofs.«125758_j12592844112371_1_alg».proof.Proof.RefValue
import proofs.«125758_j12592844112371_1_alg».proof.Proof.Law
import proofs.«125758_j12592844112371_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The two gathers are one term: the same operation with the same dimension numbers on the same operands. -/
theorem nb_eq (x0 : FVec Ideal Cert.Spec.SCo .f32) (x2 : IVec Cert.Spec.SDs 32) :
    Cert.ReferenceIdeal.ReadP.val_main_v6 (F := Ideal) x0 x2 = Cert.KernelIdeal.HostOps.nbOf x0 x2 := rfl

/-- A gathered entry is an entry of the gathered array, so it is real when they all are. -/
theorem nb_real (x0 : FVec Ideal Cert.Spec.SCo .f32) (x2 : IVec Cert.Spec.SDs 32)
    (h : ∀ i, ∃ r : ℝ, x0 i = (r : EReal)) : ∀ i, ∃ r : ℝ, Cert.KernelIdeal.HostOps.nbOf x0 x2 i = (r : EReal) :=
  fun _ => h _

/-- From memories that agree on the arguments both programs end with the specification's array: the kernel
    program at the variance in its two-pass form, the reference at the variance of the deviations, equal under the
    precondition. -/
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.KernelValue.result_eq m ρ c), (h c).2⟩)
      (Cert.KernelIdeal.GenNamed.run (F := Ideal) m ρ), ?_⟩
  refine (θ_run Cert.ReferenceIdeal.defs _ _).mono (fun r h c => ⟨(h c).1.trans ?_, (h c).2⟩)
    (Cert.ReferenceIdeal.RunP.run (F := Ideal) m' ρ')
  obtain ⟨h0, h1, h2, h3, h4, h5, h6, h7⟩ := hagree c
  rw [h0, h1, h2, h3, h4, h5, h6, h7, Cert.ReferenceIdeal.RefValue.out_eq, nb_eq]
  obtain ⟨r0, r3, r4, r5⟩ := Cert.Pre_finite_inputs.Finite.real_of_fn _ _ _ _ _ _ _ _ (hpre c)
  rw [Cert.Spec.varM_eq_varD _ _ _ _ _ r0 (nb_real _ _ r0) r3 r4 r5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
